-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x750 : Shape := ⟨2, ![4096, 750]⟩
abbrev S_ : Shape := ⟨0, ![]⟩

class Facts : Prop where
  bcast_S_S4096x750 : S_.BroadcastsInDim S4096x750 (![] : Fin 0 → Fin S4096x750.rank)
  reducesTo_S4096x750_S_d0_1 : S4096x750.ReducesTo [0, 1] S_
  h_S_ : 0 < S_.numel

variable [Facts]

def fn {F : FTy → Type} [FloatOps F] (main_arg0 : FVec F S4096x750 .f32) (main_arg1 : FVec F S4096x750 .f32) : IVec S_ 1 :=
  let main_v0 : FVec F S4096x750 .f32 := Host.absf main_arg0
  let main_cst : FVec F S_ .f32 := constant S_ .f32 0x7F800000#32
  let main_v1 : FVec F S4096x750 .f32 := broadcastInDim S4096x750 ![] bcast_S_S4096x750 main_cst
  let main_v2 : IVec S4096x750 1 := cmpf .olt main_v0 main_v1
  let main_c : IVec S_ 1 := constantI S_ 1 1#1
  let main_v3 : IVec S_ 1 := (fun x v => Host.reduce IntOp.andi x v reducesTo_S4096x750_S_d0_1 h_S_) main_v2 main_c
  let main_v4 : FVec F S4096x750 .f32 := Host.absf main_arg1
  let main_cst_0 : FVec F S_ .f32 := constant S_ .f32 0x7F800000#32
  let main_v5 : FVec F S4096x750 .f32 := broadcastInDim S4096x750 ![] bcast_S_S4096x750 main_cst_0
  let main_v6 : IVec S4096x750 1 := cmpf .olt main_v4 main_v5
  let main_c_1 : IVec S_ 1 := constantI S_ 1 1#1
  let main_v7 : IVec S_ 1 := (fun x v => Host.reduce IntOp.andi x v reducesTo_S4096x750_S_d0_1 h_S_) main_v6 main_c_1
  let main_v8 : IVec S_ 1 := andi main_v3 main_v7
  main_v8
-- ==== Kernel.lean ====
abbrev S4096x750 : Shape := ⟨2, ![4096, 750]⟩
abbrev S4096x1 : Shape := ⟨2, ![4096, 1]⟩
abbrev S4096x1x6 : Shape := ⟨3, ![4096, 1, 6]⟩
abbrev S4096x6 : Shape := ⟨2, ![4096, 6]⟩
abbrev S4096x1x5 : Shape := ⟨3, ![4096, 1, 5]⟩
abbrev S4096x5 : Shape := ⟨2, ![4096, 5]⟩
abbrev S4096x761 : Shape := ⟨2, ![4096, 761]⟩
abbrev S2x11x750 : Shape := ⟨3, ![2, 11, 750]⟩
abbrev S512x750 : Shape := ⟨2, ![512, 750]⟩
abbrev S512x761 : Shape := ⟨2, ![512, 761]⟩
abbrev S1x11x750 : Shape := ⟨3, ![1, 11, 750]⟩
abbrev S11x750 : Shape := ⟨2, ![11, 750]⟩
abbrev S750 : Shape := ⟨1, ![750]⟩
abbrev S1x750 : Shape := ⟨2, ![1, 750]⟩
abbrev S1x1x750 : Shape := ⟨3, ![1, 1, 750]⟩
abbrev S2x1x1 : Shape := ⟨3, ![2, 1, 1]⟩
abbrev S1x1x1 : Shape := ⟨3, ![1, 1, 1]⟩
abbrev S1x1 : Shape := ⟨2, ![1, 1]⟩
abbrev S512 : Shape := ⟨1, ![512]⟩
abbrev S512x1 : Shape := ⟨2, ![512, 1]⟩
abbrev S1 : Shape := ⟨1, ![1]⟩
abbrev S_ : Shape := ⟨0, ![]⟩

abbrev nBuf : Space → Nat
  | .hbm => 50
  | .vmem => 16
  | .smem => 0
  | _ => 0

abbrev bufTy : (tb : Table) → Fin (tcTables nBuf tb) → BufTy
  | .hbm, ⟨0, _⟩ => ⟨S4096x750, .f32⟩
  | .hbm, ⟨1, _⟩ => ⟨S4096x750, .f32⟩
  | .hbm, ⟨2, _⟩ => ⟨S4096x1, .f32⟩
  | .hbm, ⟨3, _⟩ => ⟨S4096x1x6, .f32⟩
  | .hbm, ⟨4, _⟩ => ⟨S4096x6, .f32⟩
  | .hbm, ⟨5, _⟩ => ⟨S4096x1, .f32⟩
  | .hbm, ⟨6, _⟩ => ⟨S4096x1x5, .f32⟩
  | .hbm, ⟨7, _⟩ => ⟨S4096x5, .f32⟩
  | .hbm, ⟨8, _⟩ => ⟨S4096x761, .f32⟩
  | .hbm, ⟨9, _⟩ => ⟨S4096x1, .f32⟩
  | .hbm, ⟨10, _⟩ => ⟨S4096x1x6, .f32⟩
  | .hbm, ⟨11, _⟩ => ⟨S4096x6, .f32⟩
  | .hbm, ⟨12, _⟩ => ⟨S4096x1, .f32⟩
  | .hbm, ⟨13, _⟩ => ⟨S4096x1x5, .f32⟩
  | .hbm, ⟨14, _⟩ => ⟨S4096x5, .f32⟩
  | .hbm, ⟨15, _⟩ => ⟨S4096x761, .f32⟩
  | .hbm, ⟨16, _⟩ => ⟨S2x11x750, .f32⟩
  | .hbm, ⟨17, _⟩ => ⟨S2x11x750, .f32⟩
  | .hbm, ⟨18, _⟩ => ⟨S2x1x1, .f32⟩
  | .hbm, ⟨19, _⟩ => ⟨S1x11x750, .f32⟩
  | .hbm, ⟨20, _⟩ => ⟨S11x750, .f32⟩
  | .hbm, ⟨21, _⟩ => ⟨S1x11x750, .f32⟩
  | .hbm, ⟨22, _⟩ => ⟨S11x750, .f32⟩
  | .hbm, ⟨23, _⟩ => ⟨S11x750, .f32⟩
  | .hbm, ⟨24, _⟩ => ⟨S_, .f32⟩
  | .hbm, ⟨25, _⟩ => ⟨S11x750, .f32⟩
  | .hbm, ⟨26, _⟩ => ⟨S11x750, .f32⟩
  | .hbm, ⟨27, _⟩ => ⟨S11x750, .f32⟩
  | .hbm, ⟨28, _⟩ => ⟨S1x11x750, .f32⟩
  | .hbm, ⟨29, _⟩ => ⟨S11x750, .f32⟩
  | .hbm, ⟨30, _⟩ => ⟨S1x11x750, .f32⟩
  | .hbm, ⟨31, _⟩ => ⟨S11x750, .f32⟩
  | .hbm, ⟨32, _⟩ => ⟨S11x750, .f32⟩
  | .hbm, ⟨33, _⟩ => ⟨S1x1x1, .f32⟩
  | .hbm, ⟨34, _⟩ => ⟨S_, .f32⟩
  | .hbm, ⟨35, _⟩ => ⟨S1x1x1, .f32⟩
  | .hbm, ⟨36, _⟩ => ⟨S_, .f32⟩
  | .hbm, ⟨37, _⟩ => ⟨S_, .f32⟩
  | .hbm, ⟨38, _⟩ => ⟨S11x750, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .local _ .vmem, ⟨0, _⟩ => ⟨S512x750, .f32⟩
  | .local _ .vmem, ⟨1, _⟩ => ⟨S512x750, .f32⟩
  | .local _ .vmem, ⟨2, _⟩ => ⟨S512x761, .f32⟩
  | .local _ .vmem, ⟨3, _⟩ => ⟨S512x761, .f32⟩
  | .local _ .vmem, ⟨4, _⟩ => ⟨S1x11x750, .f32⟩
  | .local _ .vmem, ⟨5, _⟩ => ⟨S1x11x750, .f32⟩
  | .local _ .vmem, ⟨6, _⟩ => ⟨S512x750, .f32⟩
  | .local _ .vmem, ⟨7, _⟩ => ⟨S512x750, .f32⟩
  | .local _ .vmem, ⟨8, _⟩ => ⟨S512x750, .f32⟩
  | .local _ .vmem, ⟨9, _⟩ => ⟨S512x750, .f32⟩
  | .local _ .vmem, ⟨10, _⟩ => ⟨S512x761, .f32⟩
  | .local _ .vmem, ⟨11, _⟩ => ⟨S512x761, .f32⟩
  | .local _ .vmem, ⟨12, _⟩ => ⟨S1x11x750, .f32⟩
  | .local _ .vmem, ⟨13, _⟩ => ⟨S1x11x750, .f32⟩
  | .local _ .vmem, ⟨14, _⟩ => ⟨S1x1x1, .f32⟩
  | .local _ .vmem, ⟨15, _⟩ => ⟨S1x1x1, .f32⟩
  | _, _ => ⟨S4096x750, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15_0 : Ref sig .tc := ⟨.hbm, 17, rfl⟩
abbrev main_v15_1 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_cst : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_cst_0 : Ref sig .tc := ⟨.hbm, 39, rfl⟩
abbrev main_v35 : Ref sig .tc := ⟨.hbm, 40, rfl⟩
abbrev main_cst_1 : Ref sig .tc := ⟨.hbm, 41, rfl⟩
abbrev main_v36 : Ref sig .tc := ⟨.hbm, 42, rfl⟩
abbrev main_cst_2 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x750 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x761 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x11x750 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![2, 4], ![false, false]⟩

def cc1_transform_0 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_2 (i : grid1.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S512x750 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x750 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x761 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x11x750 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  slices_S4096x750_S4096x1_0_0 : S4096x750.Slices ![0, 0] S4096x1
  bcast_S4096x1_S4096x1x6_0_1 : S4096x1.BroadcastsInDim S4096x1x6 (![0, 1] : Fin 2 → Fin S4096x1x6.rank)
  shapeCasts_S4096x1x6_S4096x6 : S4096x1x6.ShapeCasts S4096x6
  slices_S4096x750_S4096x1_0_749 : S4096x750.Slices ![0, 749] S4096x1
  bcast_S4096x1_S4096x1x5_0_1 : S4096x1.BroadcastsInDim S4096x1x5 (![0, 1] : Fin 2 → Fin S4096x1x5.rank)
  shapeCasts_S4096x1x5_S4096x5 : S4096x1x5.ShapeCasts S4096x5
  concatenates_S4096x6_S4096x750_S4096x5_S4096x761_d1 : Shape.Concatenates [S4096x6, S4096x750, S4096x5] S4096x761 1
  inb_S1x11x750_S1x11x750_0_0_0 : ∀ a, (![0, 0, 0] : Fin 3 → Nat) a + S1x11x750.size a ≤ S1x11x750.size a
  h_S1x11x750 : 0 < S1x11x750.numel
  shapeCasts_S1x11x750_S11x750 : S1x11x750.ShapeCasts S11x750
  shapeCasts_S11x750_S1x11x750 : S11x750.ShapeCasts S1x11x750
  inb_S512x750_S512x750_0_0 : ∀ a, (![0, 0] : Fin 2 → Nat) a + S512x750.size a ≤ S512x750.size a
  h_S512x750 : 0 < S512x750.numel
  inb_S512x761_S512x750_0_0 : ∀ a, (![0, 0] : Fin 2 → Nat) a + S512x750.size a ≤ S512x761.size a
  shapeCasts_S512x750_S512x750 : S512x750.ShapeCasts S512x750
  reduces_S512x750_S750 : S512x750.Reduces [0] S750
  shapeCasts_S750_S1x750 : S750.ShapeCasts S1x750
  inb_S1x11x750_S1x1x750_0_0_0 : ∀ a, (![0, 0, 0] : Fin 3 → Nat) a + S1x1x750.size a ≤ S1x11x750.size a
  h_S1x1x750 : 0 < S1x1x750.numel
  shapeCasts_S1x1x750_S1x750 : S1x1x750.ShapeCasts S1x750
  shapeCasts_S1x750_S1x1x750 : S1x750.ShapeCasts S1x1x750
  inb_S512x761_S512x750_0_1 : ∀ a, (![0, 1] : Fin 2 → Nat) a + S512x750.size a ≤ S512x761.size a
  inb_S1x11x750_S1x1x750_0_1_0 : ∀ a, (![0, 1, 0] : Fin 3 → Nat) a + S1x1x750.size a ≤ S1x11x750.size a
  inb_S512x761_S512x750_0_2 : ∀ a, (![0, 2] : Fin 2 → Nat) a + S512x750.size a ≤ S512x761.size a
  inb_S1x11x750_S1x1x750_0_2_0 : ∀ a, (![0, 2, 0] : Fin 3 → Nat) a + S1x1x750.size a ≤ S1x11x750.size a
  inb_S512x761_S512x750_0_3 : ∀ a, (![0, 3] : Fin 2 → Nat) a + S512x750.size a ≤ S512x761.size a
  inb_S1x11x750_S1x1x750_0_3_0 : ∀ a, (![0, 3, 0] : Fin 3 → Nat) a + S1x1x750.size a ≤ S1x11x750.size a
  inb_S512x761_S512x750_0_4 : ∀ a, (![0, 4] : Fin 2 → Nat) a + S512x750.size a ≤ S512x761.size a
  inb_S1x11x750_S1x1x750_0_4_0 : ∀ a, (![0, 4, 0] : Fin 3 → Nat) a + S1x1x750.size a ≤ S1x11x750.size a
  inb_S512x761_S512x750_0_5 : ∀ a, (![0, 5] : Fin 2 → Nat) a + S512x750.size a ≤ S512x761.size a
  inb_S1x11x750_S1x1x750_0_5_0 : ∀ a, (![0, 5, 0] : Fin 3 → Nat) a + S1x1x750.size a ≤ S1x11x750.size a
  inb_S512x761_S512x750_0_6 : ∀ a, (![0, 6] : Fin 2 → Nat) a + S512x750.size a ≤ S512x761.size a
  inb_S1x11x750_S1x1x750_0_6_0 : ∀ a, (![0, 6, 0] : Fin 3 → Nat) a + S1x1x750.size a ≤ S1x11x750.size a
  inb_S512x761_S512x750_0_7 : ∀ a, (![0, 7] : Fin 2 → Nat) a + S512x750.size a ≤ S512x761.size a
  inb_S1x11x750_S1x1x750_0_7_0 : ∀ a, (![0, 7, 0] : Fin 3 → Nat) a + S1x1x750.size a ≤ S1x11x750.size a
  inb_S512x761_S512x750_0_8 : ∀ a, (![0, 8] : Fin 2 → Nat) a + S512x750.size a ≤ S512x761.size a
  inb_S1x11x750_S1x1x750_0_8_0 : ∀ a, (![0, 8, 0] : Fin 3 → Nat) a + S1x1x750.size a ≤ S1x11x750.size a
  inb_S512x761_S512x750_0_9 : ∀ a, (![0, 9] : Fin 2 → Nat) a + S512x750.size a ≤ S512x761.size a
  inb_S1x11x750_S1x1x750_0_9_0 : ∀ a, (![0, 9, 0] : Fin 3 → Nat) a + S1x1x750.size a ≤ S1x11x750.size a
  inb_S512x761_S512x750_0_10 : ∀ a, (![0, 10] : Fin 2 → Nat) a + S512x750.size a ≤ S512x761.size a
  inb_S1x11x750_S1x1x750_0_10_0 : ∀ a, (![0, 10, 0] : Fin 3 → Nat) a + S1x1x750.size a ≤ S1x11x750.size a
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reduces_S512x750_S512 : S512x750.Reduces [1] S512
  shapeCasts_S512_S512x1 : S512.ShapeCasts S512x1
  reduces_S512x1_S1 : S512x1.Reduces [0] S1
  shapeCasts_S1_S1x1 : S1.ShapeCasts S1x1
  slices_S2x11x750_S1x11x750_0_0_0 : S2x11x750.Slices ![0, 0, 0] S1x11x750
  slices_S2x11x750_S1x11x750_1_0_0 : S2x11x750.Slices ![1, 0, 0] S1x11x750
  bcast_S_S11x750 : S_.BroadcastsInDim S11x750 (![] : Fin 0 → Fin S11x750.rank)
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  reducesTo_S11x750_S_d0_1 : S11x750.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x750.size a ≤ S4096x750.size a
  hwx0_0 : ∀ i : grid0.Coords, EltTy.bits .f32 = 32 ∨ (Rect.block (s := S4096x750) S512x750.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x761.size a ≤ S4096x761.size a
  hwx0_1 : ∀ i : grid0.Coords, EltTy.bits .f32 = 32 ∨ (Rect.block (s := S4096x761) S512x761.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x11x750.size a ≤ S2x11x750.size a
  hwx0_2 : ∀ i : grid0.Coords, EltTy.bits .f32 = 32 ∨ (Rect.block (s := S2x11x750) S1x11x750.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x750.size a ≤ S4096x750.size a
  hwx1_0 : ∀ i : grid1.Coords, EltTy.bits .f32 = 32 ∨ (Rect.block (s := S4096x750) S512x750.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x750.size a ≤ S4096x750.size a
  hwx1_1 : ∀ i : grid1.Coords, EltTy.bits .f32 = 32 ∨ (Rect.block (s := S4096x750) S512x750.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x761.size a ≤ S4096x761.size a
  hwx1_2 : ∀ i : grid1.Coords, EltTy.bits .f32 = 32 ∨ (Rect.block (s := S4096x761) S512x761.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x11x750.size a ≤ S2x11x750.size a
  hwx1_3 : ∀ i : grid1.Coords, EltTy.bits .f32 = 32 ∨ (Rect.block (s := S2x11x750) S1x11x750.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x1.size a ≤ S2x1x1.size a
  hwx1_4 : ∀ i : grid1.Coords, EltTy.bits .f32 = 32 ∨ (Rect.block (s := S2x1x1) S1x1x1.size (cc1_transform_4 i) (hinb1_4 i)).WholeWords (EltTy.packing .f32)

variable [Facts₀]

abbrev win0_0 : Pipeline.Window sig grid0 :=
  Pipeline.Window.ofSpec (Memref.whole main_arg0) S512x750.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S512x761.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x11x750.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S512x750.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S512x750.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S512x761.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15_0) S1x11x750.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v15_1) S1x1x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4096x750 : Shape := ⟨2, ![4096, 750]⟩
abbrev S4096x1 : Shape := ⟨2, ![4096, 1]⟩
abbrev S4096x1x6 : Shape := ⟨3, ![4096, 1, 6]⟩
abbrev S4096x6 : Shape := ⟨2, ![4096, 6]⟩
abbrev S4096x1x5 : Shape := ⟨3, ![4096, 1, 5]⟩
abbrev S4096x5 : Shape := ⟨2, ![4096, 5]⟩
abbrev S4096x761 : Shape := ⟨2, ![4096, 761]⟩
abbrev S750 : Shape := ⟨1, ![750]⟩
abbrev S750x1 : Shape := ⟨2, ![750, 1]⟩
abbrev S11 : Shape := ⟨1, ![11]⟩
abbrev S1x11 : Shape := ⟨2, ![1, 11]⟩
abbrev S750x11 : Shape := ⟨2, ![750, 11]⟩
abbrev S_ : Shape := ⟨0, ![]⟩
abbrev S750x11x1 : Shape := ⟨3, ![750, 11, 1]⟩
abbrev S4096x750x11 : Shape := ⟨3, ![4096, 750, 11]⟩
abbrev S4096x750x1 : Shape := ⟨3, ![4096, 750, 1]⟩
abbrev S1x750x11 : Shape := ⟨3, ![1, 750, 11]⟩
abbrev S4096 : Shape := ⟨1, ![4096]⟩

abbrev nBuf : Space → Nat
  | .hbm => 80
  | .vmem => 0
  | .smem => 0
  | _ => 0

abbrev bufTy : (tb : Table) → Fin (tcTables nBuf tb) → BufTy
  | .hbm, ⟨0, _⟩ => ⟨S4096x750, .f32⟩
  | .hbm, ⟨1, _⟩ => ⟨S4096x750, .f32⟩
  | .hbm, ⟨2, _⟩ => ⟨S4096x1, .f32⟩
  | .hbm, ⟨3, _⟩ => ⟨S4096x1x6, .f32⟩
  | .hbm, ⟨4, _⟩ => ⟨S4096x6, .f32⟩
  | .hbm, ⟨5, _⟩ => ⟨S4096x1, .f32⟩
  | .hbm, ⟨6, _⟩ => ⟨S4096x1x5, .f32⟩
  | .hbm, ⟨7, _⟩ => ⟨S4096x5, .f32⟩
  | .hbm, ⟨8, _⟩ => ⟨S4096x761, .f32⟩
  | .hbm, ⟨9, _⟩ => ⟨S4096x1, .f32⟩
  | .hbm, ⟨10, _⟩ => ⟨S4096x1x6, .f32⟩
  | .hbm, ⟨11, _⟩ => ⟨S4096x6, .f32⟩
  | .hbm, ⟨12, _⟩ => ⟨S4096x1, .f32⟩
  | .hbm, ⟨13, _⟩ => ⟨S4096x1x5, .f32⟩
  | .hbm, ⟨14, _⟩ => ⟨S4096x5, .f32⟩
  | .hbm, ⟨15, _⟩ => ⟨S4096x761, .f32⟩
  | .hbm, ⟨16, _⟩ => ⟨S750, .i32⟩
  | .hbm, ⟨17, _⟩ => ⟨S750x1, .i32⟩
  | .hbm, ⟨18, _⟩ => ⟨S11, .i32⟩
  | .hbm, ⟨19, _⟩ => ⟨S1x11, .i32⟩
  | .hbm, ⟨20, _⟩ => ⟨S750x11, .i32⟩
  | .hbm, ⟨21, _⟩ => ⟨S750x11, .i32⟩
  | .hbm, ⟨22, _⟩ => ⟨S750x11, .i32⟩
  | .hbm, ⟨23, _⟩ => ⟨S_, .i32⟩
  | .hbm, ⟨24, _⟩ => ⟨S750x11, .i32⟩
  | .hbm, ⟨25, _⟩ => ⟨S750x11, .i1⟩
  | .hbm, ⟨26, _⟩ => ⟨S_, .i32⟩
  | .hbm, ⟨27, _⟩ => ⟨S750x11, .i32⟩
  | .hbm, ⟨28, _⟩ => ⟨S750x11, .i32⟩
  | .hbm, ⟨29, _⟩ => ⟨S750x11, .i32⟩
  | .hbm, ⟨30, _⟩ => ⟨S750x11x1, .i32⟩
  | .hbm, ⟨31, _⟩ => ⟨S4096x750x11, .f32⟩
  | .hbm, ⟨32, _⟩ => ⟨S_, .i32⟩
  | .hbm, ⟨33, _⟩ => ⟨S750x11, .i32⟩
  | .hbm, ⟨34, _⟩ => ⟨S750x11, .i1⟩
  | .hbm, ⟨35, _⟩ => ⟨S_, .i32⟩
  | .hbm, ⟨36, _⟩ => ⟨S750x11, .i32⟩
  | .hbm, ⟨37, _⟩ => ⟨S750x11, .i32⟩
  | .hbm, ⟨38, _⟩ => ⟨S750x11, .i32⟩
  | .hbm, ⟨39, _⟩ => ⟨S750x11x1, .i32⟩
  | .hbm, ⟨40, _⟩ => ⟨S4096x750x11, .f32⟩
  | .hbm, ⟨41, _⟩ => ⟨S4096x750x1, .f32⟩
  | .hbm, ⟨42, _⟩ => ⟨S4096x750x11, .f32⟩
  | .hbm, ⟨43, _⟩ => ⟨S4096x750x11, .f32⟩
  | .hbm, ⟨44, _⟩ => ⟨S4096x750x11, .f32⟩
  | .hbm, ⟨45, _⟩ => ⟨S_, .f32⟩
  | .hbm, ⟨46, _⟩ => ⟨S750x11, .f32⟩
  | .hbm, ⟨47, _⟩ => ⟨S750x11, .f32⟩
  | .hbm, ⟨48, _⟩ => ⟨S_, .f32⟩
  | .hbm, ⟨49, _⟩ => ⟨S750x11, .f32⟩
  | .hbm, ⟨50, _⟩ => ⟨S750x11, .f32⟩
  | .hbm, ⟨51, _⟩ => ⟨S750x11, .f32⟩
  | .hbm, ⟨52, _⟩ => ⟨S1x750x11, .f32⟩
  | .hbm, ⟨53, _⟩ => ⟨S4096x750x1, .f32⟩
  | .hbm, ⟨54, _⟩ => ⟨S4096x750x11, .f32⟩
  | .hbm, ⟨55, _⟩ => ⟨S4096x750x11, .f32⟩
  | .hbm, ⟨56, _⟩ => ⟨S4096x750x11, .f32⟩
  | .hbm, ⟨57, _⟩ => ⟨S4096x750x11, .f32⟩
  | .hbm, ⟨58, _⟩ => ⟨S4096x750x11, .f32⟩
  | .hbm, ⟨59, _⟩ => ⟨S_, .f32⟩
  | .hbm, ⟨60, _⟩ => ⟨S750x11, .f32⟩
  | .hbm, ⟨61, _⟩ => ⟨S_, .f32⟩
  | .hbm, ⟨62, _⟩ => ⟨S750x11, .f32⟩
  | .hbm, ⟨63, _⟩ => ⟨S750x11, .f32⟩
  | .hbm, ⟨64, _⟩ => ⟨S_, .f32⟩
  | .hbm, ⟨65, _⟩ => ⟨S_, .f32⟩
  | .hbm, ⟨66, _⟩ => ⟨S4096x750, .f32⟩
  | .hbm, ⟨67, _⟩ => ⟨S4096x750, .f32⟩
  | .hbm, ⟨68, _⟩ => ⟨S_, .f32⟩
  | .hbm, ⟨69, _⟩ => ⟨S4096, .f32⟩
  | .hbm, ⟨70, _⟩ => ⟨S_, .f32⟩
  | .hbm, ⟨71, _⟩ => ⟨S4096, .f32⟩
  | .hbm, ⟨72, _⟩ => ⟨S4096, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | _, _ => ⟨S4096x750, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_c : Ref sig .tc := ⟨.hbm, 23, rfl⟩
abbrev main_v21 : Ref sig .tc := ⟨.hbm, 24, rfl⟩
abbrev main_v22 : Ref sig .tc := ⟨.hbm, 25, rfl⟩
abbrev main_c_0 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_c_1 : Ref sig .tc := ⟨.hbm, 32, rfl⟩
abbrev main_v28 : Ref sig .tc := ⟨.hbm, 33, rfl⟩
abbrev main_v29 : Ref sig .tc := ⟨.hbm, 34, rfl⟩
abbrev main_c_2 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_cst : Ref sig .tc := ⟨.hbm, 45, rfl⟩
abbrev main_v39 : Ref sig .tc := ⟨.hbm, 46, rfl⟩
abbrev main_v40 : Ref sig .tc := ⟨.hbm, 47, rfl⟩
abbrev main_cst_3 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_4 : Ref sig .tc := ⟨.hbm, 59, rfl⟩
abbrev main_v51 : Ref sig .tc := ⟨.hbm, 60, rfl⟩
abbrev main_cst_5 : Ref sig .tc := ⟨.hbm, 61, rfl⟩
abbrev main_v52 : Ref sig .tc := ⟨.hbm, 62, rfl⟩
abbrev main_v53 : Ref sig .tc := ⟨.hbm, 63, rfl⟩
abbrev main_cst_6 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_cst_7 : Ref sig .tc := ⟨.hbm, 68, rfl⟩
abbrev main_v57 : Ref sig .tc := ⟨.hbm, 69, rfl⟩
abbrev main_cst_8 : Ref sig .tc := ⟨.hbm, 70, rfl⟩
abbrev main_v58 : Ref sig .tc := ⟨.hbm, 71, rfl⟩
abbrev main_v59 : Ref sig .tc := ⟨.hbm, 72, rfl⟩
abbrev main_cst_9 : Ref sig .tc := ⟨.hbm, 73, rfl⟩
abbrev main_v60 : Ref sig .tc := ⟨.hbm, 74, rfl⟩
abbrev main_cst_10 : Ref sig .tc := ⟨.hbm, 75, rfl⟩
abbrev main_v61 : Ref sig .tc := ⟨.hbm, 76, rfl⟩
abbrev main_v62 : Ref sig .tc := ⟨.hbm, 77, rfl⟩
abbrev main_cst_11 : Ref sig .tc := ⟨.hbm, 78, rfl⟩
abbrev main_v63 : Ref sig .tc := ⟨.hbm, 79, rfl⟩

abbrev nD : Nat := 1
abbrev τ : Topo := Topo.v7x

variable {F : FTy → Type} [FloatOps F]

class Facts₀ : Prop where
  slices_S4096x750_S4096x1_0_0 : S4096x750.Slices ![0, 0] S4096x1
  bcast_S4096x1_S4096x1x6_0_1 : S4096x1.BroadcastsInDim S4096x1x6 (![0, 1] : Fin 2 → Fin S4096x1x6.rank)
  shapeCasts_S4096x1x6_S4096x6 : S4096x1x6.ShapeCasts S4096x6
  slices_S4096x750_S4096x1_0_749 : S4096x750.Slices ![0, 749] S4096x1
  bcast_S4096x1_S4096x1x5_0_1 : S4096x1.BroadcastsInDim S4096x1x5 (![0, 1] : Fin 2 → Fin S4096x1x5.rank)
  shapeCasts_S4096x1x5_S4096x5 : S4096x1x5.ShapeCasts S4096x5
  concatenates_S4096x6_S4096x750_S4096x5_S4096x761_d1 : Shape.Concatenates [S4096x6, S4096x750, S4096x5] S4096x761 1
  bcast_S750_S750x1_0 : S750.BroadcastsInDim S750x1 (![0] : Fin 1 → Fin S750x1.rank)
  bcast_S11_S1x11_1 : S11.BroadcastsInDim S1x11 (![1] : Fin 1 → Fin S1x11.rank)
  bcast_S750x1_S750x11_0_1 : S750x1.BroadcastsInDim S750x11 (![0, 1] : Fin 2 → Fin S750x11.rank)
  bcast_S1x11_S750x11_0_1 : S1x11.BroadcastsInDim S750x11 (![0, 1] : Fin 2 → Fin S750x11.rank)
  bcast_S_S750x11 : S_.BroadcastsInDim S750x11 (![] : Fin 0 → Fin S750x11.rank)
  bcast_S750x11_S750x11x1_0_1 : S750x11.BroadcastsInDim S750x11x1 (![0, 1] : Fin 2 → Fin S750x11x1.rank)
  bcast_S4096x750_S4096x750x1_0_1 : S4096x750.BroadcastsInDim S4096x750x1 (![0, 1] : Fin 2 → Fin S4096x750x1.rank)
  bcast_S4096x750x1_S4096x750x11_0_1_2 : S4096x750x1.BroadcastsInDim S4096x750x11 (![0, 1, 2] : Fin 3 → Fin S4096x750x11.rank)
  reducesTo_S4096x750x11_S750x11_d0 : S4096x750x11.ReducesTo [0] S750x11
  h_S_ : 0 < S_.numel
  bcast_S750x11_S1x750x11_1_2 : S750x11.BroadcastsInDim S1x750x11 (![1, 2] : Fin 2 → Fin S1x750x11.rank)
  bcast_S1x750x11_S4096x750x11_0_1_2 : S1x750x11.BroadcastsInDim S4096x750x11 (![0, 1, 2] : Fin 3 → Fin S4096x750x11.rank)
  reducesTo_S750x11_S_d0_1 : S750x11.ReducesTo [0, 1] S_
  reducesTo_S4096x750_S4096_d1 : S4096x750.ReducesTo [1] S4096
  bcast_S_S4096 : S_.BroadcastsInDim S4096 (![] : Fin 0 → Fin S4096.rank)
  reducesTo_S4096_S_d0 : S4096.ReducesTo [0] S_
  gather_S4096x761_S750x11x1_S4096x750x11_0_1_n_n_1_2_40961_wf : GatherDims.WF S4096x761 S750x11x1 S4096x750x11 [0] [1] [] [1] [] 2 ![4096, 1]

variable [Facts₀]

def gather_S4096x761_S750x11x1_S4096x750x11_0_1_n_n_1_2_40961 : GatherDims S4096x761 S750x11x1 S4096x750x11 where
  offsetDims := [0]
  collapsedSliceDims := [1]
  operandBatchingDims := []
  startIndicesBatchingDims := []
  startIndexMap := [1]
  indexVectorDim := 2
  sliceSizes := ![4096, 1]
  wf := gather_S4096x761_S750x11x1_S4096x750x11_0_1_n_n_1_2_40961_wf

class Facts : Prop extends Facts₀ where

variable [Facts]
-- ==== Proof.Kernel.FrBase.lean ====
/-
  What the two passes' frame proofs share: each window's block at a grid point read off the array its pass finds,
  that an input window's staging buffer holds that block at every point, the reset condition of each body decided
  over the grid (it holds exactly at the first of each half's four tiles), and the staging memrefs at a point.
-/
import proofs.«125402_j3959959847206_1_alg».proof.Proof.Gen.Kernel.Launch
import proofs.«125402_j3959959847206_1_alg».proof.Proof.Gen.Kernel.Skeleton
import proofs.«125402_j3959959847206_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

-- The buffer contents a pass is entered with: the parameter each pass's half is stated at.
variable (V : (c : Dev nD) → (b : Ref sig .tc) → Buf (Elt F) ((c : Thread nD τ).loc b))

/-! ## The first pass -/

/-- Window `w`'s block at point `t` of the first pass, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window is fetched at every point, so its staging buffer holds its block there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The second pass -/

/-- Window `w`'s block at point `t` of the second pass, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The reset conditions -/

/-- The first pass's body resets its accumulator when the second grid coordinate is zero. -/
abbrev cond0_0 (i : grid0.Coords) : Prop := (Scalar.cmpi .ne (Scalar.extui (Scalar.cmpi .eq (BitVec.ofNat 32 (i 1).val) 0#32)) 0#32) = 1#1
/-- That is at the points ≡ 0 (mod 4): the first tile of each half. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second pass's body resets its two accumulators when the second grid coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-! ## The staging memrefs at a point -/

abbrev VO0_2 : View sig .tc .vmem S1x11x750 .f32 := (Memref.whole cc0_stg2_0 : Memref sig .tc .vmem S1x11x750 .f32).view
abbrev ms0_0 (t : Fin cfg0.N) : Memref sig .tc .vmem S512x750 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x761 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x11x750 .f32 := win0_2.stage (cfg0.slots t 2)
abbrev hs0_2 (t : Fin cfg0.N) : (ms0_2 t).IsWhole := hstage0_2 ((cfg0.slots t 2).cast nbuf0_2)

abbrev VO1_3 : View sig .tc .vmem S1x11x750 .f32 := (Memref.whole cc1_stg3_0 : Memref sig .tc .vmem S1x11x750 .f32).view
abbrev VO1_4 : View sig .tc .vmem S1x1x1 .f32 := (Memref.whole cc1_stg4_0 : Memref sig .tc .vmem S1x1x1 .f32).view
abbrev ms1_0 (t : Fin cfg1.N) : Memref sig .tc .vmem S512x750 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x750 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x761 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x11x750 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1 .f32 := win1_4.stage (cfg1.slots t 4)
abbrev hs1_4 (t : Fin cfg1.N) : (ms1_4 t).IsWhole := hstage1_4 ((cfg1.slots t 4).cast nbuf1_4)

end Cert.Kernel.Fr

end
-- ==== Proof.Kernel.Run0A.lean ====
/-
  The first pass's body run whole in the case where its reset is taken (the first tile of a half): from the two input
  blocks, it ends with the inputs as they were and the accumulator block written by the pieces the run finds.
-/
import proofs.«125402_j3959959847206_1_alg».proof.Proof.Kernel.FrBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the accumulator block (last first) in this case, with the body's triple on
    whole staging memrefs. -/
noncomputable def kernelRun0_A (c : Dev nD) (i : grid0.Coords) (arg2 : Memref sig .tc .vmem S512x750 .f32) (harg2 : arg2.IsWhole) (arg3 : Memref sig .tc .vmem S512x761 .f32) (harg3 : arg3.IsWhole) (arg4 : Memref sig .tc .vmem S1x11x750 .f32) (harg4 : arg4.IsWhole) (hc0 : cond0_0 i)
    (x0 : Vec F S512x750 .f32) (x1 : Vec F S512x761 .f32) :
    { L2 : List (View.Piece (Elt F) S1x11x750 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel_a_body i arg2 harg2 arg3 harg3 arg4 harg4) K } := by
  refine ⟨?_, fun E K => ?run⟩
  case run =>
    simp only [cc0__kernel_a_body_eq_skeleton]; unfold cc0__kernel_a_body_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Fr

end
-- ==== Proof.Kernel.Run0B.lean ====
/-
  The first pass's body run whole in the case where its reset is not taken (a later tile of a half): from the two input
  blocks and the accumulator block the tile before left, it ends with the inputs as they were and the accumulator block written by the pieces the run finds.
-/
import proofs.«125402_j3959959847206_1_alg».proof.Proof.Kernel.Run0A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the accumulator block (last first) in this case, with the body's triple on
    whole staging memrefs. -/
noncomputable def kernelRun0_B (c : Dev nD) (i : grid0.Coords) (arg2 : Memref sig .tc .vmem S512x750 .f32) (harg2 : arg2.IsWhole) (arg3 : Memref sig .tc .vmem S512x761 .f32) (harg3 : arg3.IsWhole) (arg4 : Memref sig .tc .vmem S1x11x750 .f32) (harg4 : arg4.IsWhole) (hc0 : ¬cond0_0 i)
    (x0 : Vec F S512x750 .f32) (x1 : Vec F S512x761 .f32) (xo2 : Vec F S1x11x750 .f32) :
    { L2 : List (View.Piece (Elt F) S1x11x750 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel_a_body i arg2 harg2 arg3 harg3 arg4 harg4) K } := by
  refine ⟨?_, fun E K => ?run⟩
  case run =>
    simp only [cc0__kernel_a_body_eq_skeleton]; unfold cc0__kernel_a_body_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.Kernel.Fr

end
-- ==== Proof.Kernel.Frame0.lean ====
/-
  The first pass's proof data and body obligation, at the contents `V` the pass is entered with. The accumulator
  block after point `n` is what the reset case leaves at the first tile of a half, and what the accumulate case
  leaves over the block of the tile before at the other three; the block is written back after a half's last tile
  only, so between those the staging buffer keeps what the body left.
-/
import proofs.«125402_j3959959847206_1_alg».proof.Proof.Kernel.Run0B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The reset case's pieces cover the accumulator block. -/
theorem cover0_A_2 (c : Dev nD) (i : grid0.Coords) (arg2 : Memref sig .tc .vmem S512x750 .f32) (harg2 : arg2.IsWhole) (arg3 : Memref sig .tc .vmem S512x761 .f32) (harg3 : arg3.IsWhole) (arg4 : Memref sig .tc .vmem S1x11x750 .f32) (harg4 : arg4.IsWhole) (hc0 : cond0_0 i)
    (x0 : Vec F S512x750 .f32) (x1 : Vec F S512x761 .f32) (y : S1x11x750.Idx) :
    ∃ pc ∈ (kernelRun0_A c i arg2 harg2 arg3 harg3 arg4 harg4 hc0 x0 x1).1, y ∈ pc.1.set :=
  View.cover_of_tiledBy (kernelRun0_A c i arg2 harg2 arg3 harg3 arg4 harg4 hc0 x0 x1).1 S1x1x750.size (by sl_kernel_rfl) y

/-- What the reset case leaves in the accumulator block: its pieces read back. -/
def out0_A_2 (c : Dev nD) (i : grid0.Coords) (arg2 : Memref sig .tc .vmem S512x750 .f32) (harg2 : arg2.IsWhole) (arg3 : Memref sig .tc .vmem S512x761 .f32) (harg3 : arg3.IsWhole) (arg4 : Memref sig .tc .vmem S1x11x750 .f32) (harg4 : arg4.IsWhole) (hc0 : cond0_0 i)
    (x0 : Vec F S512x750 .f32) (x1 : Vec F S512x761 .f32) : Vec F S1x11x750 .f32 :=
  VO0_2.read (Elt F) (VO0_2.writes (Elt F) VO0_2.junk (kernelRun0_A c i arg2 harg2 arg3 harg3 arg4 harg4 hc0 x0 x1).1)

/-- The accumulate case's pieces (one per window offset, a row each) cover the accumulator block. -/
theorem cover0_B_2 (c : Dev nD) (i : grid0.Coords) (arg2 : Memref sig .tc .vmem S512x750 .f32) (harg2 : arg2.IsWhole) (arg3 : Memref sig .tc .vmem S512x761 .f32) (harg3 : arg3.IsWhole) (arg4 : Memref sig .tc .vmem S1x11x750 .f32) (harg4 : arg4.IsWhole) (hc0 : ¬cond0_0 i)
    (x0 : Vec F S512x750 .f32) (x1 : Vec F S512x761 .f32) (xo2 : Vec F S1x11x750 .f32) (y : S1x11x750.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x1x750.size (by sl_kernel_rfl) y

/-- What the accumulate case leaves in the accumulator block, over the block `xo2` it found there. -/
def out0_B_2 (c : Dev nD) (i : grid0.Coords) (arg2 : Memref sig .tc .vmem S512x750 .f32) (harg2 : arg2.IsWhole) (arg3 : Memref sig .tc .vmem S512x761 .f32) (harg3 : arg3.IsWhole) (arg4 : Memref sig .tc .vmem S1x11x750 .f32) (harg4 : arg4.IsWhole) (hc0 : ¬cond0_0 i)
    (x0 : Vec F S512x750 .f32) (x1 : Vec F S512x761 .f32) (xo2 : Vec F S1x11x750 .f32) : Vec F S1x11x750 .f32 :=
  VO0_2.read (Elt F) (VO0_2.writes (Elt F) VO0_2.junk (kernelRun0_B c i arg2 harg2 arg3 harg3 arg4 harg4 hc0 x0 x1 xo2).1)

/-! ## The accumulator after each point -/

/-- The accumulator block after the body at position `n`: the reset case at the first tile of a half, otherwise the
    accumulate case over what this leaves at `n - 1`. -/
def outsAt0 (c : Dev nD) : (n : ℕ) → n < cfg0.N → Vec F S1x11x750 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩) (iblk0 V c 1 ⟨0, hn⟩)
  | n + 1, hn =>
    if h0 : (n + 1) % 4 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩) (iblk0 V c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn))

/-- At a point where the reset is taken. -/
theorem outsAt0_A (c : Dev nD) (t : Fin cfg0.N) (h0 : t.val % 4 = 0) :
    outsAt0 V c t.val t.isLt = out0_A_2 c (grid0.coords t) (ms0_0 t) (hs0_0 t) (ms0_1 t) (hs0_1 t) (ms0_2 t) (hs0_2 t) ((hcond0_0 t).mpr h0) (iblk0 V c 0 t) (iblk0 V c 1 t) := by
  obtain ⟨n, hn⟩ := t
  cases n with
  | zero => exact rfl
  | succ n => exact (dif_pos h0).trans rfl

/-- At a point where it is not: over what the point before left. -/
theorem outsAt0_B (c : Dev nD) (t : Fin cfg0.N) (h0 : ¬t.val % 4 = 0) :
    outsAt0 V c t.val t.isLt = out0_B_2 c (grid0.coords t) (ms0_0 t) (hs0_0 t) (ms0_1 t) (hs0_1 t) (ms0_2 t) (hs0_2 t) (fun h => h0 ((hcond0_0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The first pass's proof data on core `c`: the arrays as the pass finds them; after the body at point `t` each
    input's buffer at its block and the accumulator's at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later tile of a half the accumulator's staging buffer holds what the body left at the tile before: the
    buffer is not written back between. -/
theorem before0_2_B (c : Dev nD) (t : Fin cfg0.N) (h0 : ¬t.val % 4 = 0) (d) :
    (dat0 V c).before 2 t d = outsAt0 V c (t.val - 1) (Nat.lt_of_le_of_lt (Nat.sub_le _ _) t.isLt) := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
/-- The body at any point: the inputs' memrefs hold their blocks; the closed form of the reset condition says which
    case the point is in, and in the accumulate case the accumulator's buffer holds what the tile before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 8 := lt_of_lt_of_eq t.isLt (show cfg0.N = 8 from N_0)
  by_cases h0 : t.val % 4 = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Fr

end
-- ==== Proof.Kernel.Run1A.lean ====
/-
  The second pass's body run whole in the case where its reset is taken (the first tile of a half): from the three input
  blocks, it ends with the inputs as they were and each accumulator block written by the pieces the run finds.
-/
import proofs.«125402_j3959959847206_1_alg».proof.Proof.Kernel.FrBase

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulator blocks (last first) in this case, with the body's triple
    on whole staging memrefs. -/
noncomputable def kernelRun1_A (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : cond1_0 i)
    (x0 : Vec F S512x750 .f32) (x1 : Vec F S512x750 .f32) (x2 : Vec F S512x761 .f32) :
    { L : List (View.Piece (Elt F) S1x11x750 .f32) × List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc1__kernel_b_body i arg2 harg2 arg3 harg3 arg4 harg4 arg5 harg5 arg6 harg6) K } := by
  refine ⟨⟨?_, ?_⟩, fun E K => ?run⟩
  case run =>
    simp only [cc1__kernel_b_body_eq_skeleton]; unfold cc1__kernel_b_body_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.Kernel.Fr

end
-- ==== Proof.Kernel.Run1B.lean ====
/-
  The second pass's body run whole in the case where its reset is not taken (a later tile of a half): from the three input
  blocks and the two accumulator blocks the tile before left, it ends with the inputs as they were and each accumulator block written by the pieces the run finds.
-/
import proofs.«125402_j3959959847206_1_alg».proof.Proof.Kernel.Run1A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulator blocks (last first) in this case, with the body's triple
    on whole staging memrefs. -/
noncomputable def kernelRun1_B (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : ¬cond1_0 i)
    (x0 : Vec F S512x750 .f32) (x1 : Vec F S512x750 .f32) (x2 : Vec F S512x761 .f32) (xo3 : Vec F S1x11x750 .f32) (xo4 : Vec F S1x1x1 .f32) :
    { L : List (View.Piece (Elt F) S1x11x750 .f32) × List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc1__kernel_b_body i arg2 harg2 arg3 harg3 arg4 harg4 arg5 harg5 arg6 harg6) K } := by
  refine ⟨⟨?_, ?_⟩, fun E K => ?run⟩
  case run =>
    simp only [cc1__kernel_b_body_eq_skeleton]; unfold cc1__kernel_b_body_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.Kernel.Fr

end
-- ==== Proof.Kernel.Frame1.lean ====
/-
  The second pass's proof data and body obligation, at the contents `V` the pass is entered with. It carries two
  accumulators (the windowed absolute differences, a block of eleven rows, and the residual, one entry): after point
  `n` each holds what the reset case leaves at the first tile of a half and what the accumulate case leaves over the
  tile before otherwise; both are written back after a half's last tile only.
-/
import proofs.«125402_j3959959847206_1_alg».proof.Proof.Kernel.Run1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem cover1_A_3 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : cond1_0 i) (x0 : Vec F S512x750 .f32) (x1 : Vec F S512x750 .f32) (x2 : Vec F S512x761 .f32) (y : S1x11x750.Idx) :
    ∃ pc ∈ (kernelRun1_A c i arg2 harg2 arg3 harg3 arg4 harg4 arg5 harg5 arg6 harg6 hc0 x0 x1 x2).1.1, y ∈ pc.1.set :=
  View.cover_of_tiledBy (kernelRun1_A c i arg2 harg2 arg3 harg3 arg4 harg4 arg5 harg5 arg6 harg6 hc0 x0 x1 x2).1.1 S1x1x750.size (by sl_kernel_rfl) y
theorem cover1_A_4 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : cond1_0 i) (x0 : Vec F S512x750 .f32) (x1 : Vec F S512x750 .f32) (x2 : Vec F S512x761 .f32) (y : S1x1x1.Idx) :
    ∃ pc ∈ (kernelRun1_A c i arg2 harg2 arg3 harg3 arg4 harg4 arg5 harg5 arg6 harg6 hc0 x0 x1 x2).1.2, y ∈ pc.1.set :=
  View.cover_of_tiledL (kernelRun1_A c i arg2 harg2 arg3 harg3 arg4 harg4 arg5 harg5 arg6 harg6 hc0 x0 x1 x2).1.2 S1x1x1.size (by sl_kernel_rfl) y

/-- What the reset case leaves in the two accumulator blocks: its pieces read back. -/
def out1_A_3 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : cond1_0 i) (x0 : Vec F S512x750 .f32) (x1 : Vec F S512x750 .f32) (x2 : Vec F S512x761 .f32) : Vec F S1x11x750 .f32 :=
  VO1_3.read (Elt F) (VO1_3.writes (Elt F) VO1_3.junk (kernelRun1_A c i arg2 harg2 arg3 harg3 arg4 harg4 arg5 harg5 arg6 harg6 hc0 x0 x1 x2).1.1)
def out1_A_4 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : cond1_0 i) (x0 : Vec F S512x750 .f32) (x1 : Vec F S512x750 .f32) (x2 : Vec F S512x761 .f32) : Vec F S1x1x1 .f32 :=
  VO1_4.read (Elt F) (VO1_4.writes (Elt F) VO1_4.junk (kernelRun1_A c i arg2 harg2 arg3 harg3 arg4 harg4 arg5 harg5 arg6 harg6 hc0 x0 x1 x2).1.2)

theorem cover1_B_3 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : ¬cond1_0 i) (x0 : Vec F S512x750 .f32) (x1 : Vec F S512x750 .f32) (x2 : Vec F S512x761 .f32) (xo3 : Vec F S1x11x750 .f32) (xo4 : Vec F S1x1x1 .f32) (y : S1x11x750.Idx) :
    ∃ pc ∈ (kernelRun1_B c i arg2 harg2 arg3 harg3 arg4 harg4 arg5 harg5 arg6 harg6 hc0 x0 x1 x2 xo3 xo4).1.1, y ∈ pc.1.set :=
  View.cover_of_tiledL (kernelRun1_B c i arg2 harg2 arg3 harg3 arg4 harg4 arg5 harg5 arg6 harg6 hc0 x0 x1 x2 xo3 xo4).1.1 S1x1x750.size (by sl_kernel_rfl) y
theorem cover1_B_4 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : ¬cond1_0 i) (x0 : Vec F S512x750 .f32) (x1 : Vec F S512x750 .f32) (x2 : Vec F S512x761 .f32) (xo3 : Vec F S1x11x750 .f32) (xo4 : Vec F S1x1x1 .f32) (y : S1x1x1.Idx) :
    ∃ pc ∈ (kernelRun1_B c i arg2 harg2 arg3 harg3 arg4 harg4 arg5 harg5 arg6 harg6 hc0 x0 x1 x2 xo3 xo4).1.2, y ∈ pc.1.set :=
  View.cover_of_tiledL (kernelRun1_B c i arg2 harg2 arg3 harg3 arg4 harg4 arg5 harg5 arg6 harg6 hc0 x0 x1 x2 xo3 xo4).1.2 S1x1x1.size (by sl_kernel_rfl) y

/-- What the accumulate case leaves in the two accumulator blocks, over the blocks it found there. -/
def out1_B_3 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : ¬cond1_0 i) (x0 : Vec F S512x750 .f32) (x1 : Vec F S512x750 .f32) (x2 : Vec F S512x761 .f32) (xo3 : Vec F S1x11x750 .f32) (xo4 : Vec F S1x1x1 .f32) : Vec F S1x11x750 .f32 :=
  VO1_3.read (Elt F) (VO1_3.writes (Elt F) VO1_3.junk (kernelRun1_B c i arg2 harg2 arg3 harg3 arg4 harg4 arg5 harg5 arg6 harg6 hc0 x0 x1 x2 xo3 xo4).1.1)
def out1_B_4 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : ¬cond1_0 i) (x0 : Vec F S512x750 .f32) (x1 : Vec F S512x750 .f32) (x2 : Vec F S512x761 .f32) (xo3 : Vec F S1x11x750 .f32) (xo4 : Vec F S1x1x1 .f32) : Vec F S1x1x1 .f32 :=
  VO1_4.read (Elt F) (VO1_4.writes (Elt F) VO1_4.junk (kernelRun1_B c i arg2 harg2 arg3 harg3 arg4 harg4 arg5 harg5 arg6 harg6 hc0 x0 x1 x2 xo3 xo4).1.2)

/-! ## The accumulators after each point -/

/-- The two accumulator blocks after the body at position `n`. -/
def outsAt1 (c : Dev nD) : (n : ℕ) → n < cfg1.N → Vec F S1x11x750 .f32 × Vec F S1x1x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩),
              out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 4 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩),
       out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2,
       out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2)

theorem outsAt1_A (c : Dev nD) (t : Fin cfg1.N) (h0 : t.val % 4 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 4 = 0) :
    outsAt1 V c t.val t.isLt =
      (out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2,
       out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3_B (c : Dev nD) (t : Fin cfg1.N) (h0 : ¬t.val % 4 = 0) (d) :
    (dat1 V c).before 3 t d = (outsAt1 V c (t.val - 1) (Nat.lt_of_le_of_lt (Nat.sub_le _ _) t.isLt)).1 := by
  have hN : t.val < 8 := lt_of_lt_of_eq t.isLt (show cfg1.N = 8 from N_1)
  rw [Dat.before_out_kept _ 3 rfl t (by omega) (Bool.eq_false_iff.mpr fun h => by have := (flush1_3 _).mp h; dsimp only at this; omega)
    (fun _ => rfl) (fun _ _ => rfl)]
  dsimp only [dat1]
theorem before1_4_B (c : Dev nD) (t : Fin cfg1.N) (h0 : ¬t.val % 4 = 0) (d) :
    (dat1 V c).before 4 t d = (outsAt1 V c (t.val - 1) (Nat.lt_of_le_of_lt (Nat.sub_le _ _) t.isLt)).2 := by
  have hN : t.val < 8 := lt_of_lt_of_eq t.isLt (show cfg1.N = 8 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 8 := lt_of_lt_of_eq t.isLt (show cfg1.N = 8 from N_1)
  by_cases h0 : t.val % 4 = 0
  · rw [outsAt1_A V c t h0]
    dsimp only
    unfold out1_A_3 out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _)
    · unfold owns; iexists _; isplitr
      swap; · iexact H4
      ipureintro; exact View.read_writes_of_cover _ _ _ _ _ (cover1_A_4 c _ _ _ _ _ _ _ _ _ _ _ _ _ _ _)
  · rw [outsAt1_B V c t h0]
    dsimp only
    simp only [before1_3_B V c t h0, before1_4_B V c t h0]
    unfold out1_B_3 out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) _ _).2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 c _ _ _ _ _ _ _ _ _ _ _ _ _ _ _ _ _)
    · unfold owns; iexists _; isplitr
      swap; · iexact H4
      ipureintro; exact View.read_writes_of_cover _ _ _ _ _ (cover1_B_4 c _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end

end Cert.Kernel.Fr

end
-- ==== Proof.Kernel.FrMain.lean ====
/-
  The whole run: @main is a stretch of host operations (the two padded arrays), the first pass, the second pass, and
  a last stretch of host operations (the loss from the three accumulated arrays). The buffer contents at each boundary
  are a fold from the launch memory: a host stretch's operations applied, a pass's arrays at what its write-backs
  leave. Every weakly fair execution terminates with each unscoped buffer at the last boundary's contents; the two
  argument arrays are written by no stretch and by no pass, so they end as launched.
-/
import proofs.«125402_j3959959847206_1_alg».proof.Proof.Kernel.Frame0
import proofs.«125402_j3959959847206_1_alg».proof.Proof.Kernel.Frame1
import proofs.«125402_j3959959847206_1_alg».proof.Proof.Gen.Kernel.Regions

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first pass's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second pass's exit (no host operation stands between the passes). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch: the contents every execution ends with. -/
abbrev W4 : Dev nD → Valuation τ sig (Elt F) := fun c => StableHlo.after hostOps2 (W3 m ρ c)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (r := main_arg0) (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (r := main_arg1) (by decide)
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

/-! ## The proof data family and the thread state -/

abbrev adm : (p : Fin 2) → (pcfgs (F := F) p).Adm := fun p => (cfgs p).toPCfg_adm
/-- Each pass's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The passes as segments -/

set_option backward.isDefEq.respectTransparency.types false in
/-- Pass 0 as a segment: entered with every unscoped buffer at `W1`, left with them at `W2`. Its arrays are split out of
    the unscoped buffers and put back at their exit contents; the generator register goes into the pass's invariant
    and comes out; nothing is owed; the body has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 as a segment: entered with every unscoped buffer at `W2`, left with them at `W3`. Its arrays are split out of
    the unscoped buffers and put back at their exit contents; the generator register goes into the pass's invariant
    and comes out; nothing is owed; the body has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds each unscoped buffer at the last boundary's contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ ((∃ r, prngReg c r) ∗ ∃ W, owes (c : Thread nD τ) (0 : CellTallies nD τ sig Unit) W))
        ⊢ iprop((StableHlo.held (c : Thread nD τ) (Pipeline.ucRefs τ sig) (W4 m ρ c) ∗ ∃ r, prngReg c r) ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run m ρ)

end Cert.Kernel.Fr

end
-- ==== Proof.KernelIdeal.FrBase.lean ====
/-
  What the two passes' frame proofs share: each window's block at a grid point read off the array its pass finds,
  that an input window's staging buffer holds that block at every point, the reset condition of each body decided
  over the grid (it holds exactly at the first of each half's four tiles), and the staging memrefs at a point.
-/
import proofs.«125402_j3959959847206_1_alg».proof.Proof.Gen.KernelIdeal.Launch
import proofs.«125402_j3959959847206_1_alg».proof.Proof.Gen.KernelIdeal.Skeleton
import proofs.«125402_j3959959847206_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

-- The buffer contents a pass is entered with: the parameter each pass's half is stated at.
variable (V : (c : Dev nD) → (b : Ref sig .tc) → Buf (Elt F) ((c : Thread nD τ).loc b))

/-! ## The first pass -/

/-- Window `w`'s block at point `t` of the first pass, read off its array as the pass finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window is fetched at every point, so its staging buffer holds its block there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The second pass -/

/-- Window `w`'s block at point `t` of the second pass, read off its array as the pass finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The reset conditions -/

/-- The first pass's body resets its accumulator when the second grid coordinate is zero. -/
abbrev cond0_0 (i : grid0.Coords) : Prop := (Scalar.cmpi .ne (Scalar.extui (Scalar.cmpi .eq (BitVec.ofNat 32 (i 1).val) 0#32)) 0#32) = 1#1
/-- That is at the points ≡ 0 (mod 4): the first tile of each half. -/
theorem hcond0_0 : ∀ t : Fin cfg0.N, cond0_0 (grid0.coords t) ↔ t.val % 4 = 0 :=
  (by decide +kernel : ∀ t : Fin grid0.N, cond0_0 (grid0.coords t) ↔ t.val % 4 = 0)

/-- The second pass's body resets its two accumulators when the second grid coordinate is zero. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-! ## The staging memrefs at a point -/

abbrev VO0_2 : View sig .tc .vmem S1x11x750 .f32 := (Memref.whole cc0_stg2_0 : Memref sig .tc .vmem S1x11x750 .f32).view
abbrev ms0_0 (t : Fin cfg0.N) : Memref sig .tc .vmem S512x750 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x761 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x11x750 .f32 := win0_2.stage (cfg0.slots t 2)
abbrev hs0_2 (t : Fin cfg0.N) : (ms0_2 t).IsWhole := hstage0_2 ((cfg0.slots t 2).cast nbuf0_2)

abbrev VO1_3 : View sig .tc .vmem S1x11x750 .f32 := (Memref.whole cc1_stg3_0 : Memref sig .tc .vmem S1x11x750 .f32).view
abbrev VO1_4 : View sig .tc .vmem S1x1x1 .f32 := (Memref.whole cc1_stg4_0 : Memref sig .tc .vmem S1x1x1 .f32).view
abbrev ms1_0 (t : Fin cfg1.N) : Memref sig .tc .vmem S512x750 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x750 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x761 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x11x750 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1x1 .f32 := win1_4.stage (cfg1.slots t 4)
abbrev hs1_4 (t : Fin cfg1.N) : (ms1_4 t).IsWhole := hstage1_4 ((cfg1.slots t 4).cast nbuf1_4)

end Cert.KernelIdeal.Fr

end
-- ==== Proof.KernelIdeal.Run0A.lean ====
/-
  The first pass's body run whole in the case where its reset is taken (the first tile of a half): from the two input
  blocks, it ends with the inputs as they were and the accumulator block written by the pieces the run finds.
-/
import proofs.«125402_j3959959847206_1_alg».proof.Proof.KernelIdeal.FrBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the accumulator block (last first) in this case, with the body's triple on
    whole staging memrefs. -/
noncomputable def kernelRun0_A (c : Dev nD) (i : grid0.Coords) (arg2 : Memref sig .tc .vmem S512x750 .f32) (harg2 : arg2.IsWhole) (arg3 : Memref sig .tc .vmem S512x761 .f32) (harg3 : arg3.IsWhole) (arg4 : Memref sig .tc .vmem S1x11x750 .f32) (harg4 : arg4.IsWhole) (hc0 : cond0_0 i)
    (x0 : Vec F S512x750 .f32) (x1 : Vec F S512x761 .f32) :
    { L2 : List (View.Piece (Elt F) S1x11x750 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel_a_body i arg2 harg2 arg3 harg3 arg4 harg4) K } := by
  refine ⟨?_, fun E K => ?run⟩
  case run =>
    simp only [cc0__kernel_a_body_eq_skeleton]; unfold cc0__kernel_a_body_skel
    unfold owns
    iintro ⟨⟨%f0, %hf0, H0⟩, ⟨%f1, %hf1, H1⟩, ⟨%d2, %f2, -, H2⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Fr

end
-- ==== Proof.KernelIdeal.Run0B.lean ====
/-
  The first pass's body run whole in the case where its reset is not taken (a later tile of a half): from the two input
  blocks and the accumulator block the tile before left, it ends with the inputs as they were and the accumulator block written by the pieces the run finds.
-/
import proofs.«125402_j3959959847206_1_alg».proof.Proof.KernelIdeal.Run0A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the accumulator block (last first) in this case, with the body's triple on
    whole staging memrefs. -/
noncomputable def kernelRun0_B (c : Dev nD) (i : grid0.Coords) (arg2 : Memref sig .tc .vmem S512x750 .f32) (harg2 : arg2.IsWhole) (arg3 : Memref sig .tc .vmem S512x761 .f32) (harg3 : arg3.IsWhole) (arg4 : Memref sig .tc .vmem S1x11x750 .f32) (harg4 : arg4.IsWhole) (hc0 : ¬cond0_0 i)
    (x0 : Vec F S512x750 .f32) (x1 : Vec F S512x761 .f32) (xo2 : Vec F S1x11x750 .f32) :
    { L2 : List (View.Piece (Elt F) S1x11x750 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2)) -∗ K ⟨⟩))
          ⊢ wp frame (wpE (defs₀ (F := F)) Variants.none c none) E (cc0__kernel_a_body i arg2 harg2 arg3 harg3 arg4 harg4) K } := by
  refine ⟨?_, fun E K => ?run⟩
  case run =>
    simp only [cc0__kernel_a_body_eq_skeleton]; unfold cc0__kernel_a_body_skel
    unfold owns
    iintro ⟨⟨%f0, %hf0, H0⟩, ⟨%f1, %hf1, H1⟩, ⟨%f2, %hf2, H2⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    iexists _; iexact H2

end Cert.KernelIdeal.Fr

end
-- ==== Proof.KernelIdeal.Frame0.lean ====
/-
  The first pass's proof data and body obligation, at the contents `V` the pass is entered with. The accumulator
  block after point `n` is what the reset case leaves at the first tile of a half, and what the accumulate case
  leaves over the block of the tile before at the other three; the block is written back after a half's last tile
  only, so between those the staging buffer keeps what the body left.
-/
import proofs.«125402_j3959959847206_1_alg».proof.Proof.KernelIdeal.Run0B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The reset case's pieces cover the accumulator block. -/
theorem cover0_A_2 (c : Dev nD) (i : grid0.Coords) (arg2 : Memref sig .tc .vmem S512x750 .f32) (harg2 : arg2.IsWhole) (arg3 : Memref sig .tc .vmem S512x761 .f32) (harg3 : arg3.IsWhole) (arg4 : Memref sig .tc .vmem S1x11x750 .f32) (harg4 : arg4.IsWhole) (hc0 : cond0_0 i)
    (x0 : Vec F S512x750 .f32) (x1 : Vec F S512x761 .f32) (y : S1x11x750.Idx) :
    ∃ pc ∈ (kernelRun0_A c i arg2 harg2 arg3 harg3 arg4 harg4 hc0 x0 x1).1, y ∈ pc.1.set :=
  View.cover_of_tiledBy (kernelRun0_A c i arg2 harg2 arg3 harg3 arg4 harg4 hc0 x0 x1).1 S1x1x750.size (by sl_kernel_rfl) y

/-- What the reset case leaves in the accumulator block: its pieces read back. -/
def out0_A_2 (c : Dev nD) (i : grid0.Coords) (arg2 : Memref sig .tc .vmem S512x750 .f32) (harg2 : arg2.IsWhole) (arg3 : Memref sig .tc .vmem S512x761 .f32) (harg3 : arg3.IsWhole) (arg4 : Memref sig .tc .vmem S1x11x750 .f32) (harg4 : arg4.IsWhole) (hc0 : cond0_0 i)
    (x0 : Vec F S512x750 .f32) (x1 : Vec F S512x761 .f32) : Vec F S1x11x750 .f32 :=
  VO0_2.read (Elt F) (VO0_2.writes (Elt F) VO0_2.junk (kernelRun0_A c i arg2 harg2 arg3 harg3 arg4 harg4 hc0 x0 x1).1)

/-- The accumulate case's pieces (one per window offset, a row each) cover the accumulator block. -/
theorem cover0_B_2 (c : Dev nD) (i : grid0.Coords) (arg2 : Memref sig .tc .vmem S512x750 .f32) (harg2 : arg2.IsWhole) (arg3 : Memref sig .tc .vmem S512x761 .f32) (harg3 : arg3.IsWhole) (arg4 : Memref sig .tc .vmem S1x11x750 .f32) (harg4 : arg4.IsWhole) (hc0 : ¬cond0_0 i)
    (x0 : Vec F S512x750 .f32) (x1 : Vec F S512x761 .f32) (xo2 : Vec F S1x11x750 .f32) (y : S1x11x750.Idx) :
    ∃ pc ∈ (kernelRun0_B c i arg2 harg2 arg3 harg3 arg4 harg4 hc0 x0 x1 xo2).1, y ∈ pc.1.set :=
  View.cover_of_tiledL (kernelRun0_B c i arg2 harg2 arg3 harg3 arg4 harg4 hc0 x0 x1 xo2).1 S1x1x750.size (by sl_kernel_rfl) y

/-- What the accumulate case leaves in the accumulator block, over the block `xo2` it found there. -/
def out0_B_2 (c : Dev nD) (i : grid0.Coords) (arg2 : Memref sig .tc .vmem S512x750 .f32) (harg2 : arg2.IsWhole) (arg3 : Memref sig .tc .vmem S512x761 .f32) (harg3 : arg3.IsWhole) (arg4 : Memref sig .tc .vmem S1x11x750 .f32) (harg4 : arg4.IsWhole) (hc0 : ¬cond0_0 i)
    (x0 : Vec F S512x750 .f32) (x1 : Vec F S512x761 .f32) (xo2 : Vec F S1x11x750 .f32) : Vec F S1x11x750 .f32 :=
  VO0_2.read (Elt F) (VO0_2.writes (Elt F) VO0_2.junk (kernelRun0_B c i arg2 harg2 arg3 harg3 arg4 harg4 hc0 x0 x1 xo2).1)

/-! ## The accumulator after each point -/

/-- The accumulator block after the body at position `n`: the reset case at the first tile of a half, otherwise the
    accumulate case over what this leaves at `n - 1`. -/
def outsAt0 (c : Dev nD) : (n : ℕ) → n < cfg0.N → Vec F S1x11x750 .f32
  | 0, hn => out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (iblk0 V c 0 ⟨0, hn⟩) (iblk0 V c 1 ⟨0, hn⟩)
  | n + 1, hn =>
    if h0 : (n + 1) % 4 = 0 then
      out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (iblk0 V c 0 ⟨n + 1, hn⟩) (iblk0 V c 1 ⟨n + 1, hn⟩)
    else
      out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (iblk0 V c 0 ⟨n + 1, hn⟩) (iblk0 V c 1 ⟨n + 1, hn⟩) (outsAt0 c n (Nat.lt_of_succ_lt hn))

/-- At a point where the reset is taken. -/
theorem outsAt0_A (c : Dev nD) (t : Fin cfg0.N) (h0 : t.val % 4 = 0) :
    outsAt0 V c t.val t.isLt = out0_A_2 c (grid0.coords t) (ms0_0 t) (hs0_0 t) (ms0_1 t) (hs0_1 t) (ms0_2 t) (hs0_2 t) ((hcond0_0 t).mpr h0) (iblk0 V c 0 t) (iblk0 V c 1 t) := by
  obtain ⟨n, hn⟩ := t
  cases n with
  | zero => exact rfl
  | succ n => exact (dif_pos h0).trans rfl

/-- At a point where it is not: over what the point before left. -/
theorem outsAt0_B (c : Dev nD) (t : Fin cfg0.N) (h0 : ¬t.val % 4 = 0) :
    outsAt0 V c t.val t.isLt = out0_B_2 c (grid0.coords t) (ms0_0 t) (hs0_0 t) (ms0_1 t) (hs0_1 t) (ms0_2 t) (hs0_2 t) (fun h => h0 ((hcond0_0 t).mp h)) (iblk0 V c 0 t) (iblk0 V c 1 t) (outsAt0 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The proof data -/

/-- The first pass's proof data on core `c`: the arrays as the pass finds them; after the body at point `t` each
    input's buffer at its block and the accumulator's at `outsAt0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => outsAt0 V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = outsAt0 V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
/-- At a later tile of a half the accumulator's staging buffer holds what the body left at the tile before: the
    buffer is not written back between. -/
theorem before0_2_B (c : Dev nD) (t : Fin cfg0.N) (h0 : ¬t.val % 4 = 0) (d) :
    (dat0 V c).before 2 t d = outsAt0 V c (t.val - 1) (Nat.lt_of_le_of_lt (Nat.sub_le _ _) t.isLt) := by
  have hN : t.val < 8 := lt_of_lt_of_eq t.isLt (show cfg0.N = 8 from N_0)
  rw [Dat.before_out_kept _ 2 rfl t (by omega) (Bool.eq_false_iff.mpr fun h => by have := (flush0_2 _).mp h; dsimp only at this; omega)
    (fun _ => rfl) (fun _ _ => rfl)]
  dsimp only [dat0]

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t))

set_option maxHeartbeats 1600000 in
/-- The body at any point: the inputs' memrefs hold their blocks; the closed form of the reset condition says which
    case the point is in, and in the accumulate case the accumulator's buffer holds what the tile before left. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  have hN : t.val < 8 := lt_of_lt_of_eq t.isLt (show cfg0.N = 8 from N_0)
  by_cases h0 : t.val % 4 = 0
  · rw [outsAt0_A V c t h0]
    unfold out0_A_2
    iintro ⟨HΦ, Ho, ⟨%d0, H0⟩, ⟨%d1, H1⟩, ⟨%d2, H2⟩⟩
    iapply ((kernelRun0_A c (grid0.coords t) _ _ _ _ _ _ ((hcond0_0 t).mpr h0) (iblk0 V c 0 t) (iblk0 V c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_A_2 c _ _ _ _ _ _ _ _ _ _)
  · rw [outsAt0_B V c t h0]
    simp only [before0_2_B V c t h0]
    unfold out0_B_2
    iintro ⟨HΦ, Ho, ⟨%d0, H0⟩, ⟨%d1, H1⟩, ⟨%d2, H2⟩⟩
    iapply ((kernelRun0_B c (grid0.coords t) _ _ _ _ _ _ (fun h => h0 ((hcond0_0 t).mp h)) (iblk0 V c 0 t) (iblk0 V c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact View.read_writes_of_cover _ _ _ _ _ (cover0_B_2 c _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Fr

end
-- ==== Proof.KernelIdeal.Run1A.lean ====
/-
  The second pass's body run whole in the case where its reset is taken (the first tile of a half): from the three input
  blocks, it ends with the inputs as they were and each accumulator block written by the pieces the run finds.
-/
import proofs.«125402_j3959959847206_1_alg».proof.Proof.KernelIdeal.FrBase

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulator blocks (last first) in this case, with the body's triple
    on whole staging memrefs. -/
noncomputable def kernelRun1_A (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : cond1_0 i)
    (x0 : Vec F S512x750 .f32) (x1 : Vec F S512x750 .f32) (x2 : Vec F S512x761 .f32) :
    { L : List (View.Piece (Elt F) S1x11x750 .f32) × List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc1__kernel_b_body i arg2 harg2 arg3 harg3 arg4 harg4 arg5 harg5 arg6 harg6) K } := by
  refine ⟨⟨?_, ?_⟩, fun E K => ?run⟩
  case run =>
    simp only [cc1__kernel_b_body_eq_skeleton]; unfold cc1__kernel_b_body_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Fr

end
-- ==== Proof.KernelIdeal.Run1B.lean ====
/-
  The second pass's body run whole in the case where its reset is not taken (a later tile of a half): from the three input
  blocks and the two accumulator blocks the tile before left, it ends with the inputs as they were and each accumulator block written by the pieces the run finds.
-/
import proofs.«125402_j3959959847206_1_alg».proof.Proof.KernelIdeal.Run1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two accumulator blocks (last first) in this case, with the body's triple
    on whole staging memrefs. -/
noncomputable def kernelRun1_B (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : ¬cond1_0 i)
    (x0 : Vec F S512x750 .f32) (x1 : Vec F S512x750 .f32) (x2 : Vec F S512x761 .f32) (xo3 : Vec F S1x11x750 .f32) (xo4 : Vec F S1x1x1 .f32) :
    { L : List (View.Piece (Elt F) S1x11x750 .f32) × List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xo3 ∗ owns (c : Thread nD τ) arg6 fullShare xo4
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L.1)
                ∗ (∃ f, arg6.view.loc (c : Thread nD τ) ↦[arg6.view.set]{fullShare} arg6.view.writes (Elt F) f L.2)) -∗ K ⟨⟩))
          ⊢ wp frame (wpE (defs₀ (F := F)) Variants.none c none) E (cc1__kernel_b_body i arg2 harg2 arg3 harg3 arg4 harg4 arg5 harg5 arg6 harg6) K } := by
  refine ⟨⟨?_, ?_⟩, fun E K => ?run⟩
  case run =>
    simp only [cc1__kernel_b_body_eq_skeleton]; unfold cc1__kernel_b_body_skel
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; iexact H3
    iexists _; iexact H4

end Cert.KernelIdeal.Fr

end
-- ==== Proof.KernelIdeal.Frame1.lean ====
/-
  The second pass's proof data and body obligation, at the contents `V` the pass is entered with. It carries two
  accumulators (the windowed absolute differences, a block of eleven rows, and the residual, one entry): after point
  `n` each holds what the reset case leaves at the first tile of a half and what the accumulate case leaves over the
  tile before otherwise; both are written back after a half's last tile only.
-/
import proofs.«125402_j3959959847206_1_alg».proof.Proof.KernelIdeal.Run1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

theorem cover1_A_3 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : cond1_0 i) (x0 : Vec F S512x750 .f32) (x1 : Vec F S512x750 .f32) (x2 : Vec F S512x761 .f32) (y : S1x11x750.Idx) :
    ∃ pc ∈ (kernelRun1_A c i arg2 harg2 arg3 harg3 arg4 harg4 arg5 harg5 arg6 harg6 hc0 x0 x1 x2).1.1, y ∈ pc.1.set :=
  View.cover_of_tiledBy (kernelRun1_A c i arg2 harg2 arg3 harg3 arg4 harg4 arg5 harg5 arg6 harg6 hc0 x0 x1 x2).1.1 S1x1x750.size (by sl_kernel_rfl) y
theorem cover1_A_4 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : cond1_0 i) (x0 : Vec F S512x750 .f32) (x1 : Vec F S512x750 .f32) (x2 : Vec F S512x761 .f32) (y : S1x1x1.Idx) :
    ∃ pc ∈ (kernelRun1_A c i arg2 harg2 arg3 harg3 arg4 harg4 arg5 harg5 arg6 harg6 hc0 x0 x1 x2).1.2, y ∈ pc.1.set :=
  View.cover_of_tiledL (kernelRun1_A c i arg2 harg2 arg3 harg3 arg4 harg4 arg5 harg5 arg6 harg6 hc0 x0 x1 x2).1.2 S1x1x1.size (by sl_kernel_rfl) y

/-- What the reset case leaves in the two accumulator blocks: its pieces read back. -/
def out1_A_3 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : cond1_0 i) (x0 : Vec F S512x750 .f32) (x1 : Vec F S512x750 .f32) (x2 : Vec F S512x761 .f32) : Vec F S1x11x750 .f32 :=
  VO1_3.read (Elt F) (VO1_3.writes (Elt F) VO1_3.junk (kernelRun1_A c i arg2 harg2 arg3 harg3 arg4 harg4 arg5 harg5 arg6 harg6 hc0 x0 x1 x2).1.1)
def out1_A_4 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : cond1_0 i) (x0 : Vec F S512x750 .f32) (x1 : Vec F S512x750 .f32) (x2 : Vec F S512x761 .f32) : Vec F S1x1x1 .f32 :=
  VO1_4.read (Elt F) (VO1_4.writes (Elt F) VO1_4.junk (kernelRun1_A c i arg2 harg2 arg3 harg3 arg4 harg4 arg5 harg5 arg6 harg6 hc0 x0 x1 x2).1.2)

theorem cover1_B_3 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : ¬cond1_0 i) (x0 : Vec F S512x750 .f32) (x1 : Vec F S512x750 .f32) (x2 : Vec F S512x761 .f32) (xo3 : Vec F S1x11x750 .f32) (xo4 : Vec F S1x1x1 .f32) (y : S1x11x750.Idx) :
    ∃ pc ∈ (kernelRun1_B c i arg2 harg2 arg3 harg3 arg4 harg4 arg5 harg5 arg6 harg6 hc0 x0 x1 x2 xo3 xo4).1.1, y ∈ pc.1.set :=
  View.cover_of_tiledL (kernelRun1_B c i arg2 harg2 arg3 harg3 arg4 harg4 arg5 harg5 arg6 harg6 hc0 x0 x1 x2 xo3 xo4).1.1 S1x1x750.size (by sl_kernel_rfl) y
theorem cover1_B_4 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : ¬cond1_0 i) (x0 : Vec F S512x750 .f32) (x1 : Vec F S512x750 .f32) (x2 : Vec F S512x761 .f32) (xo3 : Vec F S1x11x750 .f32) (xo4 : Vec F S1x1x1 .f32) (y : S1x1x1.Idx) :
    ∃ pc ∈ (kernelRun1_B c i arg2 harg2 arg3 harg3 arg4 harg4 arg5 harg5 arg6 harg6 hc0 x0 x1 x2 xo3 xo4).1.2, y ∈ pc.1.set :=
  View.cover_of_tiledL (kernelRun1_B c i arg2 harg2 arg3 harg3 arg4 harg4 arg5 harg5 arg6 harg6 hc0 x0 x1 x2 xo3 xo4).1.2 S1x1x1.size (by sl_kernel_rfl) y

/-- What the accumulate case leaves in the two accumulator blocks, over the blocks it found there. -/
def out1_B_3 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : ¬cond1_0 i) (x0 : Vec F S512x750 .f32) (x1 : Vec F S512x750 .f32) (x2 : Vec F S512x761 .f32) (xo3 : Vec F S1x11x750 .f32) (xo4 : Vec F S1x1x1 .f32) : Vec F S1x11x750 .f32 :=
  VO1_3.read (Elt F) (VO1_3.writes (Elt F) VO1_3.junk (kernelRun1_B c i arg2 harg2 arg3 harg3 arg4 harg4 arg5 harg5 arg6 harg6 hc0 x0 x1 x2 xo3 xo4).1.1)
def out1_B_4 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : ¬cond1_0 i) (x0 : Vec F S512x750 .f32) (x1 : Vec F S512x750 .f32) (x2 : Vec F S512x761 .f32) (xo3 : Vec F S1x11x750 .f32) (xo4 : Vec F S1x1x1 .f32) : Vec F S1x1x1 .f32 :=
  VO1_4.read (Elt F) (VO1_4.writes (Elt F) VO1_4.junk (kernelRun1_B c i arg2 harg2 arg3 harg3 arg4 harg4 arg5 harg5 arg6 harg6 hc0 x0 x1 x2 xo3 xo4).1.2)

/-! ## The accumulators after each point -/

/-- The two accumulator blocks after the body at position `n`. -/
def outsAt1 (c : Dev nD) : (n : ℕ) → n < cfg1.N → Vec F S1x11x750 .f32 × Vec F S1x1x1 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩),
              out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 4 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩),
       out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2,
       out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).1 (outsAt1 c n (Nat.lt_of_succ_lt hn)).2)

theorem outsAt1_A (c : Dev nD) (t : Fin cfg1.N) (h0 : t.val % 4 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t)) := by
  obtain ⟨n, hn⟩ := t
  cases n with
  | zero => exact rfl
  | succ n => exact (dif_pos h0).trans rfl

theorem outsAt1_B (c : Dev nD) (t : Fin cfg1.N) (h0 : ¬t.val % 4 = 0) :
    outsAt1 V c t.val t.isLt =
      (out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2,
       out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3_B (c : Dev nD) (t : Fin cfg1.N) (h0 : ¬t.val % 4 = 0) (d) :
    (dat1 V c).before 3 t d = (outsAt1 V c (t.val - 1) (Nat.lt_of_le_of_lt (Nat.sub_le _ _) t.isLt)).1 := by
  have hN : t.val < 8 := lt_of_lt_of_eq t.isLt (show cfg1.N = 8 from N_1)
  rw [Dat.before_out_kept _ 3 rfl t (by omega) (Bool.eq_false_iff.mpr fun h => by have := (flush1_3 _).mp h; dsimp only at this; omega)
    (fun _ => rfl) (fun _ _ => rfl)]
  dsimp only [dat1]
theorem before1_4_B (c : Dev nD) (t : Fin cfg1.N) (h0 : ¬t.val % 4 = 0) (d) :
    (dat1 V c).before 4 t d = (outsAt1 V c (t.val - 1) (Nat.lt_of_le_of_lt (Nat.sub_le _ _) t.isLt)).2 := by
  have hN : t.val < 8 := lt_of_lt_of_eq t.isLt (show cfg1.N = 8 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 1600000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 8 := lt_of_lt_of_eq t.isLt (show cfg1.N = 8 from N_1)
  by_cases h0 : t.val % 4 = 0
  · rw [outsAt1_A V c t h0]
    dsimp only
    unfold out1_A_3 out1_A_4
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t)).2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _)
    · unfold owns; iexists _; isplitr
      swap; · iexact H4
      ipureintro; exact View.read_writes_of_cover _ _ _ _ _ (cover1_A_4 c _ _ _ _ _ _ _ _ _ _ _ _ _ _ _)
  · rw [outsAt1_B V c t h0]
    dsimp only
    simp only [before1_3_B V c t h0, before1_4_B V c t h0]
    unfold out1_B_3 out1_B_4
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) _ _).2 Set.univ _)
    isplitl [H0]; · iexact H0
    isplitl [H1]; · iexact H1
    isplitl [H2]; · iexact H2
    isplitl [H3]; · iexact H3
    isplitl [H4]; · iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 c _ _ _ _ _ _ _ _ _ _ _ _ _ _ _ _ _)
    · unfold owns; iexists _; isplitr
      swap; · iexact H4
      ipureintro; exact View.read_writes_of_cover _ _ _ _ _ (cover1_B_4 c _ _ _ _ _ _ _ _ _ _ _ _ _ _ _ _ _)

theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.KernelIdeal.FrMain.lean ====
/-
  The whole run: @main is a stretch of host operations (the two padded arrays), the first pass, the second pass, and
  a last stretch of host operations (the loss from the three accumulated arrays). The buffer contents at each boundary
  are a fold from the launch memory: a host stretch's operations applied, a pass's arrays at what its write-backs
  leave. Every weakly fair execution terminates with each unscoped buffer at the last boundary's contents; the two
  argument arrays are written by no stretch and by no pass, so they end as launched.
-/
import proofs.«125402_j3959959847206_1_alg».proof.Proof.KernelIdeal.Frame0
import proofs.«125402_j3959959847206_1_alg».proof.Proof.KernelIdeal.Frame1
import proofs.«125402_j3959959847206_1_alg».proof.Proof.Gen.KernelIdeal.Regions

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch (the first pass's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the first pass's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At the second pass's exit (no host operation stands between the passes). -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the last host stretch: the contents every execution ends with. -/
abbrev W4 : Dev nD → Valuation τ sig (Elt F) := fun c => StableHlo.after hostOps2 (W3 m ρ c)

/-! ### The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_writes_sub hostOps2 _ hostOps2_writes (r := main_arg0) (by decide)
    _ = W2 m ρ c (Proc.devRef .tc main_arg0) := (W3_arr m ρ c 0).trans (((dat1 (V2 m ρ) c).arrAt_in 0 rfl _).trans (A_eq1 (V2 m ρ) c 0))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_writes_sub hostOps0 _ hostOps0_writes (r := main_arg0) (by decide)
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_writes_sub hostOps2 _ hostOps2_writes (r := main_arg1) (by decide)
    _ = W2 m ρ c (Proc.devRef .tc main_arg1) := (W3_arr m ρ c 1).trans (((dat1 (V2 m ρ) c).arrAt_in 1 rfl _).trans (A_eq1 (V2 m ρ) c 1))
    _ = W1 m ρ c (Proc.devRef .tc main_arg1) := W2_of_ne m ρ c main_arg1 (by decide)
    _ = W0 m ρ c (Proc.devRef .tc main_arg1) := StableHlo.after_of_writes_sub hostOps0 _ hostOps0_writes (r := main_arg1) (by decide)
    _ = m ((c : Thread nD τ).loc main_arg1) := rfl

/-! ## The proof data family and the thread state -/

abbrev adm : (p : Fin 2) → (pcfgs (F := F) p).Adm := fun p => (cfgs p).toPCfg_adm
/-- Each pass's proof data at its entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W4 m ρ c) ∗ ∃ r, prngReg c r)

/-! ## The passes as segments -/

set_option backward.isDefEq.respectTransparency.types false in
/-- Pass 0 as a segment: entered with every unscoped buffer at `W1`, left with them at `W2`. Its arrays are split out of
    the unscoped buffers and put back at their exit contents; the generator register goes into the pass's invariant
    and comes out; nothing is owed; the body has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 as a segment: entered with every unscoped buffer at `W2`, left with them at `W3`. Its arrays are split out of
    the unscoped buffers and put back at their exit contents; the generator register goes into the pass's invariant
    and comes out; nothing is owed; the body has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]

theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final memory holds each unscoped buffer at the last boundary's contents `W4`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ ((∃ r, prngReg c r) ∗ ∃ W, owes (c : Thread nD τ) (0 : CellTallies nD τ sig Unit) W))
        ⊢ iprop((StableHlo.held (c : Thread nD τ) (Pipeline.ucRefs τ sig) (W4 m ρ c) ∗ ∃ r, prngReg c r) ∗ ∃ W, owes (c : Thread nD τ) (0 : CellTallies nD τ sig Unit) W)
      iintro ⟨Hh, Hp, Ho⟩
      isplitl [Hh Hp]
      · isplitl [Hh]; · iexact Hh
        iexact Hp
      iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (W4_main_arg0 m ρ c),
     (h c _ (mem_uc main_arg1 (by decide))).trans (W4_main_arg1 m ρ c)⟩) (run m ρ)

end Cert.KernelIdeal.Fr

end
-- ==== Proof.Spec.lean ====
/-
  The loss both programs compute, as functions of the two argument arrays over the extended reals.

  For arrays `a, a₂ : [4096, 750]`, a row is padded by replicating its edges (six copies of column 0 in front, five
  copies of column 749 behind: `pad`), and the window term at time `i`, offset `j` reads the padded row at `i + j`
  (`win`). With `sqd a b i j = (a[b,i] − win a b i j)²`, `abd a₂ b i j = |a₂[b,i] − win a₂ b i j|` and
  `res a a₂ b = ∑ᵢ (a[b,i] − a₂[b,i])²`, the loss is

      ( ∑ᵢⱼ exp(−½ ∑_b sqd a b i j) · (∑_b abd a₂ b i j) / 4096  +  0.1 · (∑_b res a a₂ b) / 4096 ) · 1.

  `kernelLoss` is this value in the grouping the tiled program produces (rows in two halves of four tiles of 512 rows,
  the weight as `exp(s · (−½))`, one division after the sum over `(j, i)`); `refLoss` is the grouping of the
  plain program (the weight inside the sum over rows, `exp((−s) / 2)`, a division per `(i, j)`).
-/
import Idealize.ShloMosaic.PureOps.Ideal
import Idealize.ShloMosaic.Lib.ValueIdx

noncomputable section

namespace Cert.Spec

open Idealize.ShloMosaic Idealize.ShloMosaic.ValueIdx
open scoped BigOperators

/-- An argument array at the ideal instance: an extended real per index of `[4096, 750]`. -/
abbrev Arr : Type := (⟨2, ![4096, 750]⟩ : Shape).Idx → EReal

/-- The float literals of the two programs, by their words. -/
abbrev cNegHalf : EReal := Ideal.ofBits .f32 0xBF000000#32
abbrev cTwo : EReal := Ideal.ofBits .f32 0x40000000#32
abbrev cRows : EReal := Ideal.ofBits .f32 0x45800000#32
abbrev cTheta : EReal := Ideal.ofBits .f32 0x3DCCCCCD#32
abbrev cOne : EReal := Ideal.ofBits .f32 0x3F800000#32

/-- Row `b` padded to 761 columns: column 0 six times, the row, column 749 five times. -/
def pad (x : Arr) (b : Fin 4096) (k : Fin 761) : EReal :=
  if k.val < 6 then x (ix2 b (⟨0, by omega⟩ : Fin 750))
  else if h : k.val < 756 then x (ix2 b (⟨k.val - 6, by omega⟩ : Fin 750))
  else x (ix2 b (⟨749, by omega⟩ : Fin 750))

/-- The padded row read at `i + j`: the window's entry at offset `j`. -/
def win (x : Arr) (b : Fin 4096) (i : Fin 750) (j : Fin 11) : EReal :=
  pad x b ⟨i.val + j.val, by have := i.isLt; have := j.isLt; omega⟩

/-- The squared difference of an entry and its window entry. -/
def sqd (a : Arr) (b : Fin 4096) (i : Fin 750) (j : Fin 11) : EReal :=
  (a (ix2 b i) - win a b i j) * (a (ix2 b i) - win a b i j)

/-- The absolute difference of an entry and its window entry. -/
def abd (a2 : Arr) (b : Fin 4096) (i : Fin 750) (j : Fin 11) : EReal :=
  max (a2 (ix2 b i) - win a2 b i j) (-(a2 (ix2 b i) - win a2 b i j))

/-- The squared residual of the two arrays at an entry. -/
def rsq (a a2 : Arr) (b : Fin 4096) (i : Fin 750) : EReal :=
  (a (ix2 b i) - a2 (ix2 b i)) * (a (ix2 b i) - a2 (ix2 b i))

/-- Row `r` of tile `t` of half `c`: the rows are cut in two halves of four tiles of 512 rows. -/
def row (c : Fin 2) (t : Fin 4) (r : Fin 512) : Fin 4096 :=
  ⟨(c.val * 4 + t.val) * 512 + r.val, by have := c.isLt; have := t.isLt; have := r.isLt; omega⟩

/-- Half `c`'s sum of squared window differences. -/
def halfSq (a : Arr) (c : Fin 2) (j : Fin 11) (i : Fin 750) : EReal :=
  ∑ t : Fin 4, ∑ r : Fin 512, sqd a (row c t r) i j
/-- Half `c`'s sum of absolute window differences. -/
def halfAb (a2 : Arr) (c : Fin 2) (j : Fin 11) (i : Fin 750) : EReal :=
  ∑ t : Fin 4, ∑ r : Fin 512, abd a2 (row c t r) i j
/-- Half `c`'s sum of squared residuals: per tile the rows' sums over the columns, summed over the rows. -/
def halfRes (a a2 : Arr) (c : Fin 2) : EReal :=
  ∑ t : Fin 4, ∑ r : Fin 512, ∑ i : Fin 750, rsq a a2 (row c t r) i

/-- The tiled program's last stretch, from the three arrays its two passes leave: the two halves added, the weight
    `exp(s · (−½))`, the weighted sum over `(j, i)` divided by the row count, the residual term, the final scale. -/
def tail (S L : Fin 2 → Fin 11 → Fin 750 → EReal) (R : Fin 2 → EReal) : EReal :=
  (Ideal.div (∑ j : Fin 11, ∑ i : Fin 750, Ideal.exp ((S 0 j i + S 1 j i) * cNegHalf) * (L 0 j i + L 1 j i)) cRows
    + Ideal.div (cTheta * (R 0 + R 1)) cRows) * cOne

/-- The loss in the tiled program's grouping. -/
def kernelLoss (a a2 : Arr) : EReal := tail (halfSq a) (halfAb a2) (halfRes a a2)

/-- The loss in the plain program's grouping. -/
def refLoss (a a2 : Arr) : EReal :=
  ((∑ i : Fin 750, ∑ j : Fin 11,
      Ideal.div (∑ b : Fin 4096, Ideal.exp (Ideal.div (-(∑ b' : Fin 4096, sqd a b' i j)) cTwo) * abd a2 b i j) cRows)
    + Ideal.div (∑ b : Fin 4096, cTheta * ∑ i : Fin 750, rsq a a2 b i) cRows) * cOne

end Cert.Spec

end
-- ==== Proof.KernelIdeal.TailValue.lean ====
/-
  The tiled program's last stretch, read at its one result index.

  After the two passes the program holds three arrays: `S, L : [2, 11, 750]` (per half of the rows, the sums of squared and of
  absolute window differences) and `R : [2, 1, 1]` (per half, the sum of squared residuals). The remaining operations cut each
  array in its two halves, add the halves, form the weight `exp((S₀ + S₁) · (−½))`, sum `weight · (L₀ + L₁)` over all of
  `[11, 750]`, divide by the row count, add `θ · (R₀ + R₁)` divided by the row count, and scale by one. Read at the one index of
  the scalar result, that is `Cert.Spec.tail` of the three arrays:

  * a half: the slice at offset `(c, 0, 0)` of extent `[1, 11, 750]`, reshaped to `[11, 750]`, read at `(j, i)`, is the array at
    `(c, j, i)` — both row-major positions are `j · 750 + i` (`half_apply`); likewise the `[1, 1, 1]` slice reshaped to a scalar
    (`unit_apply`);
  * the sum over every index of `[11, 750]` from the zero word is the double sum over `j : Fin 11`, `i : Fin 750`;
  * the pointwise operations read through at an index.
-/
import proofs.«125402_j3959959847206_1_alg».proof.Proof.Gen.KernelIdeal.Launch
import proofs.«125402_j3959959847206_1_alg».proof.Proof.Spec
import Idealize.ShloMosaic.Lib.StableHlo.Run
import Idealize.ShloMosaic.PureOps.Ideal.Laws
import Idealize.ShloMosaic.Lib.ValueIdx
import Idealize.ShloMosaic.Lib.ValueLayout
import Idealize.ShloMosaic.Lib.IdealHost
import Idealize.ShloMosaic.Lib.Pipeline.Value

noncomputable section

namespace Cert.KernelIdeal.TailValue

open Cert.KernelIdeal Cert.KernelIdeal.Gen Idealize.ShloMosaic Idealize.ShloMosaic.ValueIdx Idealize.ShloMosaic.StableHlo
open scoped BigOperators

/-- Half `c` of a `[2, 11, 750]` array — its slice at offset `(c, 0, 0)` of extent `[1, 11, 750]`, reshaped to `[11, 750]` —
    read at `(j, i)` is the array at `(c, j, i)`: the row-major positions `(0 · 11 + j) · 750 + i` and `j · 750 + i` agree. -/
theorem half_apply (x : S2x11x750.Idx → EReal) (off : Fin S2x11x750.rank → Nat) (h : S2x11x750.Slices off S1x11x750)
    (c : Fin 2) (h0 : off 0 = c.val) (h1 : off 1 = 0) (h2 : off 2 = 0) (j : Fin 11) (i : Fin 750) :
    shapeCast S11x750 (extractStridedSlice S1x11x750 off x h) shapeCasts_S1x11x750_S11x750 (ix2 j i) = x (ix3 c j i) := by
  rw [shapeCast_apply (extractStridedSlice S1x11x750 off x h) shapeCasts_S1x11x750_S11x750 (ix2 j i) (ix3 0 j i)
    (by rewrite [Shape.rowMajor_val_three, Shape.rowMajor_val_two]
        show (0 * 11 + j.val) * 750 + i.val = j.val * 750 + i.val
        omega)]
  exact extractStridedSlice_apply off x h (ix3 0 j i) (ix3 c j i) (fun a => match a with
    | ⟨0, _⟩ => by show c.val = off 0 + 0; omega
    | ⟨1, _⟩ => by show j.val = off 1 + j.val; omega
    | ⟨2, _⟩ => by show i.val = off 2 + i.val; omega)

/-- Half `c` of a `[2, 1, 1]` array — its slice at offset `(c, 0, 0)` of extent `[1, 1, 1]`, reshaped to a scalar — is the array
    at `(c, 0, 0)`: a scalar and a `[1, 1, 1]` array each have the one row-major position `0`. -/
theorem unit_apply (x : S2x1x1.Idx → EReal) (off : Fin S2x1x1.rank → Nat) (h : S2x1x1.Slices off S1x1x1)
    (c : Fin 2) (h0 : off 0 = c.val) (h1 : off 1 = 0) (h2 : off 2 = 0) (i0 : S_.Idx) :
    shapeCast S_ (extractStridedSlice S1x1x1 off x h) shapeCasts_S1x1x1_S_ i0 = x (ix3 c 0 0) := by
  rw [shapeCast_apply (extractStridedSlice S1x1x1 off x h) shapeCasts_S1x1x1_S_ i0 (ix3 0 0 0)
    (by rewrite [Shape.rowMajor_val_three]
        exact (Shape.rowMajorPi_zero S_.size i0).symm)]
  exact extractStridedSlice_apply off x h (ix3 0 0 0) (ix3 c 0 0) (fun a => match a with
    | ⟨0, _⟩ => by show c.val = off 0 + 0; omega
    | ⟨1, _⟩ => by show 0 = off 1 + 0; omega
    | ⟨2, _⟩ => by show 0 = off 2 + 0; omega)

/-- The host's exponential at an index is the ideal exponential of the element. -/
theorem hostExp_apply {s : Shape} {φ : FTy} (a : FVec Ideal s φ) (i : s.Idx) : Host.exp a i = Ideal.exp (a i) := rfl

/-- The operations' composed term over the three arrays, read at the scalar's index, is `Spec.tail` of them. -/
theorem term_eq (X Y : S2x11x750.Idx → EReal) (Z : S2x1x1.Idx → EReal) :
    (mulf
      (addf
        (Host.divf
          (Host.reduceAdd
            (mulf
              (Host.exp
                (mulf
                  (addf
                    (fun i => shapeCast S11x750 (extractStridedSlice S1x11x750 ![0, 0, 0] X slices_S2x11x750_S1x11x750_0_0_0)
                      shapeCasts_S1x11x750_S11x750 i)
                    (fun i => shapeCast S11x750 (extractStridedSlice S1x11x750 ![1, 0, 0] X slices_S2x11x750_S1x11x750_1_0_0)
                      shapeCasts_S1x11x750_S11x750 i))
                  (broadcastInDim S11x750 ![] bcast_S_S11x750 (constant (F := Ideal) S_ .f32 0xBF000000#32))))
              (addf
                (fun i => shapeCast S11x750 (extractStridedSlice S1x11x750 ![0, 0, 0] Y slices_S2x11x750_S1x11x750_0_0_0)
                  shapeCasts_S1x11x750_S11x750 i)
                (fun i => shapeCast S11x750 (extractStridedSlice S1x11x750 ![1, 0, 0] Y slices_S2x11x750_S1x11x750_1_0_0)
                  shapeCasts_S1x11x750_S11x750 i)))
            (constant (F := Ideal) S_ .f32 0x00000000#32) reducesTo_S11x750_S_d0_1 h_S_)
          (constant (F := Ideal) S_ .f32 0x45800000#32))
        (Host.divf
          (mulf (constant (F := Ideal) S_ .f32 0x3DCCCCCD#32)
            (addf
              (fun i => shapeCast S_ (extractStridedSlice S1x1x1 ![0, 0, 0] Z slices_S2x1x1_S1x1x1_0_0_0) shapeCasts_S1x1x1_S_ i)
              (fun i => shapeCast S_ (extractStridedSlice S1x1x1 ![1, 0, 0] Z slices_S2x1x1_S1x1x1_1_0_0) shapeCasts_S1x1x1_S_ i)))
          (constant (F := Ideal) S_ .f32 0x45800000#32)))
      (constant (F := Ideal) S_ .f32 0x3F800000#32) : FVec Ideal S_ .f32)
      = fun _ => Cert.Spec.tail (fun c' j i => X (ix3 c' j i)) (fun c' j i => Y (ix3 c' j i)) (fun c' => Z (ix3 c' 0 0)) := by
  have eX0 := fun j i => half_apply X ![0, 0, 0] slices_S2x11x750_S1x11x750_0_0_0 0 rfl rfl rfl j i
  have eX1 := fun j i => half_apply X ![1, 0, 0] slices_S2x11x750_S1x11x750_1_0_0 1 rfl rfl rfl j i
  have eY0 := fun j i => half_apply Y ![0, 0, 0] slices_S2x11x750_S1x11x750_0_0_0 0 rfl rfl rfl j i
  have eY1 := fun j i => half_apply Y ![1, 0, 0] slices_S2x11x750_S1x11x750_1_0_0 1 rfl rfl rfl j i
  have eZ0 := fun i0 => unit_apply Z ![0, 0, 0] slices_S2x1x1_S1x1x1_0_0_0 0 rfl rfl rfl i0
  have eZ1 := fun i0 => unit_apply Z ![1, 0, 0] slices_S2x1x1_S1x1x1_1_0_0 1 rfl rfl rfl i0
  funext i0
  simp only [mulf_apply, addf_apply, hostDivf_apply, hostReduceAdd_apply, constant_apply, eZ0, eZ1]
  rw [Ideal.hostReduceAdd_total reducesTo_S11x750_S_d0_1 (fun b => b.elim0), Ideal.ofBits_zero_f32, zero_add, sum_idx2]
  simp only [mulf_apply, addf_apply, hostExp_apply, broadcastInDim_scalar_apply, constant_apply, eX0, eX1, eY0, eY1]
  rfl

set_option maxRecDepth 8192 in
/-- The scalar result after the last stretch, from any contents `W` of the buffers before it, is `Spec.tail` of `W`'s three
    arrays. -/
theorem tail_eq (W : Valuation τ sig (Elt Ideal)) :
    (StableHlo.after (hostOps2 (F := Ideal)) W (Proc.devRef .tc main_v40) : S_.Idx → EReal)
      = fun _ => Cert.Spec.tail
          (fun c' j i => (W (Proc.devRef .tc main_v14) : S2x11x750.Idx → EReal) (ix3 c' j i))
          (fun c' j i => (W (Proc.devRef .tc main_v15_0) : S2x11x750.Idx → EReal) (ix3 c' j i))
          (fun c' => (W (Proc.devRef .tc main_v15_1) : S2x1x1.Idx → EReal) (ix3 c' 0 0)) := by
  show StableHlo.after hostOps2 W (Proc.devRef .tc main_v40) = _
  after_results_simp
  exact term_eq (W (Proc.devRef .tc main_v14)) (W (Proc.devRef .tc main_v15_0)) (W (Proc.devRef .tc main_v15_1))

end Cert.KernelIdeal.TailValue

end
-- ==== Proof.LibNary3.lean ====
/-
  A three-operand `nary` operation (a concatenate of three pieces) read at its result buffer with each operand's
  contents at its own literal reference, so that a rewriting pass can go on into the operands; the library states
  this for four operands.
-/
import Idealize.ShloMosaic.Lib.StableHlo.Run

namespace Idealize.ShloMosaic.StableHlo

variable {τ : Topo} {sig : RefSig} {Val : EltTy → Type}
variable {x a b y : Ref sig .tc}

/-- The result of `nary ![x, a, b] y f` is `f` of the three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, keyed for a simplifier pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.LibPadRead.lean ====
/-
  The edge-replicating pad of a `[4096, 750]` array to `[4096, 761]`, read at an index.

  The padded array is the concatenation along the columns of three pieces: column 0 repeated six times, the array
  itself, column 749 repeated five times. A repeated column is built in three steps: the one-column slice
  `[4096, 1]` at that column, its broadcast to `[4096, 1, w]`, and the reshape of that to `[4096, w]`. Read at row
  `b`, column `k`, the concatenation is the array at `(b, 0)` for `k < 6`, at `(b, k − 6)` for `6 ≤ k < 756`, and at
  `(b, 749)` from there on: the function `Cert.Spec.pad`.

  Nothing here depends on a program: the statements are over the literal shapes and take every side condition of
  the six operations as a hypothesis.
-/
import Idealize.ShloMosaic.PureOps.Ideal
import Idealize.ShloMosaic.Lib.ValueIdx
import Idealize.ShloMosaic.Lib.Pipeline.Value
import proofs.«125402_j3959959847206_1_alg».proof.Proof.Spec

noncomputable section

namespace Cert.PadRead

open Idealize.ShloMosaic Idealize.ShloMosaic.ValueIdx

variable {α : Type}

/-- **A repeated column.** Column `c` of `x`, sliced out as `[4096, 1]`, broadcast to `[4096, 1, w]` and reshaped to
    `[4096, w]`, holds `x[b, c]` at every `(b, r)`: the reshape keeps the row-major position `b · w + r`, which in
    `[4096, 1, w]` is the index `(b, 0, r)`; the broadcast reads its operand at `(b, 0)`; the slice reads `x` at
    `(b, c + 0)`. -/
theorem edge_apply (w c : Nat) (hc : c < 750) (x : (⟨2, ![4096, 750]⟩ : Shape).Idx → α)
    (hs : (⟨2, ![4096, 750]⟩ : Shape).Slices ![0, c] ⟨2, ![4096, 1]⟩)
    (hb : (⟨2, ![4096, 1]⟩ : Shape).BroadcastsInDim ⟨3, ![4096, 1, w]⟩ (![0, 1] : Fin 2 → Fin 3))
    (hcast : (⟨3, ![4096, 1, w]⟩ : Shape).ShapeCasts ⟨2, ![4096, w]⟩) (b : Fin 4096) (r : Fin w) :
    shapeCast ⟨2, ![4096, w]⟩
        (broadcastInDim ⟨3, ![4096, 1, w]⟩ ![0, 1] hb (extractStridedSlice ⟨2, ![4096, 1]⟩ ![0, c] x hs)) hcast (ix2 b r)
      = x (ix2 b (⟨c, hc⟩ : Fin 750)) := by
  rw [shapeCast_apply _ hcast (ix2 b r) (ix3 b (⟨0, Nat.one_pos⟩ : Fin 1) r)
    (by rw [Shape.rowMajor_val_three, Shape.rowMajor_val_two]
        show ((b.val * 1 + 0) * w + r.val) = b.val * w + r.val
        rw [Nat.mul_one, Nat.add_zero])]
  rw [broadcastInDim_apply _ hb _ (ix3 b (⟨0, Nat.one_pos⟩ : Fin 1) r) (ix2 b (⟨0, Nat.one_pos⟩ : Fin 1))
    (fun a => match a with
      | ⟨0, _⟩ => by show b.val = if (4096 : Nat) = 1 then 0 else b.val; rw [if_neg (by decide)]
      | ⟨1, _⟩ => by show 0 = if (1 : Nat) = 1 then 0 else _; rw [if_pos rfl])]
  exact extractStridedSlice_apply ![0, c] x hs (ix2 b (⟨0, Nat.one_pos⟩ : Fin 1)) (ix2 b (⟨c, hc⟩ : Fin 750))
    (fun a => match a with
      | ⟨0, _⟩ => by show b.val = 0 + b.val; omega
      | ⟨1, _⟩ => by show c = c + 0; omega)

/-- **Three pieces laid end to end along the columns.** The concatenation of pieces of 6, 750 and 5 columns, read at
    `(b, k)`, is the piece whose span of columns holds `k` (`[0, 6)`, `[6, 756)`, `[756, 761)`), at row `b` and at `k`
    less the columns before that piece. -/
theorem cat3_apply (y6 : (⟨2, ![4096, 6]⟩ : Shape).Idx → α) (x : (⟨2, ![4096, 750]⟩ : Shape).Idx → α)
    (y5 : (⟨2, ![4096, 5]⟩ : Shape).Idx → α)
    (hcat : Shape.Concatenates [(⟨2, ![4096, 6]⟩ : Shape), ⟨2, ![4096, 750]⟩, ⟨2, ![4096, 5]⟩] ⟨2, ![4096, 761]⟩ 1)
    (b : Fin 4096) (k : Fin 761) :
    concatenate (⟨2, ![4096, 761]⟩ : Shape) 1
        [⟨⟨2, ![4096, 6]⟩, y6⟩, ⟨⟨2, ![4096, 750]⟩, x⟩, ⟨⟨2, ![4096, 5]⟩, y5⟩] hcat (ix2 b k)
      = if h6 : k.val < 6 then y6 (ix2 b ⟨k.val, h6⟩)
        else if h : k.val < 756 then x (ix2 b (⟨k.val - 6, by omega⟩ : Fin 750))
        else y5 (ix2 b (⟨k.val - 756, by have := k.isLt; omega⟩ : Fin 5)) := by
  by_cases h6 : k.val < 6
  · rw [dif_pos h6]
    exact concatenate_apply_piece (t := ⟨2, ![4096, 761]⟩) (1 : Fin 2) [⟨⟨2, ![4096, 6]⟩, y6⟩, ⟨⟨2, ![4096, 750]⟩, x⟩, ⟨⟨2, ![4096, 5]⟩, y5⟩] hcat (ix2 b k) 0 (by show 0 < 3; omega) ⟨2, ![4096, 6]⟩ y6 rfl rfl 0 rfl
      (ix2 b ⟨k.val, h6⟩)
      (fun a => match a with
        | ⟨0, _⟩ => fun _ => rfl
        | ⟨1, _⟩ => fun hne => absurd rfl hne)
      (by show 0 + k.val = k.val; omega)
  · rw [dif_neg h6]
    by_cases h : k.val < 756
    · rw [dif_pos h]
      exact concatenate_apply_piece (t := ⟨2, ![4096, 761]⟩) (1 : Fin 2) [⟨⟨2, ![4096, 6]⟩, y6⟩, ⟨⟨2, ![4096, 750]⟩, x⟩, ⟨⟨2, ![4096, 5]⟩, y5⟩] hcat (ix2 b k) 1 (by show 1 < 3; omega) ⟨2, ![4096, 750]⟩ x rfl rfl 6 rfl
        (ix2 b (⟨k.val - 6, by omega⟩ : Fin 750))
        (fun a => match a with
          | ⟨0, _⟩ => fun _ => rfl
          | ⟨1, _⟩ => fun hne => absurd rfl hne)
        (by show 6 + (k.val - 6) = k.val; omega)
    · rw [dif_neg h]
      exact concatenate_apply_piece (t := ⟨2, ![4096, 761]⟩) (1 : Fin 2) [⟨⟨2, ![4096, 6]⟩, y6⟩, ⟨⟨2, ![4096, 750]⟩, x⟩, ⟨⟨2, ![4096, 5]⟩, y5⟩] hcat (ix2 b k) 2 (by show 2 < 3; omega) ⟨2, ![4096, 5]⟩ y5 rfl rfl 756 rfl
        (ix2 b (⟨k.val - 756, by have := k.isLt; omega⟩ : Fin 5))
        (fun a => match a with
          | ⟨0, _⟩ => fun _ => rfl
          | ⟨1, _⟩ => fun hne => absurd rfl hne)
        (by show 756 + (k.val - 756) = k.val; omega)

/-- **The padded array at an index, over any element type.** The concatenation of column 0 six times, `x`, and
    column 749 five times, read at `(b, k)`: `x[b, 0]` for `k < 6`, `x[b, k − 6]` for `6 ≤ k < 756`, `x[b, 749]` after. -/
theorem pad_apply_gen (x : (⟨2, ![4096, 750]⟩ : Shape).Idx → α)
    (hs0 : (⟨2, ![4096, 750]⟩ : Shape).Slices ![0, 0] ⟨2, ![4096, 1]⟩)
    (hb6 : (⟨2, ![4096, 1]⟩ : Shape).BroadcastsInDim ⟨3, ![4096, 1, 6]⟩ (![0, 1] : Fin 2 → Fin 3))
    (hc6 : (⟨3, ![4096, 1, 6]⟩ : Shape).ShapeCasts ⟨2, ![4096, 6]⟩)
    (hs749 : (⟨2, ![4096, 750]⟩ : Shape).Slices ![0, 749] ⟨2, ![4096, 1]⟩)
    (hb5 : (⟨2, ![4096, 1]⟩ : Shape).BroadcastsInDim ⟨3, ![4096, 1, 5]⟩ (![0, 1] : Fin 2 → Fin 3))
    (hc5 : (⟨3, ![4096, 1, 5]⟩ : Shape).ShapeCasts ⟨2, ![4096, 5]⟩)
    (hcat : Shape.Concatenates [(⟨2, ![4096, 6]⟩ : Shape), ⟨2, ![4096, 750]⟩, ⟨2, ![4096, 5]⟩] ⟨2, ![4096, 761]⟩ 1)
    (b : Fin 4096) (k : Fin 761) :
    concatenate (⟨2, ![4096, 761]⟩ : Shape) 1
        [⟨⟨2, ![4096, 6]⟩, shapeCast ⟨2, ![4096, 6]⟩
            (broadcastInDim ⟨3, ![4096, 1, 6]⟩ ![0, 1] hb6 (extractStridedSlice ⟨2, ![4096, 1]⟩ ![0, 0] x hs0)) hc6⟩,
         ⟨⟨2, ![4096, 750]⟩, x⟩,
         ⟨⟨2, ![4096, 5]⟩, shapeCast ⟨2, ![4096, 5]⟩
            (broadcastInDim ⟨3, ![4096, 1, 5]⟩ ![0, 1] hb5 (extractStridedSlice ⟨2, ![4096, 1]⟩ ![0, 749] x hs749)) hc5⟩]
        hcat (ix2 b k)
      = if k.val < 6 then x (ix2 b (⟨0, by omega⟩ : Fin 750))
        else if h : k.val < 756 then x (ix2 b (⟨k.val - 6, by omega⟩ : Fin 750))
        else x (ix2 b (⟨749, by omega⟩ : Fin 750)) := by
  rw [cat3_apply]
  by_cases h6 : k.val < 6
  · rw [dif_pos h6, if_pos h6]
    exact edge_apply 6 0 (by omega) x hs0 hb6 hc6 b ⟨k.val, h6⟩
  · rw [dif_neg h6, if_neg h6]
    by_cases h : k.val < 756
    · rw [dif_pos h, dif_pos h]
    · rw [dif_neg h, dif_neg h]
      exact edge_apply 5 749 (by omega) x hs749 hb5 hc5 b ⟨k.val - 756, by have := k.isLt; omega⟩

/-- **The padded array at an index is `Cert.Spec.pad`**: over the extended reals, the six operations' result at
    `(b, k)` is the specification's padded row `b` at column `k`. -/
theorem pad_apply (x : Cert.Spec.Arr)
    (hs0 : (⟨2, ![4096, 750]⟩ : Shape).Slices ![0, 0] ⟨2, ![4096, 1]⟩)
    (hb6 : (⟨2, ![4096, 1]⟩ : Shape).BroadcastsInDim ⟨3, ![4096, 1, 6]⟩ (![0, 1] : Fin 2 → Fin 3))
    (hc6 : (⟨3, ![4096, 1, 6]⟩ : Shape).ShapeCasts ⟨2, ![4096, 6]⟩)
    (hs749 : (⟨2, ![4096, 750]⟩ : Shape).Slices ![0, 749] ⟨2, ![4096, 1]⟩)
    (hb5 : (⟨2, ![4096, 1]⟩ : Shape).BroadcastsInDim ⟨3, ![4096, 1, 5]⟩ (![0, 1] : Fin 2 → Fin 3))
    (hc5 : (⟨3, ![4096, 1, 5]⟩ : Shape).ShapeCasts ⟨2, ![4096, 5]⟩)
    (hcat : Shape.Concatenates [(⟨2, ![4096, 6]⟩ : Shape), ⟨2, ![4096, 750]⟩, ⟨2, ![4096, 5]⟩] ⟨2, ![4096, 761]⟩ 1)
    (b : Fin 4096) (k : Fin 761) :
    concatenate (⟨2, ![4096, 761]⟩ : Shape) 1
        [⟨⟨2, ![4096, 6]⟩, shapeCast ⟨2, ![4096, 6]⟩
            (broadcastInDim ⟨3, ![4096, 1, 6]⟩ ![0, 1] hb6 (extractStridedSlice ⟨2, ![4096, 1]⟩ ![0, 0] x hs0)) hc6⟩,
         ⟨⟨2, ![4096, 750]⟩, x⟩,
         ⟨⟨2, ![4096, 5]⟩, shapeCast ⟨2, ![4096, 5]⟩
            (broadcastInDim ⟨3, ![4096, 1, 5]⟩ ![0, 1] hb5 (extractStridedSlice ⟨2, ![4096, 1]⟩ ![0, 749] x hs749)) hc5⟩]
        hcat (ix2 b k)
      = Cert.Spec.pad x b k := by
  rw [pad_apply_gen x hs0 hb6 hc6 hs749 hb5 hc5 hcat b k]
  rfl

end Cert.PadRead

end
-- ==== Proof.KernelIdeal.HeadValue.lean ====
/-
  The padded arrays of the tiled program, read at an index.

  The tiled program begins with fourteen host operations. Seven build the edge-replicated pad of its first argument:
  the one-column slice at column 0, broadcast to six columns and reshaped to `[4096, 6]`; the same at column 749 with
  five columns; and the three pieces (six copies of column 0, the array, five copies of column 749) laid end to end
  along the columns into a `[4096, 761]` buffer. The other seven do the same for the second argument. None of the
  fourteen writes an argument array, and each padded buffer is written once, by its own concatenation. So after the
  fourteen operations, from any contents `W`, the two padded buffers read at row `b` and column `k` hold the
  specification's padded row of `W`'s argument arrays: `Cert.Spec.pad`.
-/
import proofs.«125402_j3959959847206_1_alg».proof.Proof.Gen.KernelIdeal.Launch
import proofs.«125402_j3959959847206_1_alg».proof.Proof.Spec
import proofs.«125402_j3959959847206_1_alg».proof.Proof.LibNary3
import proofs.«125402_j3959959847206_1_alg».proof.Proof.LibPadRead
import Idealize.ShloMosaic.Lib.StableHlo.Run

noncomputable section

namespace Cert.KernelIdeal.HeadValue

open Cert.KernelIdeal Cert.KernelIdeal.Gen Idealize.ShloMosaic Idealize.ShloMosaic.ValueIdx Idealize.ShloMosaic.StableHlo

/-- **The first padded buffer.** Reading the fold of the fourteen operations back at `main_v6`: the last seven do not
    write it; the seventh writes it as the concatenation of `main_v2`, `main_arg0` and `main_v5`; those are read back
    in turn through the reshapes, the broadcasts and the slices to `W` at `main_arg0`, which nothing before wrote. The
    term left is the six-operation pad of `W main_arg0`, and its value at `(b, k)` is the padded row `b` at `k`. -/
theorem head_v6 (W : Valuation τ sig (Elt Ideal)) (b : Fin 4096) (k : Fin 761) :
    (StableHlo.after (hostOps0 (F := Ideal)) W (Proc.devRef .tc main_v6) : S4096x761.Idx → EReal) (ix2 b k)
      = Cert.Spec.pad (W (Proc.devRef .tc main_arg0)) b k := by
  show StableHlo.after hostOps0 W (Proc.devRef .tc main_v6) (ix2 b k) = _
  simp only [after_cons, after_nil]
  repeat (first
    | rw [nary3_result] | rw [unary_result] | rw [reshape_result]
    | (rw [unary_result_ne]; rotate_left; decide)
    | (rw [reshape_result_ne]; rotate_left; decide)
    | (rw [nary_result_ne]; rotate_left; decide))
  exact Cert.PadRead.pad_apply (W (Proc.devRef .tc main_arg0))
    Facts₀.slices_S4096x750_S4096x1_0_0 Facts₀.bcast_S4096x1_S4096x1x6_0_1 Facts₀.shapeCasts_S4096x1x6_S4096x6
    Facts₀.slices_S4096x750_S4096x1_0_749 Facts₀.bcast_S4096x1_S4096x1x5_0_1 Facts₀.shapeCasts_S4096x1x5_S4096x5
    Facts₀.concatenates_S4096x6_S4096x750_S4096x5_S4096x761_d1 b k

/-- **The second padded buffer.** The same reading at `main_v13`: the fourteenth operation writes it as the
    concatenation of `main_v9`, `main_arg1` and `main_v12`, each read back to `W` at `main_arg1`; the first seven
    operations write none of these. Its value at `(b, k)` is the padded row `b` of `W main_arg1` at `k`. -/
theorem head_v13 (W : Valuation τ sig (Elt Ideal)) (b : Fin 4096) (k : Fin 761) :
    (StableHlo.after (hostOps0 (F := Ideal)) W (Proc.devRef .tc main_v13) : S4096x761.Idx → EReal) (ix2 b k)
      = Cert.Spec.pad (W (Proc.devRef .tc main_arg1)) b k := by
  show StableHlo.after hostOps0 W (Proc.devRef .tc main_v13) (ix2 b k) = _
  simp only [after_cons, after_nil]
  repeat (first
    | rw [nary3_result] | rw [unary_result] | rw [reshape_result]
    | (rw [unary_result_ne]; rotate_left; decide)
    | (rw [reshape_result_ne]; rotate_left; decide)
    | (rw [nary_result_ne]; rotate_left; decide))
  exact Cert.PadRead.pad_apply (W (Proc.devRef .tc main_arg1))
    Facts₀.slices_S4096x750_S4096x1_0_0 Facts₀.bcast_S4096x1_S4096x1x6_0_1 Facts₀.shapeCasts_S4096x1x6_S4096x6
    Facts₀.slices_S4096x750_S4096x1_0_749 Facts₀.bcast_S4096x1_S4096x1x5_0_1 Facts₀.shapeCasts_S4096x1x5_S4096x5
    Facts₀.concatenates_S4096x6_S4096x750_S4096x5_S4096x761_d1 b k

end Cert.KernelIdeal.HeadValue

end
-- ==== Proof.KernelIdeal.BlockRead.lean ====
/-
  The input windows' blocks of the two passes, read at an index.

  Both passes run over a sequential grid of two halves of four tiles; every input window's index map sends the
  point with coordinates `(c, t')` to the block `(c · 4 + t', 0)`, which is the point's own number `t` in the grid's
  order, on the row axis, and to block 0 on the column axis. A block's coordinate on an axis is the block index
  times the block's size plus the coordinate inside the block. So row `r`, column `k` of point `t`'s block of a
  window is its array at row `t · 512 + r`, column `k`: the tile's rows, all the columns.
-/
import proofs.«125402_j3959959847206_1_alg».proof.Proof.KernelIdeal.FrBase
import Idealize.ShloMosaic.Lib.ValueIdx

set_option maxRecDepth 16384

noncomputable section

namespace Cert.KernelIdeal.BlockRead

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The index maps, decided over the grid

Each input window's block index at point `t` is `t` on the rows and `0` on the columns. -/

theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = t.val ∧ win1_1.index t (1 : Fin 2) = 0 :=
  (by decide +kernel : ∀ t : Fin grid1.N, win1_1.index t (0 : Fin 2) = t.val ∧ win1_1.index t (1 : Fin 2) = 0)
theorem idx1_2 : ∀ t : Fin cfg1.N, win1_2.index t (0 : Fin 2) = t.val ∧ win1_2.index t (1 : Fin 2) = 0 :=
  (by decide +kernel : ∀ t : Fin grid1.N, win1_2.index t (0 : Fin 2) = t.val ∧ win1_2.index t (1 : Fin 2) = 0)

/-! ## The blocks at an index -/

/-- Window 0 of the first pass (blocks of `[512, 750]` of `main_arg0`): row `r`, column `i` of point `t`'s block is the
    array at row `t · 512 + r`, column `i`. -/
theorem iblk0_0 (V : (c : Dev nD) → (b : Ref sig .tc) → Buf (Elt F) ((c : Thread nD τ).loc b)) (c : Dev nD) (t : Fin cfg0.N) (r : Fin 512) (i : Fin 750) :
    (iblk0 V c 0 t : S512x750.Idx → Elt F .f32) (ix2 r i)
      = (V c main_arg0 : S4096x750.Idx → Elt F .f32) (ix2 (⟨t.val * 512 + r.val, by have := lt_of_lt_of_eq t.isLt (show cfg0.N = 8 from N_0); have := r.isLt; omega⟩ : Fin 4096) i) := by
  obtain ⟨e0, e1⟩ := idx0_0 t
  show V c main_arg0 (((cfg0.win 0).blk t).view.emb (ix2 r i)) = V c main_arg0 _
  refine congrArg _ ?_
  funext a; apply Fin.ext
  match a with
  | ⟨0, _⟩ => show win0_0.index t (0 : Fin 2) * 512 + 1 * r.val = t.val * 512 + r.val; omega
  | ⟨1, _⟩ => show win0_0.index t (1 : Fin 2) * 750 + 1 * i.val = i.val; omega

/-- Window 1 of the first pass (blocks of `[512, 761]` of `main_v6`): row `r`, column `k` of point `t`'s block is the
    array at row `t · 512 + r`, column `k`. -/
theorem iblk0_1 (V : (c : Dev nD) → (b : Ref sig .tc) → Buf (Elt F) ((c : Thread nD τ).loc b)) (c : Dev nD) (t : Fin cfg0.N) (r : Fin 512) (k : Fin 761) :
    (iblk0 V c 1 t : S512x761.Idx → Elt F .f32) (ix2 r k)
      = (V c main_v6 : S4096x761.Idx → Elt F .f32) (ix2 (⟨t.val * 512 + r.val, by have := lt_of_lt_of_eq t.isLt (show cfg0.N = 8 from N_0); have := r.isLt; omega⟩ : Fin 4096) k) := by
  obtain ⟨e0, e1⟩ := idx0_1 t
  show V c main_v6 (((cfg0.win 1).blk t).view.emb (ix2 r k)) = V c main_v6 _
  refine congrArg _ ?_
  funext a; apply Fin.ext
  match a with
  | ⟨0, _⟩ => show win0_1.index t (0 : Fin 2) * 512 + 1 * r.val = t.val * 512 + r.val; omega
  | ⟨1, _⟩ => show win0_1.index t (1 : Fin 2) * 761 + 1 * k.val = k.val; omega

/-- Window 0 of the second pass (blocks of `[512, 750]` of `main_arg0`): row `r`, column `i` of point `t`'s block is the
    array at row `t · 512 + r`, column `i`. -/
theorem iblk1_0 (V : (c : Dev nD) → (b : Ref sig .tc) → Buf (Elt F) ((c : Thread nD τ).loc b)) (c : Dev nD) (t : Fin cfg1.N) (r : Fin 512) (i : Fin 750) :
    (iblk1 V c 0 t : S512x750.Idx → Elt F .f32) (ix2 r i)
      = (V c main_arg0 : S4096x750.Idx → Elt F .f32) (ix2 (⟨t.val * 512 + r.val, by have := lt_of_lt_of_eq t.isLt (show cfg1.N = 8 from N_1); have := r.isLt; omega⟩ : Fin 4096) i) := by
  obtain ⟨e0, e1⟩ := idx1_0 t
  show V c main_arg0 (((cfg1.win 0).blk t).view.emb (ix2 r i)) = V c main_arg0 _
  refine congrArg _ ?_
  funext a; apply Fin.ext
  match a with
  | ⟨0, _⟩ => show win1_0.index t (0 : Fin 2) * 512 + 1 * r.val = t.val * 512 + r.val; omega
  | ⟨1, _⟩ => show win1_0.index t (1 : Fin 2) * 750 + 1 * i.val = i.val; omega

/-- Window 1 of the second pass (blocks of `[512, 750]` of `main_arg1`): row `r`, column `i` of point `t`'s block is the
    array at row `t · 512 + r`, column `i`. -/
theorem iblk1_1 (V : (c : Dev nD) → (b : Ref sig .tc) → Buf (Elt F) ((c : Thread nD τ).loc b)) (c : Dev nD) (t : Fin cfg1.N) (r : Fin 512) (i : Fin 750) :
    (iblk1 V c 1 t : S512x750.Idx → Elt F .f32) (ix2 r i)
      = (V c main_arg1 : S4096x750.Idx → Elt F .f32) (ix2 (⟨t.val * 512 + r.val, by have := lt_of_lt_of_eq t.isLt (show cfg1.N = 8 from N_1); have := r.isLt; omega⟩ : Fin 4096) i) := by
  obtain ⟨e0, e1⟩ := idx1_1 t
  show V c main_arg1 (((cfg1.win 1).blk t).view.emb (ix2 r i)) = V c main_arg1 _
  refine congrArg _ ?_
  funext a; apply Fin.ext
  match a with
  | ⟨0, _⟩ => show win1_1.index t (0 : Fin 2) * 512 + 1 * r.val = t.val * 512 + r.val; omega
  | ⟨1, _⟩ => show win1_1.index t (1 : Fin 2) * 750 + 1 * i.val = i.val; omega

/-- Window 2 of the second pass (blocks of `[512, 761]` of `main_v13`): row `r`, column `k` of point `t`'s block is the
    array at row `t · 512 + r`, column `k`. -/
theorem iblk1_2 (V : (c : Dev nD) → (b : Ref sig .tc) → Buf (Elt F) ((c : Thread nD τ).loc b)) (c : Dev nD) (t : Fin cfg1.N) (r : Fin 512) (k : Fin 761) :
    (iblk1 V c 2 t : S512x761.Idx → Elt F .f32) (ix2 r k)
      = (V c main_v13 : S4096x761.Idx → Elt F .f32) (ix2 (⟨t.val * 512 + r.val, by have := lt_of_lt_of_eq t.isLt (show cfg1.N = 8 from N_1); have := r.isLt; omega⟩ : Fin 4096) k) := by
  obtain ⟨e0, e1⟩ := idx1_2 t
  show V c main_v13 (((cfg1.win 2).blk t).view.emb (ix2 r k)) = V c main_v13 _
  refine congrArg _ ?_
  funext a; apply Fin.ext
  match a with
  | ⟨0, _⟩ => show win1_2.index t (0 : Fin 2) * 512 + 1 * r.val = t.val * 512 + r.val; omega
  | ⟨1, _⟩ => show win1_2.index t (1 : Fin 2) * 761 + 1 * k.val = k.val; omega

end Cert.KernelIdeal.BlockRead

end
-- ==== Proof.KernelIdeal.ArrOfBlocks.lean ====
/-
  From the accumulator block after each half's last tile to the whole output array after a pass.

  Each pass runs over eight points `t = 0 … 7`; point `t` is tile `t % 4` of half `t / 4`. An output window's block is
  carried in its staging buffer across the four tiles of a half and written back after the fourth only
  (`t % 4 = 3`), to block `(t / 4, 0, 0)` of the output array. So the array after the pass is, block by block, what
  the staging buffer held at the two points `3` and `7`: the two blocks cover the array, and a point that does not
  write back contributes nothing.
-/
import proofs.«125402_j3959959847206_1_alg».proof.Proof.KernelIdeal.Frame0
import proofs.«125402_j3959959847206_1_alg».proof.Proof.KernelIdeal.Frame1
import Idealize.ShloMosaic.Lib.Pipeline.Value
import Idealize.ShloMosaic.Lib.ValueIdx

set_option maxRecDepth 16384

noncomputable section

namespace Cert.KernelIdeal.ArrOfBlocks

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx Cert.KernelIdeal.Fr

section
variable (V : (c : Dev nD) → (b : Ref sig .tc) → Buf (Elt Ideal) ((c : Thread nD τ).loc b))

/-! ## The first pass -/

/-- A `[2, 11, 750]` array from its entries. -/
abbrev arr3 (G : Fin 2 → Fin 11 → Fin 750 → EReal) : S2x11x750.Idx → EReal :=
  fun i => G ⟨(i 0).val, (i 0).isLt⟩ ⟨(i 1).val, (i 1).isLt⟩ ⟨(i 2).val, (i 2).isLt⟩

/-- The first pass's output block at point `t` is block `(t / 4, 0, 0)` of the array. -/
theorem idx0_2 : ∀ t : Fin cfg0.N, win0_2.index t (0 : Fin 3) = t.val / 4 ∧ win0_2.index t (1 : Fin 3) = 0
    ∧ win0_2.index t (2 : Fin 3) = 0 :=
  (by decide +kernel : ∀ t : Fin grid0.N, _)

/-- What a write-back of the first pass writes is its block of the array of the halves' last blocks. -/
theorem flushed0_eq (c : Dev nD) (G : Fin 2 → Fin 11 → Fin 750 → EReal)
    (hlast : ∀ (t : Fin cfg0.N) (h3 : t.val % 4 = 3) (j : Fin 11) (i : Fin 750),
       (outsAt0 V c t.val t.isLt : S1x11x750.Idx → EReal) (ix3 (0 : Fin 1) j i)
         = G ⟨t.val / 4, by have := lt_of_lt_of_eq t.isLt (show cfg0.N = 8 from N_0); omega⟩ j i)
    (t : Fin cfg0.N) (hf : (cfg0.win 2).flush t = true) :
    (dat0 V c).flushed 2 t = ((cfg0.win 2).blk t).view.read (Elt Ideal) (arr3 G) := by
  have h3 : t.val % 4 = 3 := (flush0_2 t).mp hf
  show (cfg0.win 2).cut (grid0.coords t) ((dat0 V c).after 2 t) = _
  rw [after0_2]
  obtain ⟨e0, e1, e2⟩ := idx0_2 t
  have hN : t.val < 8 := lt_of_lt_of_eq t.isLt (show cfg0.N = 8 from N_0)
  funext y
  have h0 : (y 0).val < 1 := (y 0).isLt
  have hL : (cfg0.win 2).cut (grid0.coords t) (outsAt0 V c t.val t.isLt) y
      = (outsAt0 V c t.val t.isLt : S1x11x750.Idx → EReal)
          (ix3 (0 : Fin 1) (⟨(y 1).val, (y 1).isLt⟩ : Fin 11) (⟨(y 2).val, (y 2).isLt⟩ : Fin 750)) :=
    congrArg (outsAt0 V c t.val t.isLt : S1x11x750.Idx → EReal) (funext fun a => Fin.ext (by
      match a with
      | ⟨0, _⟩ => show (y 0).val = 0; omega
      | ⟨1, _⟩ => rfl
      | ⟨2, _⟩ => rfl))
  rw [hL, hlast t h3]
  show _ = arr3 G (((cfg0.win 2).blk t).view.emb y)
  have hE : (((cfg0.win 2).blk t).view.emb y : S2x11x750.Idx)
      = ix3 (⟨t.val / 4, by omega⟩ : Fin 2) (⟨(y 1).val, (y 1).isLt⟩ : Fin 11) (⟨(y 2).val, (y 2).isLt⟩ : Fin 750) :=
    funext fun a => Fin.ext (by
      match a with
      | ⟨0, _⟩ => show win0_2.index t (0 : Fin 3) * 1 + 1 * (y 0).val = t.val / 4; omega
      | ⟨1, _⟩ => show win0_2.index t (1 : Fin 3) * 11 + 1 * (y 1).val = (y 1).val; omega
      | ⟨2, _⟩ => show win0_2.index t (2 : Fin 3) * 750 + 1 * (y 2).val = (y 2).val; omega)
  rw [hE]

/-- An index of the array lies in point `t`'s block iff each coordinate lies in the block's range on its axis. -/
theorem mem_blk0_2 (t : Fin cfg0.N) (x : S2x11x750.Idx) :
    x ∈ ((cfg0.win 2).blk t).view.set ↔ ∀ a : Fin 3, win0_2.index t a * S1x11x750.size a ≤ (x a).val
      ∧ (x a).val < win0_2.index t a * S1x11x750.size a + S1x11x750.size a := by
  show x ∈ ((View.whole main_v14).slice (win0_2.rect t)).set ↔ _
  rw [View.set_slice_whole, Rect.mem_set_unit]
  exact Iff.rfl

/-- Every index of the array lies in the block written back after the last tile of its half, point `4 c' + 3`. -/
theorem cover0 (x : S2x11x750.Idx) :
    ∃ t : Fin cfg0.N, (cfg0.win 2).flush t = true ∧ x ∈ ((cfg0.win 2).blk t).view.set := by
  have hx0 : (x 0).val < 2 := (x 0).isLt
  have hx1 : (x 1).val < 11 := (x 1).isLt
  have hx2 : (x 2).val < 750 := (x 2).isLt
  have hlt : 4 * (x 0).val + 3 < cfg0.N := by rw [show cfg0.N = 8 from N_0]; omega
  obtain ⟨e0, e1, e2⟩ := idx0_2 ⟨4 * (x 0).val + 3, hlt⟩
  have e0' : win0_2.index ⟨4 * (x 0).val + 3, hlt⟩ (0 : Fin 3) = (4 * (x 0).val + 3) / 4 := e0
  refine ⟨⟨4 * (x 0).val + 3, hlt⟩, (flush0_2 _).mpr (by show (4 * (x 0).val + 3) % 4 = 3; omega), ?_⟩
  rw [mem_blk0_2]
  intro a
  match a with
  | ⟨0, _⟩ =>
    show win0_2.index ⟨4 * (x 0).val + 3, hlt⟩ (0 : Fin 3) * 1 ≤ (x 0).val
      ∧ (x 0).val < win0_2.index ⟨4 * (x 0).val + 3, hlt⟩ (0 : Fin 3) * 1 + 1
    omega
  | ⟨1, _⟩ =>
    show win0_2.index ⟨4 * (x 0).val + 3, hlt⟩ (1 : Fin 3) * 11 ≤ (x 1).val
      ∧ (x 1).val < win0_2.index ⟨4 * (x 0).val + 3, hlt⟩ (1 : Fin 3) * 11 + 11
    omega
  | ⟨2, _⟩ =>
    show win0_2.index ⟨4 * (x 0).val + 3, hlt⟩ (2 : Fin 3) * 750 ≤ (x 2).val
      ∧ (x 2).val < win0_2.index ⟨4 * (x 0).val + 3, hlt⟩ (2 : Fin 3) * 750 + 750
    omega

/-- **The first pass's output array.** If the accumulator block after the last tile of half `c'` holds `G c'`, the
    array after the pass holds `G`: the block is written back exactly there, to block `(c', 0, 0)`, and the two
    blocks cover the array. -/
theorem arr0_of_last (c : Dev nD) (G : Fin 2 → Fin 11 → Fin 750 → EReal)
    (hlast : ∀ (t : Fin cfg0.N) (h3 : t.val % 4 = 3) (j : Fin 11) (i : Fin 750),
       (outsAt0 V c t.val t.isLt : S1x11x750.Idx → EReal) (ix3 (0 : Fin 1) j i)
         = G ⟨t.val / 4, by have := lt_of_lt_of_eq t.isLt (show cfg0.N = 8 from N_0); omega⟩ j i) :
    ∀ (c' : Fin 2) (j : Fin 11) (i : Fin 750),
      ((dat0 V c).arrAt 2 cfg0.N : S2x11x750.Idx → EReal) (ix3 c' j i) = G c' j i := fun c' j i =>
  congrFun ((dat0 V c).arrAt_eq_of_cover 2 (arr3 G) (flushed0_eq V c G hlast) cover0) (ix3 c' j i)

/-! ## The second pass: its window sums -/

/-- The second pass's first output block at point `t` is block `(t / 4, 0, 0)` of its array. -/
theorem idx1_3 : ∀ t : Fin cfg1.N, win1_3.index t (0 : Fin 3) = t.val / 4 ∧ win1_3.index t (1 : Fin 3) = 0
    ∧ win1_3.index t (2 : Fin 3) = 0 :=
  (by decide +kernel : ∀ t : Fin grid1.N, _)

/-- What a write-back of the second pass's first output writes is its block of the array of the halves' last blocks. -/
theorem flushed1_3_eq (c : Dev nD) (G : Fin 2 → Fin 11 → Fin 750 → EReal)
    (hlast : ∀ (t : Fin cfg1.N) (h3 : t.val % 4 = 3) (j : Fin 11) (i : Fin 750),
       ((outsAt1 V c t.val t.isLt).1 : S1x11x750.Idx → EReal) (ix3 (0 : Fin 1) j i)
         = G ⟨t.val / 4, by have := lt_of_lt_of_eq t.isLt (show cfg1.N = 8 from N_1); omega⟩ j i)
    (t : Fin cfg1.N) (hf : (cfg1.win 3).flush t = true) :
    (dat1 V c).flushed 3 t = ((cfg1.win 3).blk t).view.read (Elt Ideal) (arr3 G) := by
  have h3 : t.val % 4 = 3 := (flush1_3 t).mp hf
  show (cfg1.win 3).cut (grid1.coords t) ((dat1 V c).after 3 t) = _
  rw [after1_3]
  obtain ⟨e0, e1, e2⟩ := idx1_3 t
  have hN : t.val < 8 := lt_of_lt_of_eq t.isLt (show cfg1.N = 8 from N_1)
  funext y
  have h0 : (y 0).val < 1 := (y 0).isLt
  have hL : (cfg1.win 3).cut (grid1.coords t) (outsAt1 V c t.val t.isLt).1 y
      = ((outsAt1 V c t.val t.isLt).1 : S1x11x750.Idx → EReal)
          (ix3 (0 : Fin 1) (⟨(y 1).val, (y 1).isLt⟩ : Fin 11) (⟨(y 2).val, (y 2).isLt⟩ : Fin 750)) :=
    congrArg ((outsAt1 V c t.val t.isLt).1 : S1x11x750.Idx → EReal) (funext fun a => Fin.ext (by
      match a with
      | ⟨0, _⟩ => show (y 0).val = 0; omega
      | ⟨1, _⟩ => rfl
      | ⟨2, _⟩ => rfl))
  rw [hL, hlast t h3]
  show _ = arr3 G (((cfg1.win 3).blk t).view.emb y)
  have hE : (((cfg1.win 3).blk t).view.emb y : S2x11x750.Idx)
      = ix3 (⟨t.val / 4, by omega⟩ : Fin 2) (⟨(y 1).val, (y 1).isLt⟩ : Fin 11) (⟨(y 2).val, (y 2).isLt⟩ : Fin 750) :=
    funext fun a => Fin.ext (by
      match a with
      | ⟨0, _⟩ => show win1_3.index t (0 : Fin 3) * 1 + 1 * (y 0).val = t.val / 4; omega
      | ⟨1, _⟩ => show win1_3.index t (1 : Fin 3) * 11 + 1 * (y 1).val = (y 1).val; omega
      | ⟨2, _⟩ => show win1_3.index t (2 : Fin 3) * 750 + 1 * (y 2).val = (y 2).val; omega)
  rw [hE]

/-- An index lies in point `t`'s block of the second pass's first output iff each coordinate is in the block's range. -/
theorem mem_blk1_3 (t : Fin cfg1.N) (x : S2x11x750.Idx) :
    x ∈ ((cfg1.win 3).blk t).view.set ↔ ∀ a : Fin 3, win1_3.index t a * S1x11x750.size a ≤ (x a).val
      ∧ (x a).val < win1_3.index t a * S1x11x750.size a + S1x11x750.size a := by
  show x ∈ ((View.whole main_v15_0).slice (win1_3.rect t)).set ↔ _
  rw [View.set_slice_whole, Rect.mem_set_unit]
  exact Iff.rfl

/-- Every index of that array lies in the block written back at point `4 c' + 3`. -/
theorem cover1_3 (x : S2x11x750.Idx) :
    ∃ t : Fin cfg1.N, (cfg1.win 3).flush t = true ∧ x ∈ ((cfg1.win 3).blk t).view.set := by
  have hx0 : (x 0).val < 2 := (x 0).isLt
  have hx1 : (x 1).val < 11 := (x 1).isLt
  have hx2 : (x 2).val < 750 := (x 2).isLt
  have hlt : 4 * (x 0).val + 3 < cfg1.N := by rw [show cfg1.N = 8 from N_1]; omega
  obtain ⟨e0, e1, e2⟩ := idx1_3 ⟨4 * (x 0).val + 3, hlt⟩
  have e0' : win1_3.index ⟨4 * (x 0).val + 3, hlt⟩ (0 : Fin 3) = (4 * (x 0).val + 3) / 4 := e0
  refine ⟨⟨4 * (x 0).val + 3, hlt⟩, (flush1_3 _).mpr (by show (4 * (x 0).val + 3) % 4 = 3; omega), ?_⟩
  rw [mem_blk1_3]
  intro a
  match a with
  | ⟨0, _⟩ =>
    show win1_3.index ⟨4 * (x 0).val + 3, hlt⟩ (0 : Fin 3) * 1 ≤ (x 0).val
      ∧ (x 0).val < win1_3.index ⟨4 * (x 0).val + 3, hlt⟩ (0 : Fin 3) * 1 + 1
    omega
  | ⟨1, _⟩ =>
    show win1_3.index ⟨4 * (x 0).val + 3, hlt⟩ (1 : Fin 3) * 11 ≤ (x 1).val
      ∧ (x 1).val < win1_3.index ⟨4 * (x 0).val + 3, hlt⟩ (1 : Fin 3) * 11 + 11
    omega
  | ⟨2, _⟩ =>
    show win1_3.index ⟨4 * (x 0).val + 3, hlt⟩ (2 : Fin 3) * 750 ≤ (x 2).val
      ∧ (x 2).val < win1_3.index ⟨4 * (x 0).val + 3, hlt⟩ (2 : Fin 3) * 750 + 750
    omega

/-- **The second pass's first output array**, from its block after each half's last tile. -/
theorem arr1_3_of_last (c : Dev nD) (G : Fin 2 → Fin 11 → Fin 750 → EReal)
    (hlast : ∀ (t : Fin cfg1.N) (h3 : t.val % 4 = 3) (j : Fin 11) (i : Fin 750),
       ((outsAt1 V c t.val t.isLt).1 : S1x11x750.Idx → EReal) (ix3 (0 : Fin 1) j i)
         = G ⟨t.val / 4, by have := lt_of_lt_of_eq t.isLt (show cfg1.N = 8 from N_1); omega⟩ j i) :
    ∀ (c' : Fin 2) (j : Fin 11) (i : Fin 750),
      ((dat1 V c).arrAt 3 cfg1.N : S2x11x750.Idx → EReal) (ix3 c' j i) = G c' j i := fun c' j i =>
  congrFun ((dat1 V c).arrAt_eq_of_cover 3 (arr3 G) (flushed1_3_eq V c G hlast) cover1_3) (ix3 c' j i)

/-! ## The second pass: its residual sums -/

/-- A `[2, 1, 1]` array from its two entries. -/
abbrev arr1 (G : Fin 2 → EReal) : S2x1x1.Idx → EReal := fun i => G ⟨(i 0).val, (i 0).isLt⟩

/-- The second pass's second output block at point `t` is block `(t / 4, 0, 0)` of its array. -/
theorem idx1_4 : ∀ t : Fin cfg1.N, win1_4.index t (0 : Fin 3) = t.val / 4 ∧ win1_4.index t (1 : Fin 3) = 0
    ∧ win1_4.index t (2 : Fin 3) = 0 :=
  (by decide +kernel : ∀ t : Fin grid1.N, _)

/-- What a write-back of the second pass's second output writes is its entry of the array of the halves' last blocks. -/
theorem flushed1_4_eq (c : Dev nD) (G : Fin 2 → EReal)
    (hlast : ∀ (t : Fin cfg1.N) (h3 : t.val % 4 = 3),
       ((outsAt1 V c t.val t.isLt).2 : S1x1x1.Idx → EReal) (ix3 (0 : Fin 1) (0 : Fin 1) (0 : Fin 1))
         = G ⟨t.val / 4, by have := lt_of_lt_of_eq t.isLt (show cfg1.N = 8 from N_1); omega⟩)
    (t : Fin cfg1.N) (hf : (cfg1.win 4).flush t = true) :
    (dat1 V c).flushed 4 t = ((cfg1.win 4).blk t).view.read (Elt Ideal) (arr1 G) := by
  have h3 : t.val % 4 = 3 := (flush1_4 t).mp hf
  show (cfg1.win 4).cut (grid1.coords t) ((dat1 V c).after 4 t) = _
  rw [after1_4]
  obtain ⟨e0, e1, e2⟩ := idx1_4 t
  have hN : t.val < 8 := lt_of_lt_of_eq t.isLt (show cfg1.N = 8 from N_1)
  funext y
  have h0 : (y 0).val < 1 := (y 0).isLt
  have h1 : (y 1).val < 1 := (y 1).isLt
  have h2 : (y 2).val < 1 := (y 2).isLt
  have hL : (cfg1.win 4).cut (grid1.coords t) (outsAt1 V c t.val t.isLt).2 y
      = ((outsAt1 V c t.val t.isLt).2 : S1x1x1.Idx → EReal) (ix3 (0 : Fin 1) (0 : Fin 1) (0 : Fin 1)) :=
    congrArg ((outsAt1 V c t.val t.isLt).2 : S1x1x1.Idx → EReal) (funext fun a => Fin.ext (by
      match a with
      | ⟨0, _⟩ => show (y 0).val = 0; omega
      | ⟨1, _⟩ => show (y 1).val = 0; omega
      | ⟨2, _⟩ => show (y 2).val = 0; omega))
  rw [hL, hlast t h3]
  show _ = arr1 G (((cfg1.win 4).blk t).view.emb y)
  show _ = G ⟨((((cfg1.win 4).blk t).view.emb y : S2x1x1.Idx) 0).val, _⟩
  exact congrArg G (Fin.ext (by
    show t.val / 4 = win1_4.index t (0 : Fin 3) * 1 + 1 * (y 0).val
    omega))

/-- An index lies in point `t`'s block of the second pass's second output iff each coordinate is in the block's range. -/
theorem mem_blk1_4 (t : Fin cfg1.N) (x : S2x1x1.Idx) :
    x ∈ ((cfg1.win 4).blk t).view.set ↔ ∀ a : Fin 3, win1_4.index t a * S1x1x1.size a ≤ (x a).val
      ∧ (x a).val < win1_4.index t a * S1x1x1.size a + S1x1x1.size a := by
  show x ∈ ((View.whole main_v15_1).slice (win1_4.rect t)).set ↔ _
  rw [View.set_slice_whole, Rect.mem_set_unit]
  exact Iff.rfl

/-- Each of the two entries lies in the block written back at point `4 c' + 3`. -/
theorem cover1_4 (x : S2x1x1.Idx) :
    ∃ t : Fin cfg1.N, (cfg1.win 4).flush t = true ∧ x ∈ ((cfg1.win 4).blk t).view.set := by
  have hx0 : (x 0).val < 2 := (x 0).isLt
  have hx1 : (x 1).val < 1 := (x 1).isLt
  have hx2 : (x 2).val < 1 := (x 2).isLt
  have hlt : 4 * (x 0).val + 3 < cfg1.N := by rw [show cfg1.N = 8 from N_1]; omega
  obtain ⟨e0, e1, e2⟩ := idx1_4 ⟨4 * (x 0).val + 3, hlt⟩
  have e0' : win1_4.index ⟨4 * (x 0).val + 3, hlt⟩ (0 : Fin 3) = (4 * (x 0).val + 3) / 4 := e0
  refine ⟨⟨4 * (x 0).val + 3, hlt⟩, (flush1_4 _).mpr (by show (4 * (x 0).val + 3) % 4 = 3; omega), ?_⟩
  rw [mem_blk1_4]
  intro a
  match a with
  | ⟨0, _⟩ =>
    show win1_4.index ⟨4 * (x 0).val + 3, hlt⟩ (0 : Fin 3) * 1 ≤ (x 0).val
      ∧ (x 0).val < win1_4.index ⟨4 * (x 0).val + 3, hlt⟩ (0 : Fin 3) * 1 + 1
    omega
  | ⟨1, _⟩ =>
    show win1_4.index ⟨4 * (x 0).val + 3, hlt⟩ (1 : Fin 3) * 1 ≤ (x 1).val
      ∧ (x 1).val < win1_4.index ⟨4 * (x 0).val + 3, hlt⟩ (1 : Fin 3) * 1 + 1
    omega
  | ⟨2, _⟩ =>
    show win1_4.index ⟨4 * (x 0).val + 3, hlt⟩ (2 : Fin 3) * 1 ≤ (x 2).val
      ∧ (x 2).val < win1_4.index ⟨4 * (x 0).val + 3, hlt⟩ (2 : Fin 3) * 1 + 1
    omega

/-- **The second pass's second output array**, from its one-entry block after each half's last tile. -/
theorem arr1_4_of_last (c : Dev nD) (G : Fin 2 → EReal)
    (hlast : ∀ (t : Fin cfg1.N) (h3 : t.val % 4 = 3),
       ((outsAt1 V c t.val t.isLt).2 : S1x1x1.Idx → EReal) (ix3 (0 : Fin 1) (0 : Fin 1) (0 : Fin 1))
         = G ⟨t.val / 4, by have := lt_of_lt_of_eq t.isLt (show cfg1.N = 8 from N_1); omega⟩) :
    ∀ (c' : Fin 2), ((dat1 V c).arrAt 4 cfg1.N : S2x1x1.Idx → EReal) (ix3 c' (0 : Fin 1) (0 : Fin 1)) = G c' := fun c' =>
  congrFun ((dat1 V c).arrAt_eq_of_cover 4 (arr1 G) (flushed1_4_eq V c G hlast) cover1_4) (ix3 c' (0 : Fin 1) (0 : Fin 1))

end

end Cert.KernelIdeal.ArrOfBlocks

end
-- ==== Proof.KernelIdeal.Val0.lean ====
/-
  The first pass's result array, entry by entry: half `c'` of the rows (four tiles of 512), window offset `j`, column
  `i` holds the half's sum over its rows `b` of `(a[b,i] − pad(a)[b,i+j])²`.

  A tile's body adds, to each of the eleven rows of the accumulator block, the column sums of the squared difference of
  the input block and the padded block shifted by the row's offset (`step`); every row's store writes one function of
  the loads (`pay_apply`), so the block the body leaves is the step function of the block it found (`out_B_apply`),
  and at the first tile of a half, where the body first stores the zero block, the step function of the zero block
  (`out_A_apply`: each row is read back through the stores before it, which have not touched it). The blocks are the
  tiles' rows of `a` and of the padded array (`step_blocks`), so after point `n` the accumulator holds the sums of the
  tiles of `n`'s half up to `n` (`outsAt_eq`, by induction on the point), after a half's last tile the half's sum
  (`last`), and that is what is written back to the array (`arr0`).
-/
import proofs.«125402_j3959959847206_1_alg».proof.Proof.KernelIdeal.Frame0
import proofs.«125402_j3959959847206_1_alg».proof.Proof.Spec
import proofs.«125402_j3959959847206_1_alg».proof.Proof.KernelIdeal.BlockRead
import proofs.«125402_j3959959847206_1_alg».proof.Proof.KernelIdeal.ArrOfBlocks
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val0

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

/-! ## One row's update at an entry -/

/-- One row's update read at an entry: the row found there plus the column sum of the squared differences. -/
theorem pay_apply (v3 v4 : Vec Ideal S512x750 .f32) (v10 : Vec Ideal S1x1x750 .f32) (i : Fin 750) :
    k0_pay3 (F := Ideal) v3 v4 v10 (ix3 (0 : Fin 1) (0 : Fin 1) i)
      = v10 (ix3 (0 : Fin 1) (0 : Fin 1) i)
        + ∑ r : Fin 512, (v3 (ix2 r i) - v4 (ix2 r i)) * (v3 (ix2 r i) - v4 (ix2 r i)) := by
  unfold k0_pay3
  refine (shapeCast_ab_1ab_apply _ _ (0 : Fin 1) (0 : Fin 1) i).trans ?_
  refine (addf_apply _ _ _).trans ?_
  refine congrArg₂ (· + ·) (shapeCast_1ab_ab_apply v10 _ (0 : Fin 1) i) ?_
  refine (shapeCast_a_1a_apply _ _ (0 : Fin 1) i).trans ?_
  refine (Ideal.multiReduction_add_single _ 0x00000000#32 reduces_S512x750_S750 (.inl rfl) rfl (ix1 i)).trans ?_
  rw [shapeCast_self]
  exact Finset.sum_congr rfl fun r _ => by
    rw [show reduces_S512x750_S750.lift (ix1 i) r = ix2 r i from funext fun a => match a with | ⟨0, _⟩ => rfl | ⟨1, _⟩ => rfl]
    rfl

section
variable {F : FTy → Type} [FloatOps F]
theorem pay4_eq : @k0_pay4 F _ = k0_pay3 := rfl
theorem pay7_eq : @k0_pay7 F _ = k0_pay3 := rfl
theorem pay8_eq : @k0_pay8 F _ = k0_pay3 := rfl
theorem pay9_eq : @k0_pay9 F _ = k0_pay3 := rfl
theorem pay10_eq : @k0_pay10 F _ = k0_pay3 := rfl
theorem pay13_eq : @k0_pay13 F _ = k0_pay3 := rfl
theorem pay14_eq : @k0_pay14 F _ = k0_pay3 := rfl
theorem pay6_eq (a b : Vec F S512x750 .f32) (c : Vec F S1x1x750 .f32) : k0_pay6 (k0_pay5 a b) c = k0_pay3 a b c := rfl
theorem pay12_eq (a b : Vec F S512x750 .f32) (c : Vec F S1x1x750 .f32) : k0_pay12 (k0_pay11 a b c) = k0_pay3 a b c := rfl
theorem pay1_eq (a b : Vec F S512x750 .f32) (c : Vec F S1x1x750 .f32) : k0_pay1 (k0_pay15 a b) c = k0_pay3 a b c := rfl
end

/-! ## The step function and the row stores -/

/-- The accumulator block after one tile: at offset `j`, column `k`, what was there plus the tile's column sum of
    the squared differences of the block and the padded block shifted by `j`. -/
def step (x0 : Vec Ideal S512x750 .f32) (x1 : Vec Ideal S512x761 .f32) (xo : Vec Ideal S1x11x750 .f32) (j : Fin 11) (k : Fin 750) : EReal :=
  xo (ix3 (0 : Fin 1) j k)
    + ∑ r : Fin 512, (x0 (ix2 r k) - x1 (ix2 r (⟨k.val + j.val, by have := k.isLt; have := j.isLt; omega⟩ : Fin 761)))
        * (x0 (ix2 r k) - x1 (ix2 r (⟨k.val + j.val, by have := k.isLt; have := j.isLt; omega⟩ : Fin 761)))

/-- The same as a function of the block's index. -/
def stepG (x0 : Vec Ideal S512x750 .f32) (x1 : Vec Ideal S512x761 .f32) (xo : Vec Ideal S1x11x750 .f32) : Vec Ideal S1x11x750 .f32 :=
  fun y => step x0 x1 xo (y 1) (y 2)

theorem stepG_apply (x0 : Vec Ideal S512x750 .f32) (x1 : Vec Ideal S512x761 .f32) (xo : Vec Ideal S1x11x750 .f32) (j : Fin 11) (k : Fin 750) :
    stepG x0 x1 xo (ix3 (0 : Fin 1) j k) = step x0 x1 xo j k := rfl

/-- Row `j`'s store: its payload, over the loads of the input block, of the padded block at column offset `j` and of
    row `j` of the accumulator, is the step function under the store's rectangle. -/
theorem row_piece (j : ℕ) (hj : j < 11) (inbW : ∀ a, (![0, 0] : Fin 2 → ℕ) a + (![512, 750] : Fin 2 → ℕ) a ≤ S512x750.size a)
    (inbC : ∀ a, (![0, j] : Fin 2 → ℕ) a + (![512, 750] : Fin 2 → ℕ) a ≤ S512x761.size a)
    (inbR : ∀ a, (![0, j, 0] : Fin 3 → ℕ) a + (![1, 1, 750] : Fin 3 → ℕ) a ≤ S1x11x750.size a)
    (x0 : Vec Ideal S512x750 .f32) (x1 : Vec Ideal S512x761 .f32) (xo : Vec Ideal S1x11x750 .f32)
    (x : (⟨3, ![1, 1, 750]⟩ : Shape).Idx) :
    k0_pay3 (F := Ideal) (View.ld x0 (Rect.unit (s := S512x750) ![0, 0] ![512, 750] inbW))
        (View.ld x1 (Rect.unit (s := S512x761) ![0, j] ![512, 750] inbC))
        (View.ld xo (Rect.unit (s := S1x11x750) ![0, j, 0] ![1, 1, 750] inbR)) x
      = stepG x0 x1 xo ((Rect.unit (s := S1x11x750) ![0, j, 0] ![1, 1, 750] inbR).emb x) := by
  obtain ⟨u, v, k, rfl⟩ : ∃ (u : Fin 1) (v : Fin 1) (k : Fin 750), x = ix3 u v k := ⟨x 0, x 1, x 2, eq_ix3 x⟩
  obtain rfl : u = 0 := Subsingleton.elim _ _
  obtain rfl : v = 0 := Subsingleton.elim _ _
  refine (pay_apply _ _ _ k).trans ?_
  have eR : (Rect.unit (s := S1x11x750) ![0, j, 0] ![1, 1, 750] inbR).idx (ix3 (0 : Fin 1) (0 : Fin 1) k)
      = ix3 (0 : Fin 1) (⟨j, hj⟩ : Fin 11) k :=
    funext fun a => Fin.ext (match a with
      | ⟨0, _⟩ => by show 0 + 1 * 0 = 0; rfl
      | ⟨1, _⟩ => by show j + 1 * 0 = j; omega
      | ⟨2, _⟩ => by show 0 + 1 * k.val = k.val; omega)
  have eW : ∀ r : Fin 512, (Rect.unit (s := S512x750) ![0, 0] ![512, 750] inbW).idx (ix2 r k) = ix2 r k := fun r =>
    funext fun a => Fin.ext (match a with
      | ⟨0, _⟩ => by show 0 + 1 * r.val = r.val; omega
      | ⟨1, _⟩ => by show 0 + 1 * k.val = k.val; omega)
  have eC : ∀ r : Fin 512, (Rect.unit (s := S512x761) ![0, j] ![512, 750] inbC).idx (ix2 r k)
      = ix2 r (⟨k.val + j, by have := k.isLt; omega⟩ : Fin 761) := fun r =>
    funext fun a => Fin.ext (match a with
      | ⟨0, _⟩ => by show 0 + 1 * r.val = r.val; omega
      | ⟨1, _⟩ => by show j + 1 * k.val = k.val + j; omega)
  change xo ((Rect.unit (s := S1x11x750) ![0, j, 0] ![1, 1, 750] inbR).idx (ix3 (0 : Fin 1) (0 : Fin 1) k))
      + ∑ r : Fin 512,
          (x0 ((Rect.unit (s := S512x750) ![0, 0] ![512, 750] inbW).idx (ix2 r k))
            - x1 ((Rect.unit (s := S512x761) ![0, j] ![512, 750] inbC).idx (ix2 r k)))
          * (x0 ((Rect.unit (s := S512x750) ![0, 0] ![512, 750] inbW).idx (ix2 r k))
            - x1 ((Rect.unit (s := S512x761) ![0, j] ![512, 750] inbC).idx (ix2 r k)))
    = stepG x0 x1 xo ((Rect.unit (s := S1x11x750) ![0, j, 0] ![1, 1, 750] inbR).idx (ix3 (0 : Fin 1) (0 : Fin 1) k))
  rw [eR]
  simp only [eW, eC]
  rfl

/-! ## A later tile of a half -/

/-- A later tile of a half: the accumulator block the body leaves is the step function of the two input blocks
    over the block it found. Every index is under one of the eleven row stores, and each row's payload is the
    step function there. -/
theorem out_B_apply (c : Dev nD) (i : grid0.Coords) (a2 : Memref sig .tc .vmem S512x750 .f32) (h2 : a2.IsWhole)
    (a3 : Memref sig .tc .vmem S512x761 .f32) (h3 : a3.IsWhole) (a4 : Memref sig .tc .vmem S1x11x750 .f32) (h4 : a4.IsWhole)
    (hc : ¬cond0_0 i) (x0 : Vec Ideal S512x750 .f32) (x1 : Vec Ideal S512x761 .f32) (xo : Vec Ideal S1x11x750 .f32)
    (j : Fin 11) (k : Fin 750) :
    out0_B_2 (F := Ideal) c i a2 h2 a3 h3 a4 h4 hc x0 x1 xo (ix3 (0 : Fin 1) j k) = step x0 x1 xo j k := by
  unfold out0_B_2
  rw [View.read_writes_eq_canon _ _ _ (cover0_B_2 c i a2 h2 a3 h3 a4 h4 hc x0 x1 xo)]
  refine (View.canon_apply_of_pieces (stepG x0 x1 xo) _ ?_ _
    (cover0_B_2 c i a2 h2 a3 h3 a4 h4 hc x0 x1 xo (ix3 (0 : Fin 1) j k))).trans (stepG_apply x0 x1 xo j k)
  unfold kernelRun0_B
  dsimp only
  sl_unfold_words
  simp only [View.readAt_eq_ld, h2.read_unread, h3.read_unread, h4.read_unread, pay4_eq, pay7_eq, pay8_eq, pay9_eq, pay10_eq,
    pay13_eq, pay14_eq, pay6_eq, pay12_eq, pay1_eq, List.forall_mem_cons, List.not_mem_nil, IsEmpty.forall_iff, implies_true, and_true]
  exact ⟨fun x => row_piece 10 (by omega) _ _ _ x0 x1 xo x,
    fun x => row_piece 9 (by omega) _ _ _ x0 x1 xo x,
    fun x => row_piece 8 (by omega) _ _ _ x0 x1 xo x,
    fun x => row_piece 7 (by omega) _ _ _ x0 x1 xo x,
    fun x => row_piece 6 (by omega) _ _ _ x0 x1 xo x,
    fun x => row_piece 5 (by omega) _ _ _ x0 x1 xo x,
    fun x => row_piece 4 (by omega) _ _ _ x0 x1 xo x,
    fun x => row_piece 3 (by omega) _ _ _ x0 x1 xo x,
    fun x => row_piece 2 (by omega) _ _ _ x0 x1 xo x,
    fun x => row_piece 1 (by omega) _ _ _ x0 x1 xo x,
    fun x => row_piece 0 (by omega) _ _ _ x0 x1 xo x⟩

/-! ## The first tile of a half: the reset, then the rows -/

/-- The zero block. -/
abbrev zeroB : Vec Ideal S1x11x750 .f32 := fun _ => (0 : EReal)

/-- One more row stored over a list of stores that has left the step function (over the zero block) on the rows
    below `m` and zero elsewhere: row `m`'s load reads zero, its store leaves the step function on row `m`, and the
    other rows are as they were. -/
theorem chain_step {sg : RefSig} {κ : Kind} {sp : Space} (v : View sg κ sp S1x11x750 .f32) (m : ℕ) (hm : m < 11)
    (inbW : ∀ a, (![0, 0] : Fin 2 → ℕ) a + (![512, 750] : Fin 2 → ℕ) a ≤ S512x750.size a)
    (inbC : ∀ a, (![0, m] : Fin 2 → ℕ) a + (![512, 750] : Fin 2 → ℕ) a ≤ S512x761.size a)
    (inbR : ∀ a, (![0, m, 0] : Fin 3 → ℕ) a + (![1, 1, 750] : Fin 3 → ℕ) a ≤ S1x11x750.size a)
    (x0 : Vec Ideal S512x750 .f32) (x1 : Vec Ideal S512x761 .f32)
    (L : List (View.Piece (Elt Ideal) S1x11x750 .f32))
    (hL : ∀ y : S1x11x750.Idx, View.canon L y = if (y 1).val < m then stepG x0 x1 zeroB y else 0) (y : S1x11x750.Idx) :
    View.canon ((⟨Rect.unit (s := S1x11x750) ![0, m, 0] ![1, 1, 750] inbR,
        k0_pay3 (F := Ideal) (View.ld x0 (Rect.unit (s := S512x750) ![0, 0] ![512, 750] inbW))
          (View.ld x1 (Rect.unit (s := S512x761) ![0, m] ![512, 750] inbC))
          (v.readCov L (Rect.unit (s := S1x11x750) ![0, m, 0] ![1, 1, 750] inbR).toLoadRect)⟩ :
          View.Piece (Elt Ideal) S1x11x750 .f32) :: L) y
      = if (y 1).val < m + 1 then stepG x0 x1 zeroB y else 0 := by
  have hv : v.readCov L (Rect.unit (s := S1x11x750) ![0, m, 0] ![1, 1, 750] inbR).toLoadRect
      = View.ld zeroB (Rect.unit (s := S1x11x750) ![0, m, 0] ![1, 1, 750] inbR) := by
    rw [View.readCov_eq_canon']
    funext x'
    rw [hL]
    have h1 : (x' 1).val < 1 := (x' 1).isLt
    have e : (((Rect.unit (s := S1x11x750) ![0, m, 0] ![1, 1, 750] inbR).toLoadRect.idx x') 1).val = m := by
      show m + 1 * (x' 1).val = m
      omega
    rw [if_neg (by omega)]
  by_cases hy : (y 1).val = m
  · rw [if_pos (by omega)]
    have hmem : y ∈ (Rect.unit (s := S1x11x750) ![0, m, 0] ![1, 1, 750] inbR).set := by
      rw [Rect.mem_set_unit]
      intro a
      have h0 : (y 0).val < 1 := (y 0).isLt
      have h2 : (y 2).val < 750 := (y 2).isLt
      match a with
      | ⟨0, _⟩ => exact (show 0 ≤ (y 0).val ∧ (y 0).val < 0 + 1 from ⟨by omega, by omega⟩)
      | ⟨1, _⟩ => exact (show m ≤ (y 1).val ∧ (y 1).val < m + 1 from ⟨by omega, by omega⟩)
      | ⟨2, _⟩ => exact (show 0 ≤ (y 2).val ∧ (y 2).val < 0 + 750 from ⟨by omega, by omega⟩)
    obtain ⟨x, rfl⟩ := (Rect.unit (s := S1x11x750) ![0, m, 0] ![1, 1, 750] inbR).exists_idx_of_mem hmem
    rw [show (Rect.unit (s := S1x11x750) ![0, m, 0] ![1, 1, 750] inbR).idx x
        = (Rect.unit (s := S1x11x750) ![0, m, 0] ![1, 1, 750] inbR).emb x from rfl, View.canon_cons_emb, hv]
    exact row_piece m hm inbW inbC inbR x0 x1 zeroB x
  · have hnot : y ∉ (Rect.unit (s := S1x11x750) ![0, m, 0] ![1, 1, 750] inbR).set := by
      rw [Rect.mem_set_unit]
      intro h
      have h1 : m ≤ (y 1).val ∧ (y 1).val < m + 1 := h 1
      omega
    refine (View.canon_cons_of_not_mem _ L ?_).trans ?_
    · exact hnot
    rw [hL y]
    by_cases h1 : (y 1).val < m
    · rw [if_pos h1, if_pos (by omega)]
    · rw [if_neg h1, if_neg (by omega)]

/-- The first tile of a half: the body stores the zero block and then the eleven rows, each over the row it reads
    back through the stores before it; the block it leaves is the step function over the zero block. -/
theorem out_A_apply (c : Dev nD) (i : grid0.Coords) (a2 : Memref sig .tc .vmem S512x750 .f32) (h2 : a2.IsWhole)
    (a3 : Memref sig .tc .vmem S512x761 .f32) (h3 : a3.IsWhole) (a4 : Memref sig .tc .vmem S1x11x750 .f32) (h4 : a4.IsWhole)
    (hc : cond0_0 i) (x0 : Vec Ideal S512x750 .f32) (x1 : Vec Ideal S512x761 .f32)
    (j : Fin 11) (k : Fin 750) :
    out0_A_2 (F := Ideal) c i a2 h2 a3 h3 a4 h4 hc x0 x1 (ix3 (0 : Fin 1) j k) = step x0 x1 (fun _ => (0 : EReal)) j k := by
  unfold out0_A_2
  rw [View.read_writes_eq_canon _ _ _ (cover0_A_2 c i a2 h2 a3 h3 a4 h4 hc x0 x1)]
  unfold kernelRun0_A
  dsimp only
  have hz3 : (![0, 0, 0] : Fin 3 → ℕ) = fun _ => 0 := funext fun a => by fin_cases a <;> rfl
  have p0 : ∀ y : S1x11x750.Idx, View.canon (kernelRun0_A.sl.H2_1 (F := Ideal)) y
      = if (y 1).val < 0 then stepG x0 x1 zeroB y else 0 := by
    intro y
    unfold kernelRun0_A.sl.H2_1
    rw [View.canon_unit_zero hz3, if_neg (by omega)]
    exact Ideal.ofBits_zero_f32
  have p1 : ∀ y : S1x11x750.Idx, View.canon (kernelRun0_A.sl.H2_2 (F := Ideal) c a2 h2 a3 h3 a4 x0 x1) y
      = if (y 1).val < 0 + 1 then stepG x0 x1 zeroB y else 0 := by
    intro y
    simp only [kernelRun0_A.sl.H2_2, kernelRun0_A.sl.v10, kernelRun0_A.sl.r, kernelRun0_A.sl.r_1, kernelRun0_A.sl.r_2,
      kernelRun0_A.sl.r_3, View.readAt_eq_ld, h2.read_unread, h3.read_unread, pay4_eq, pay7_eq, pay8_eq, pay9_eq, pay10_eq,
      pay13_eq, pay14_eq, pay6_eq, pay12_eq]
    exact chain_step a4.view 0 (by omega) _ _ _ x0 x1 _ p0 y
  have p2 : ∀ y : S1x11x750.Idx, View.canon (kernelRun0_A.sl.H2_3 (F := Ideal) c a2 h2 a3 h3 a4 x0 x1) y
      = if (y 1).val < 1 + 1 then stepG x0 x1 zeroB y else 0 := by
    intro y
    simp only [kernelRun0_A.sl.H2_3, kernelRun0_A.sl.v22, kernelRun0_A.sl.r, kernelRun0_A.sl.r_1, kernelRun0_A.sl.r_2,
      kernelRun0_A.sl.r_3, View.readAt_eq_ld, h2.read_unread, h3.read_unread, pay4_eq, pay7_eq, pay8_eq, pay9_eq, pay10_eq,
      pay13_eq, pay14_eq, pay6_eq, pay12_eq]
    exact chain_step a4.view 1 (by omega) _ _ _ x0 x1 _ p1 y
  have p3 : ∀ y : S1x11x750.Idx, View.canon (kernelRun0_A.sl.H2_4 (F := Ideal) c a2 h2 a3 h3 a4 x0 x1) y
      = if (y 1).val < 2 + 1 then stepG x0 x1 zeroB y else 0 := by
    intro y
    simp only [kernelRun0_A.sl.H2_4, kernelRun0_A.sl.v34, kernelRun0_A.sl.r, kernelRun0_A.sl.r_1, kernelRun0_A.sl.r_2,
      kernelRun0_A.sl.r_3, View.readAt_eq_ld, h2.read_unread, h3.read_unread, pay4_eq, pay7_eq, pay8_eq, pay9_eq, pay10_eq,
      pay13_eq, pay14_eq, pay6_eq, pay12_eq]
    exact chain_step a4.view 2 (by omega) _ _ _ x0 x1 _ p2 y
  have p4 : ∀ y : S1x11x750.Idx, View.canon (kernelRun0_A.sl.H2_5 (F := Ideal) c a2 h2 a3 h3 a4 x0 x1) y
      = if (y 1).val < 3 + 1 then stepG x0 x1 zeroB y else 0 := by
    intro y
    simp only [kernelRun0_A.sl.H2_5, kernelRun0_A.sl.v46, kernelRun0_A.sl.r, kernelRun0_A.sl.r_1, kernelRun0_A.sl.r_2,
      kernelRun0_A.sl.r_3, View.readAt_eq_ld, h2.read_unread, h3.read_unread, pay4_eq, pay7_eq, pay8_eq, pay9_eq, pay10_eq,
      pay13_eq, pay14_eq, pay6_eq, pay12_eq]
    exact chain_step a4.view 3 (by omega) _ _ _ x0 x1 _ p3 y
  have p5 : ∀ y : S1x11x750.Idx, View.canon (kernelRun0_A.sl.H2_6 (F := Ideal) c a2 h2 a3 h3 a4 x0 x1) y
      = if (y 1).val < 4 + 1 then stepG x0 x1 zeroB y else 0 := by
    intro y
    simp only [kernelRun0_A.sl.H2_6, kernelRun0_A.sl.v58, kernelRun0_A.sl.r, kernelRun0_A.sl.r_1, kernelRun0_A.sl.r_2,
      kernelRun0_A.sl.r_3, View.readAt_eq_ld, h2.read_unread, h3.read_unread, pay4_eq, pay7_eq, pay8_eq, pay9_eq, pay10_eq,
      pay13_eq, pay14_eq, pay6_eq, pay12_eq]
    exact chain_step a4.view 4 (by omega) _ _ _ x0 x1 _ p4 y
  have p6 : ∀ y : S1x11x750.Idx, View.canon (kernelRun0_A.sl.H2_7 (F := Ideal) c a2 h2 a3 h3 a4 x0 x1) y
      = if (y 1).val < 5 + 1 then stepG x0 x1 zeroB y else 0 := by
    intro y
    simp only [kernelRun0_A.sl.H2_7, kernelRun0_A.sl.v70, kernelRun0_A.sl.r, kernelRun0_A.sl.r_1, kernelRun0_A.sl.r_2,
      kernelRun0_A.sl.r_3, View.readAt_eq_ld, h2.read_unread, h3.read_unread, pay4_eq, pay7_eq, pay8_eq, pay9_eq, pay10_eq,
      pay13_eq, pay14_eq, pay6_eq, pay12_eq]
    exact chain_step a4.view 5 (by omega) _ _ _ x0 x1 _ p5 y
  have p7 : ∀ y : S1x11x750.Idx, View.canon (kernelRun0_A.sl.H2_8 (F := Ideal) c a2 h2 a3 h3 a4 x0 x1) y
      = if (y 1).val < 6 + 1 then stepG x0 x1 zeroB y else 0 := by
    intro y
    simp only [kernelRun0_A.sl.H2_8, kernelRun0_A.sl.v82, kernelRun0_A.sl.r, kernelRun0_A.sl.r_1, kernelRun0_A.sl.r_2,
      kernelRun0_A.sl.r_3, View.readAt_eq_ld, h2.read_unread, h3.read_unread, pay4_eq, pay7_eq, pay8_eq, pay9_eq, pay10_eq,
      pay13_eq, pay14_eq, pay6_eq, pay12_eq]
    exact chain_step a4.view 6 (by omega) _ _ _ x0 x1 _ p6 y
  have p8 : ∀ y : S1x11x750.Idx, View.canon (kernelRun0_A.sl.H2_9 (F := Ideal) c a2 h2 a3 h3 a4 x0 x1) y
      = if (y 1).val < 7 + 1 then stepG x0 x1 zeroB y else 0 := by
    intro y
    simp only [kernelRun0_A.sl.H2_9, kernelRun0_A.sl.v94, kernelRun0_A.sl.r, kernelRun0_A.sl.r_1, kernelRun0_A.sl.r_2,
      kernelRun0_A.sl.r_3, View.readAt_eq_ld, h2.read_unread, h3.read_unread, pay4_eq, pay7_eq, pay8_eq, pay9_eq, pay10_eq,
      pay13_eq, pay14_eq, pay6_eq, pay12_eq]
    exact chain_step a4.view 7 (by omega) _ _ _ x0 x1 _ p7 y
  have p9 : ∀ y : S1x11x750.Idx, View.canon (kernelRun0_A.sl.H2_10 (F := Ideal) c a2 h2 a3 h3 a4 x0 x1) y
      = if (y 1).val < 8 + 1 then stepG x0 x1 zeroB y else 0 := by
    intro y
    simp only [kernelRun0_A.sl.H2_10, kernelRun0_A.sl.v106, kernelRun0_A.sl.r, kernelRun0_A.sl.r_1, kernelRun0_A.sl.r_2,
      kernelRun0_A.sl.r_3, View.readAt_eq_ld, h2.read_unread, h3.read_unread, pay4_eq, pay7_eq, pay8_eq, pay9_eq, pay10_eq,
      pay13_eq, pay14_eq, pay6_eq, pay12_eq]
    exact chain_step a4.view 8 (by omega) _ _ _ x0 x1 _ p8 y
  have p10 : ∀ y : S1x11x750.Idx, View.canon (kernelRun0_A.sl.H2_11 (F := Ideal) c a2 h2 a3 h3 a4 x0 x1) y
      = if (y 1).val < 9 + 1 then stepG x0 x1 zeroB y else 0 := by
    intro y
    simp only [kernelRun0_A.sl.H2_11, kernelRun0_A.sl.v118, kernelRun0_A.sl.r, kernelRun0_A.sl.r_1, kernelRun0_A.sl.r_2,
      kernelRun0_A.sl.r_3, View.readAt_eq_ld, h2.read_unread, h3.read_unread, pay4_eq, pay7_eq, pay8_eq, pay9_eq, pay10_eq,
      pay13_eq, pay14_eq, pay6_eq, pay12_eq]
    exact chain_step a4.view 9 (by omega) _ _ _ x0 x1 _ p9 y
  simp only [kernelRun0_A.sl.v130, kernelRun0_A.sl.r_4, kernelRun0_A.sl.r, View.readAt_eq_ld, h2.read_unread, h3.read_unread, pay1_eq]
  refine (chain_step a4.view 10 (by omega) _ _ _ x0 x1 _ p10 (ix3 (0 : Fin 1) j k)).trans ?_
  rw [if_pos (show ((ix3 (0 : Fin 1) j k : S1x11x750.Idx) 1).val < 10 + 1 from j.isLt)]
  rfl

/-! ## The blocks as entries of the two arrays -/

section
variable (V : (c : Dev nD) → (b : Ref sig .tc) → Buf (Elt Ideal) ((c : Thread nD τ).loc b))

/-- Row `r` of tile `m` among the 4096 rows (`m` below 8; reduced modulo 4096 so that it is a row for every `m`). -/
def rowN (m : ℕ) (r : Fin 512) : Fin 4096 := ⟨(m * 512 + r.val) % 4096, Nat.mod_lt _ (by omega)⟩

/-- Tile `m`'s sum over its rows of the squared window differences at offset `j`, column `k`. -/
def tileN (a : Cert.Spec.Arr) (m : ℕ) (j : Fin 11) (k : Fin 750) : EReal :=
  ∑ r : Fin 512, Cert.Spec.sqd a (rowN m r) k j

/-- At point `t` the step function of the two input blocks adds tile `t`'s sum: the input block is the tile's rows of
    `a`, the padded block the same rows of the padded array, and its column `k + j` is the window entry. -/
theorem step_blocks (c : Dev nD) (a : Cert.Spec.Arr)
    (hA : (V c main_arg0 : S4096x750.Idx → EReal) = a)
    (hP : ∀ (b : Fin 4096) (k : Fin 761), (V c main_v6 : S4096x761.Idx → EReal) (ix2 b k) = Cert.Spec.pad a b k)
    (t : Fin cfg0.N) (xo : Vec Ideal S1x11x750 .f32) (j : Fin 11) (k : Fin 750) :
    step (iblk0 V c 0 t) (iblk0 V c 1 t) xo j k = xo (ix3 (0 : Fin 1) j k) + tileN a t.val j k := by
  have ht : t.val < 8 := lt_of_lt_of_eq t.isLt (show cfg0.N = 8 from N_0)
  unfold step tileN
  refine congrArg (xo (ix3 (0 : Fin 1) j k) + ·) (Finset.sum_congr rfl fun r _ => ?_)
  have hrow : (⟨t.val * 512 + r.val, by have := r.isLt; omega⟩ : Fin 4096) = rowN t.val r :=
    Fin.ext (by show t.val * 512 + r.val = (t.val * 512 + r.val) % 4096; have := r.isLt; omega)
  have e0 : (iblk0 V c 0 t : S512x750.Idx → EReal) (ix2 r k) = a (ix2 (rowN t.val r) k) :=
    ((BlockRead.iblk0_0 V c t r k).trans (congrFun hA _)).trans (by rw [hrow])
  have e1 : (iblk0 V c 1 t : S512x761.Idx → EReal)
      (ix2 r (⟨k.val + j.val, by have := k.isLt; have := j.isLt; omega⟩ : Fin 761)) = Cert.Spec.win a (rowN t.val r) k j :=
    ((BlockRead.iblk0_1 V c t r _).trans (hP _ _)).trans (by rw [hrow]; rfl)
  rw [e0, e1]
  rfl

/-! ## The accumulator after each point -/

/-- At a later tile of a half the accumulator gains that tile's sum. -/
theorem outsAt_B (c : Dev nD) (a : Cert.Spec.Arr)
    (hA : (V c main_arg0 : S4096x750.Idx → EReal) = a)
    (hP : ∀ (b : Fin 4096) (k : Fin 761), (V c main_v6 : S4096x761.Idx → EReal) (ix2 b k) = Cert.Spec.pad a b k)
    (t : Fin cfg0.N) (h0 : ¬t.val % 4 = 0) (j : Fin 11) (k : Fin 750) :
    (outsAt0 V c t.val t.isLt : S1x11x750.Idx → EReal) (ix3 (0 : Fin 1) j k)
      = (outsAt0 V c (t.val - 1) (Nat.lt_of_le_of_lt (Nat.sub_le _ _) t.isLt) : S1x11x750.Idx → EReal) (ix3 (0 : Fin 1) j k)
        + tileN a t.val j k := by
  rw [outsAt0_B V c t h0]
  refine (out_B_apply c (grid0.coords t) (ms0_0 t) (hs0_0 t) (ms0_1 t) (hs0_1 t) (ms0_2 t) (hs0_2 t)
    (fun h => h0 ((hcond0_0 t).mp h)) (iblk0 V c 0 t) (iblk0 V c 1 t)
    (outsAt0 V c (t.val - 1) (Nat.lt_of_le_of_lt (Nat.sub_le _ _) t.isLt)) j k).trans ?_
  exact step_blocks V c a hA hP t _ j k

/-- At the first tile of a half the accumulator is that tile's sum. -/
theorem outsAt_A (c : Dev nD) (a : Cert.Spec.Arr)
    (hA : (V c main_arg0 : S4096x750.Idx → EReal) = a)
    (hP : ∀ (b : Fin 4096) (k : Fin 761), (V c main_v6 : S4096x761.Idx → EReal) (ix2 b k) = Cert.Spec.pad a b k)
    (t : Fin cfg0.N) (h0 : t.val % 4 = 0) (j : Fin 11) (k : Fin 750) :
    (outsAt0 V c t.val t.isLt : S1x11x750.Idx → EReal) (ix3 (0 : Fin 1) j k) = tileN a t.val j k := by
  rw [outsAt0_A V c t h0]
  refine (out_A_apply c (grid0.coords t) (ms0_0 t) (hs0_0 t) (ms0_1 t) (hs0_1 t) (ms0_2 t) (hs0_2 t)
    ((hcond0_0 t).mpr h0) (iblk0 V c 0 t) (iblk0 V c 1 t) j k).trans ?_
  refine (step_blocks V c a hA hP t _ j k).trans ?_
  exact zero_add _

/-- After point `n` the accumulator holds the sums of the tiles of `n`'s half up to `n`. -/
theorem outsAt_eq (c : Dev nD) (a : Cert.Spec.Arr)
    (hA : (V c main_arg0 : S4096x750.Idx → EReal) = a)
    (hP : ∀ (b : Fin 4096) (k : Fin 761), (V c main_v6 : S4096x761.Idx → EReal) (ix2 b k) = Cert.Spec.pad a b k)
    (j : Fin 11) (k : Fin 750) : ∀ (n : ℕ) (hn : n < cfg0.N),
      (outsAt0 V c n hn : S1x11x750.Idx → EReal) (ix3 (0 : Fin 1) j k)
        = ∑ s ∈ Finset.range (n % 4 + 1), tileN a (n - n % 4 + s) j k
  | 0, hn => by
    rw [outsAt_A V c a hA hP ⟨0, hn⟩ rfl j k]
    simp
  | n + 1, hn => by
    by_cases h0 : (n + 1) % 4 = 0
    · rw [outsAt_A V c a hA hP ⟨n + 1, hn⟩ h0 j k, h0]
      simp
    · have ih := outsAt_eq c a hA hP j k n (Nat.lt_of_succ_lt hn)
      have e1 : (n + 1) % 4 = n % 4 + 1 := by omega
      have e2 : n + 1 - (n % 4 + 1) = n - n % 4 := by omega
      have e3 : n - n % 4 + (n % 4 + 1) = n + 1 := by omega
      rw [outsAt_B V c a hA hP ⟨n + 1, hn⟩ h0 j k, e1, e2, Finset.sum_range_succ, e3]
      exact congrArg (· + tileN a (n + 1) j k) ih

/-- After a half's last tile the accumulator holds the half's sum. -/
theorem last (c : Dev nD) (a : Cert.Spec.Arr)
    (hA : (V c main_arg0 : S4096x750.Idx → EReal) = a)
    (hP : ∀ (b : Fin 4096) (k : Fin 761), (V c main_v6 : S4096x761.Idx → EReal) (ix2 b k) = Cert.Spec.pad a b k)
    (t : Fin cfg0.N) (h3 : t.val % 4 = 3) (j : Fin 11) (i : Fin 750) :
    (outsAt0 V c t.val t.isLt : S1x11x750.Idx → EReal) (ix3 (0 : Fin 1) j i)
      = Cert.Spec.halfSq a ⟨t.val / 4, by have := lt_of_lt_of_eq t.isLt (show cfg0.N = 8 from N_0); omega⟩ j i := by
  have ht : t.val < 8 := lt_of_lt_of_eq t.isLt (show cfg0.N = 8 from N_0)
  rw [outsAt_eq V c a hA hP j i t.val t.isLt, h3, Finset.sum_range]
  unfold Cert.Spec.halfSq tileN
  refine Finset.sum_congr rfl fun s _ => Finset.sum_congr rfl fun r _ => ?_
  refine congrArg (fun b => Cert.Spec.sqd a b i j) (Fin.ext ?_)
  show ((t.val - 3 + s.val) * 512 + r.val) % 4096 = (t.val / 4 * 4 + s.val) * 512 + r.val
  have := s.isLt; have := r.isLt
  omega

end

/-! ## The array -/

/-- The first pass's result array holds each half's sum of squared window differences. -/
theorem arr0 (V : (c : Dev nD) → (b : Ref sig .tc) → Buf (Elt Ideal) ((c : Thread nD τ).loc b)) (c : Dev nD) (a : Cert.Spec.Arr)
    (hA : (V c main_arg0 : S4096x750.Idx → EReal) = a)
    (hP : ∀ (b : Fin 4096) (k : Fin 761), (V c main_v6 : S4096x761.Idx → EReal) (ix2 b k) = Cert.Spec.pad a b k) :
    ∀ (c' : Fin 2) (j : Fin 11) (i : Fin 750),
      ((Cert.KernelIdeal.Fr.dat0 V c).arrAt 2 cfg0.N : S2x11x750.Idx → EReal) (ix3 c' j i) = Cert.Spec.halfSq a c' j i :=
  ArrOfBlocks.arr0_of_last V c (Cert.Spec.halfSq a) (fun t h3 j i => last V c a hA hP t h3 j i)

end Cert.KernelIdeal.Val0

end
-- ==== Proof.KernelIdeal.Val1L.lean ====
/-
  The second pass's first result array, read as the specification's half sums of absolute window differences.

  The pass runs over eight tiles of 512 rows, four per half. Its accumulator block `[1, 11, 750]` is carried across the
  four tiles of a half: at the half's first tile the body stores zeros to it, and at every tile, for each offset
  `j = 0 … 10`, it reads row `j` of the block, adds the column sums over the tile's rows `r` of
  `|a₂[r, i] − pad(a₂)[r, i + j]|`, and stores the row back. So one tile maps the block `xo` to
  `step x₁ x₂ xo = fun (0, j, i) => xo (0, j, i) + ∑ r, |x₁[r, i] − x₂[r, i + j]|` of its two input blocks, the reset tile
  to the step of the zero block; after the fourth tile of a half the block is the sum of the four tiles' terms, which is
  the half's sum over its 2048 rows, and that is what is written back to row `c'` of the result array.

  The accumulate case has eleven stores to disjoint rows, each the step's row of what the body loaded, so together
  they read back as the step. In the reset case each row's load reads the stores before it; row by row the zero block
  is stepped (`upTo n`: the first `n` rows stepped, the others zero).
-/
import proofs.«125402_j3959959847206_1_alg».proof.Proof.KernelIdeal.Frame1
import proofs.«125402_j3959959847206_1_alg».proof.Proof.Spec
import proofs.«125402_j3959959847206_1_alg».proof.Proof.KernelIdeal.BlockRead
import proofs.«125402_j3959959847206_1_alg».proof.Proof.KernelIdeal.ArrOfBlocks
import Idealize.ShloMosaic.Lib.Pipeline.Value
import Idealize.ShloMosaic.PureOps.Ideal.Laws
import Idealize.ShloMosaic.Lib.ValueIdx
import Idealize.ShloMosaic.Lib.ValueLayout

set_option maxRecDepth 16384

noncomputable section

namespace Cert.KernelIdeal.Val1L

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open scoped BigOperators

variable {F : FTy → Type} [FloatOps F]

/-- The absolute difference of two extended reals, as the ideal instance spells an absolute value. -/
abbrev ad (x y : EReal) : EReal := max (x - y) (-(x - y))

/-- Column `i + j` of a padded row. -/
abbrev sh (i : Fin 750) (j : Fin 11) : Fin 761 := ⟨i.val + j.val, by have := i.isLt; have := j.isLt; omega⟩

/-- One tile's term at offset `j`, column `i`: the sum over the tile's 512 rows of the absolute differences of
    the row's entry in column `i` and the padded row's entry in column `i + j`. -/
def tileAb (x1 : Vec Ideal S512x750 .f32) (x2 : Vec Ideal S512x761 .f32) (j : Fin 11) (i : Fin 750) : EReal :=
  ∑ r : Fin 512, ad (x1 (ix2 r i)) (x2 (ix2 r (sh i j)))

/-- The accumulator block after a tile, from the block before it: every entry `(0, j, i)` gains the tile's term. -/
def step (x1 : Vec Ideal S512x750 .f32) (x2 : Vec Ideal S512x761 .f32) (xo : Vec Ideal S1x11x750 .f32) :
    Vec Ideal S1x11x750 .f32 :=
  fun y => xo y + tileAb x1 x2 ⟨(y 1).val, (y 1).isLt⟩ ⟨(y 2).val, (y 2).isLt⟩

theorem step_apply (x1 : Vec Ideal S512x750 .f32) (x2 : Vec Ideal S512x761 .f32) (xo : Vec Ideal S1x11x750 .f32)
    (j : Fin 11) (i : Fin 750) :
    step x1 x2 xo (ix3 (0 : Fin 1) j i) = xo (ix3 (0 : Fin 1) j i) + tileAb x1 x2 j i := rfl

/-- One row's stored value at the ideal instance, at column `i`: the row as it was read, plus the sum over the
    512 rows of the tile of the absolute differences of the two operands in that column. -/
theorem rowPay_apply (v4 vs : Vec Ideal S512x750 .f32) (vr : Vec Ideal S1x1x750 .f32) (i : Fin 750) :
    k1_pay5 (F := Ideal) v4 vs vr (ix3 (0 : Fin 1) (0 : Fin 1) i)
      = vr (ix3 (0 : Fin 1) (0 : Fin 1) i) + ∑ r : Fin 512, ad (v4 (ix2 r i)) (vs (ix2 r i)) := by
  unfold k1_pay5
  refine (shapeCast_apply _ _ (ix3 (0 : Fin 1) (0 : Fin 1) i) (ix2 (0 : Fin 1) i) ?_).trans ?_
  · rw [Shape.rowMajor_val_two, Shape.rowMajor_val_three]; rfl
  refine congrArg₂ (· + ·) ?_ ?_
  · exact shapeCast_apply _ _ (ix2 (0 : Fin 1) i) (ix3 (0 : Fin 1) (0 : Fin 1) i) (by rw [Shape.rowMajor_val_two, Shape.rowMajor_val_three]; rfl)
  · refine (shapeCast_apply _ _ (ix2 (0 : Fin 1) i) (ix1 i) ?_).trans ?_
    · rw [Shape.rowMajor_val_two, Shape.rowMajor_val_one]; show i.val = 0 * 750 + i.val; omega
    refine (Ideal.multiReduction_add_single _ 0x00000000#32 reduces_S512x750_S750 _ _ (ix1 i)).trans ?_
    show ∑ r : Fin 512, _ = _
    refine Finset.sum_congr rfl fun r _ => ?_
    have hl : reduces_S512x750_S750.lift (ix1 i) r = ix2 r i :=
      funext fun a => Fin.ext (by match a with | ⟨0, _⟩ => rfl | ⟨1, _⟩ => rfl)
    rw [shapeCast_self]
    show ad (v4 (reduces_S512x750_S750.lift (ix1 i) r)) (vs (reduces_S512x750_S750.lift (ix1 i) r)) = _
    rw [hl]

/-- The eleven row stores compute one function of their three loads, spelt in four ways by the printed body. -/
theorem pay6_eq (v4 a : Vec F S512x750 .f32) (b : Vec F S1x1x750 .f32) : k1_pay6 v4 a b = k1_pay5 v4 a b := rfl
theorem pay7_eq (v4 a : Vec F S512x750 .f32) (b : Vec F S1x1x750 .f32) : k1_pay7 v4 a b = k1_pay5 v4 a b := rfl
theorem pay8_eq (v4 a : Vec F S512x750 .f32) (b : Vec F S1x1x750 .f32) : k1_pay8 v4 a b = k1_pay5 v4 a b := rfl
theorem pay10_eq (v4 a : Vec F S512x750 .f32) (b : Vec F S1x1x750 .f32) : k1_pay10 (k1_pay9 v4 a b) = k1_pay5 v4 a b := rfl
theorem pay11_eq (v4 a : Vec F S512x750 .f32) (b : Vec F S1x1x750 .f32) : k1_pay11 v4 a b = k1_pay5 v4 a b := rfl
theorem pay12_eq (v4 a : Vec F S512x750 .f32) (b : Vec F S1x1x750 .f32) : k1_pay12 v4 a b = k1_pay5 v4 a b := rfl
theorem pay14_eq (v4 a : Vec F S512x750 .f32) (b : Vec F S1x1x750 .f32) : k1_pay14 (k1_pay13 v4 a) b = k1_pay5 v4 a b := rfl
theorem pay15_eq (v4 a : Vec F S512x750 .f32) (b : Vec F S1x1x750 .f32) : k1_pay15 v4 a b = k1_pay5 v4 a b := rfl
theorem pay16_eq (v4 a : Vec F S512x750 .f32) (b : Vec F S1x1x750 .f32) : k1_pay16 v4 a b = k1_pay5 v4 a b := rfl
theorem pay1_eq (v4 a : Vec F S512x750 .f32) (b : Vec F S1x1x750 .f32) : k1_pay1 (k1_pay17 v4 a) b = k1_pay5 v4 a b := rfl

/-- The piece a row store leaves, read where its rectangle puts it: row `k` of the block, stored from the whole
    first operand, the second operand's columns `k … k + 749` and row `k` of the block before, is the step's row `k`. -/
theorem row_piece (x1 : Vec Ideal S512x750 .f32) (x2 : Vec Ideal S512x761 .f32) (xo : Vec Ideal S1x11x750 .f32)
    (k : Fin 11) (off3 : Fin 3 → ℕ) (off2 : Fin 2 → ℕ) (h3 : off3 = ![0, k.val, 0]) (h2 : off2 = ![0, k.val])
    (inb3 : ∀ a, off3 a + S1x1x750.size a ≤ S1x11x750.size a) (inb2 : ∀ a, off2 a + S512x750.size a ≤ S512x761.size a)
    (inb0 : ∀ a, (![0, 0] : Fin 2 → ℕ) a + S512x750.size a ≤ S512x750.size a) (x : S1x1x750.Idx) :
    k1_pay5 (F := Ideal) (View.ld x1 (Rect.unit ![0, 0] S512x750.size inb0)) (View.ld x2 (Rect.unit off2 S512x750.size inb2))
        (View.ld xo (Rect.unit off3 S1x1x750.size inb3)) x
      = step x1 x2 xo ((Rect.unit (s := S1x11x750) off3 S1x1x750.size inb3).emb x) := by
  subst h3 h2
  obtain ⟨a, b, i, rfl⟩ : ∃ (a : Fin 1) (b : Fin 1) (i : Fin 750), x = ix3 a b i := ⟨x 0, x 1, x 2, eq_ix3 x⟩
  obtain rfl : a = 0 := Subsingleton.elim _ _
  obtain rfl : b = 0 := Subsingleton.elim _ _
  refine (rowPay_apply _ _ _ i).trans ?_
  unfold step tileAb
  refine congrArg₂ (· + ·) rfl (Finset.sum_congr rfl fun r _ => ?_)
  refine congrArg₂ ad (congrArg x1 ?_) (congrArg x2 ?_)
  · funext a; apply Fin.ext
    match a with
    | ⟨0, _⟩ => show 0 + 1 * r.val = r.val; omega
    | ⟨1, _⟩ => show 0 + 1 * i.val = 0 + 1 * i.val; rfl
  · funext a; apply Fin.ext
    match a with
    | ⟨0, _⟩ => show 0 + 1 * r.val = r.val; omega
    | ⟨1, _⟩ => show k.val + 1 * i.val = (0 + 1 * i.val) + (k.val + 1 * 0); omega

/-- The accumulate case: the block the body leaves is the step of the block it found. Each of the eleven row
    stores is the step's row, so the stores together read back as the step. -/
theorem out_B (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : ¬cond1_0 i)
    (x0 x1 : Vec Ideal S512x750 .f32) (x2 : Vec Ideal S512x761 .f32) (xo3 : Vec Ideal S1x11x750 .f32) (xo4 : Vec Ideal S1x1x1 .f32) :
    out1_B_3 (F := Ideal) c i arg2 harg2 arg3 harg3 arg4 harg4 arg5 harg5 arg6 harg6 hc0 x0 x1 x2 xo3 xo4 = step x1 x2 xo3 := by
  unfold out1_B_3
  rw [View.read_writes_eq_canon _ _ _ (cover1_B_3 c i arg2 harg2 arg3 harg3 arg4 harg4 arg5 harg5 arg6 harg6 hc0 x0 x1 x2 xo3 xo4)]
  funext y
  refine View.canon_apply_of_pieces (step x1 x2 xo3) _ ?_ y (cover1_B_3 c i arg2 harg2 arg3 harg3 arg4 harg4 arg5 harg5 arg6 harg6 hc0 x0 x1 x2 xo3 xo4 y)
  unfold kernelRun1_B
  dsimp only
  sl_unfold_words
  simp only [View.readAt_eq_ld, harg3.read_unread, harg4.read_unread, harg5.read_unread, pay6_eq, pay7_eq, pay8_eq, pay10_eq,
    pay11_eq, pay12_eq, pay14_eq, pay15_eq, pay16_eq, pay1_eq]
  intro p hp x
  simp only [List.mem_cons, List.not_mem_nil, or_false] at hp
  rcases hp with rfl | rfl | rfl | rfl | rfl | rfl | rfl | rfl | rfl | rfl | rfl
  · exact row_piece x1 x2 xo3 10 _ _ rfl rfl _ _ _ x
  · exact row_piece x1 x2 xo3 9 _ _ rfl rfl _ _ _ x
  · exact row_piece x1 x2 xo3 8 _ _ rfl rfl _ _ _ x
  · exact row_piece x1 x2 xo3 7 _ _ rfl rfl _ _ _ x
  · exact row_piece x1 x2 xo3 6 _ _ rfl rfl _ _ _ x
  · exact row_piece x1 x2 xo3 5 _ _ rfl rfl _ _ _ x
  · exact row_piece x1 x2 xo3 4 _ _ rfl rfl _ _ _ x
  · exact row_piece x1 x2 xo3 3 _ _ rfl rfl _ _ _ x
  · exact row_piece x1 x2 xo3 2 _ _ rfl rfl _ _ _ x
  · exact row_piece x1 x2 xo3 1 _ _ rfl rfl _ _ _ x
  · exact row_piece x1 x2 xo3 0 _ _ rfl rfl _ _ _ x

theorem hz3 : (![0, 0, 0] : Fin 3 → Nat) = fun _ => 0 := funext fun a => by fin_cases a <;> rfl

/-- After a row store whose third operand is the block so far read back at its row, the block is the step of the
    block so far on that row and unchanged elsewhere. -/
theorem canon_row (x1 : Vec Ideal S512x750 .f32) (x2 : Vec Ideal S512x761 .f32) (v : View sig .tc .vmem S1x11x750 .f32)
    (H : List (View.Piece (Elt Ideal) S1x11x750 .f32)) (n : ℕ) (hn : n < 11)
    (off3 : Fin 3 → ℕ) (off2 : Fin 2 → ℕ) (h3 : off3 = ![0, n, 0]) (h2 : off2 = ![0, n])
    (inb3 : ∀ a, off3 a + S1x1x750.size a ≤ S1x11x750.size a) (inb2 : ∀ a, off2 a + S512x750.size a ≤ S512x761.size a)
    (inb0 : ∀ a, (![0, 0] : Fin 2 → ℕ) a + S512x750.size a ≤ S512x750.size a) (y : S1x11x750.Idx) :
    View.canon ((⟨Rect.unit (s := S1x11x750) off3 S1x1x750.size inb3,
        k1_pay5 (F := Ideal) (View.ld x1 (Rect.unit ![0, 0] S512x750.size inb0)) (View.ld x2 (Rect.unit off2 S512x750.size inb2))
          (v.readCov H (Rect.unit (s := S1x11x750) off3 S1x1x750.size inb3).toLoadRect)⟩ : View.Piece (Elt Ideal) S1x11x750 .f32) :: H) y
      = if (y 1).val = n then step x1 x2 (View.canon H) y else View.canon H y := by
  have hy0 : (y 0).val < 1 := (y 0).isLt
  by_cases hy : (y 1).val = n
  · rw [if_pos hy]
    have he : y = (Rect.unit (s := S1x11x750) off3 S1x1x750.size inb3).emb (ix3 (0 : Fin 1) (0 : Fin 1) (⟨(y 2).val, (y 2).isLt⟩ : Fin 750)) := by
      subst h3; funext a; apply Fin.ext
      match a with
      | ⟨0, _⟩ => show (y 0).val = 0 + 1 * 0; omega
      | ⟨1, _⟩ => show (y 1).val = n + 1 * 0; omega
      | ⟨2, _⟩ => show (y 2).val = 0 + 1 * (y 2).val; omega
    rw [he, View.canon_cons_emb, View.readCov_eq_canon']
    exact row_piece x1 x2 (View.canon H) ⟨n, hn⟩ off3 off2 h3 h2 inb3 inb2 inb0 _
  · rw [if_neg hy]
    refine View.canon_cons_of_not_mem _ _ ?_
    subst h3
    show y ∉ (Rect.unit (s := S1x11x750) ![0, n, 0] S1x1x750.size inb3).set
    rw [Rect.mem_set_unit]
    intro h
    have h1 := h 1
    have e1 : (![0, n, 0] : Fin 3 → ℕ) 1 = n := rfl
    have e2 : S1x1x750.size 1 = 1 := rfl
    rw [e1, e2] at h1
    omega

/-- The zero block with its first `n` rows stepped. -/
def upTo (x1 : Vec Ideal S512x750 .f32) (x2 : Vec Ideal S512x761 .f32) (n : ℕ) : Vec Ideal S1x11x750 .f32 :=
  fun y => if (y 1).val < n then step x1 x2 (fun _ => 0) y else 0

/-- One more row store steps one more row. -/
theorem upTo_succ (x1 : Vec Ideal S512x750 .f32) (x2 : Vec Ideal S512x761 .f32) (v : View sig .tc .vmem S1x11x750 .f32)
    (H : List (View.Piece (Elt Ideal) S1x11x750 .f32)) (n : ℕ) (hn : n < 11) (hH : View.canon H = upTo x1 x2 n)
    (off3 : Fin 3 → ℕ) (off2 : Fin 2 → ℕ) (h3 : off3 = ![0, n, 0]) (h2 : off2 = ![0, n])
    (inb3 : ∀ a, off3 a + S1x1x750.size a ≤ S1x11x750.size a) (inb2 : ∀ a, off2 a + S512x750.size a ≤ S512x761.size a)
    (inb0 : ∀ a, (![0, 0] : Fin 2 → ℕ) a + S512x750.size a ≤ S512x750.size a) :
    View.canon ((⟨Rect.unit (s := S1x11x750) off3 S1x1x750.size inb3,
        k1_pay5 (F := Ideal) (View.ld x1 (Rect.unit ![0, 0] S512x750.size inb0)) (View.ld x2 (Rect.unit off2 S512x750.size inb2))
          (v.readCov H (Rect.unit (s := S1x11x750) off3 S1x1x750.size inb3).toLoadRect)⟩ : View.Piece (Elt Ideal) S1x11x750 .f32) :: H)
      = upTo x1 x2 (n + 1) := by
  funext y
  rw [canon_row x1 x2 v H n hn off3 off2 h3 h2 inb3 inb2 inb0 y, hH]
  unfold upTo
  by_cases hy : (y 1).val = n
  · rw [if_pos hy, if_pos (show (y 1).val < n + 1 by omega)]
    unfold step
    show (if (y 1).val < n then _ else (0 : EReal)) + _ = _
    rw [if_neg (show ¬(y 1).val < n by omega)]
  · rw [if_neg hy]
    by_cases h' : (y 1).val < n
    · rw [if_pos h', if_pos (show (y 1).val < n + 1 by omega)]
    · rw [if_neg h', if_neg (show ¬(y 1).val < n + 1 by omega)]

/-- The reset case: the block the body leaves is the step of the zero block. The zero store is read back by the
    first row's load, and each later row's load reads the stores before it: row by row the zero block is stepped. -/
theorem out_A (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : cond1_0 i)
    (x0 x1 : Vec Ideal S512x750 .f32) (x2 : Vec Ideal S512x761 .f32) :
    out1_A_3 (F := Ideal) c i arg2 harg2 arg3 harg3 arg4 harg4 arg5 harg5 arg6 harg6 hc0 x0 x1 x2 = step x1 x2 (fun _ => 0) := by
  unfold out1_A_3
  rw [View.read_writes_eq_canon _ _ _ (cover1_A_3 c i arg2 harg2 arg3 harg3 arg4 harg4 arg5 harg5 arg6 harg6 hc0 x0 x1 x2)]
  unfold kernelRun1_A
  dsimp only
  have h0 : View.canon (kernelRun1_A.sl.H3_1 (F := Ideal)) = upTo x1 x2 0 := by
    unfold kernelRun1_A.sl.H3_1
    rw [View.canon_unit_zero hz3]
    funext y
    unfold upTo
    rw [if_neg (Nat.not_lt_zero _)]
    exact Ideal.ofBits_zero_f32
  have h1 : View.canon (kernelRun1_A.sl.H3_2 (F := Ideal) c arg3 harg3 arg4 harg4 arg5 x1 x2) = upTo x1 x2 1 := by
    simp only [kernelRun1_A.sl.H3_2, kernelRun1_A.sl.v11, kernelRun1_A.sl.r_1, View.readAt_eq_ld, harg3.read_unread, harg4.read_unread]
    exact upTo_succ x1 x2 arg5.view _ 0 (by omega) h0 _ _ rfl rfl _ _ _
  have h2 : View.canon (kernelRun1_A.sl.H3_3 (F := Ideal) c arg3 harg3 arg4 harg4 arg5 x1 x2) = upTo x1 x2 2 := by
    simp only [kernelRun1_A.sl.H3_3, kernelRun1_A.sl.v23, kernelRun1_A.sl.r_1, View.readAt_eq_ld, harg3.read_unread, harg4.read_unread, pay6_eq]
    exact upTo_succ x1 x2 arg5.view _ 1 (by omega) h1 _ _ rfl rfl _ _ _
  have h3 : View.canon (kernelRun1_A.sl.H3_4 (F := Ideal) c arg3 harg3 arg4 harg4 arg5 x1 x2) = upTo x1 x2 3 := by
    simp only [kernelRun1_A.sl.H3_4, kernelRun1_A.sl.v35, kernelRun1_A.sl.r_1, View.readAt_eq_ld, harg3.read_unread, harg4.read_unread, pay7_eq]
    exact upTo_succ x1 x2 arg5.view _ 2 (by omega) h2 _ _ rfl rfl _ _ _
  have h4 : View.canon (kernelRun1_A.sl.H3_5 (F := Ideal) c arg3 harg3 arg4 harg4 arg5 x1 x2) = upTo x1 x2 4 := by
    simp only [kernelRun1_A.sl.H3_5, kernelRun1_A.sl.v47, kernelRun1_A.sl.r_1, View.readAt_eq_ld, harg3.read_unread, harg4.read_unread, pay8_eq]
    exact upTo_succ x1 x2 arg5.view _ 3 (by omega) h3 _ _ rfl rfl _ _ _
  have h5 : View.canon (kernelRun1_A.sl.H3_6 (F := Ideal) c arg3 harg3 arg4 harg4 arg5 x1 x2) = upTo x1 x2 5 := by
    simp only [kernelRun1_A.sl.H3_6, kernelRun1_A.sl.r_2, kernelRun1_A.sl.v59, kernelRun1_A.sl.r_1, View.readAt_eq_ld, harg3.read_unread, harg4.read_unread, pay10_eq]
    exact upTo_succ x1 x2 arg5.view _ 4 (by omega) h4 _ _ rfl rfl _ _ _
  have h6 : View.canon (kernelRun1_A.sl.H3_7 (F := Ideal) c arg3 harg3 arg4 harg4 arg5 x1 x2) = upTo x1 x2 6 := by
    simp only [kernelRun1_A.sl.H3_7, kernelRun1_A.sl.v71, kernelRun1_A.sl.r_1, View.readAt_eq_ld, harg3.read_unread, harg4.read_unread, pay11_eq]
    exact upTo_succ x1 x2 arg5.view _ 5 (by omega) h5 _ _ rfl rfl _ _ _
  have h7 : View.canon (kernelRun1_A.sl.H3_8 (F := Ideal) c arg3 harg3 arg4 harg4 arg5 x1 x2) = upTo x1 x2 7 := by
    simp only [kernelRun1_A.sl.H3_8, kernelRun1_A.sl.v83, kernelRun1_A.sl.r_1, View.readAt_eq_ld, harg3.read_unread, harg4.read_unread, pay12_eq]
    exact upTo_succ x1 x2 arg5.view _ 6 (by omega) h6 _ _ rfl rfl _ _ _
  have h8 : View.canon (kernelRun1_A.sl.H3_9 (F := Ideal) c arg3 harg3 arg4 harg4 arg5 x1 x2) = upTo x1 x2 8 := by
    simp only [kernelRun1_A.sl.H3_9, kernelRun1_A.sl.r_3, kernelRun1_A.sl.v95, kernelRun1_A.sl.r_1, View.readAt_eq_ld, harg3.read_unread, harg4.read_unread, pay14_eq]
    exact upTo_succ x1 x2 arg5.view _ 7 (by omega) h7 _ _ rfl rfl _ _ _
  have h9 : View.canon (kernelRun1_A.sl.H3_10 (F := Ideal) c arg3 harg3 arg4 harg4 arg5 x1 x2) = upTo x1 x2 9 := by
    simp only [kernelRun1_A.sl.H3_10, kernelRun1_A.sl.v107, kernelRun1_A.sl.r_1, View.readAt_eq_ld, harg3.read_unread, harg4.read_unread, pay15_eq]
    exact upTo_succ x1 x2 arg5.view _ 8 (by omega) h8 _ _ rfl rfl _ _ _
  have h10 : View.canon (kernelRun1_A.sl.H3_11 (F := Ideal) c arg3 harg3 arg4 harg4 arg5 x1 x2) = upTo x1 x2 10 := by
    simp only [kernelRun1_A.sl.H3_11, kernelRun1_A.sl.v119, kernelRun1_A.sl.r_1, View.readAt_eq_ld, harg3.read_unread, harg4.read_unread, pay16_eq]
    exact upTo_succ x1 x2 arg5.view _ 9 (by omega) h9 _ _ rfl rfl _ _ _
  simp only [kernelRun1_A.sl.r_4, kernelRun1_A.sl.v131, kernelRun1_A.sl.r_1, View.readAt_eq_ld, harg3.read_unread, harg4.read_unread, pay1_eq]
  refine (upTo_succ x1 x2 arg5.view _ 10 (by omega) h10 _ _ rfl rfl _ _ _).trans ?_
  funext y
  unfold upTo
  exact if_pos (y 1).isLt

section Points

variable (V : (c : Dev nD) → (b : Ref sig .tc) → Buf (Elt Idealize.ShloMosaic.Ideal) ((c : Thread nD τ).loc b)) (c : Dev nD)

/-- The three input blocks of the second pass at a point, at their literal types. -/
abbrev xb0 (t : Fin cfg1.N) : Vec Idealize.ShloMosaic.Ideal S512x750 .f32 := iblk1 V c 0 t
abbrev xb1 (t : Fin cfg1.N) : Vec Idealize.ShloMosaic.Ideal S512x750 .f32 := iblk1 V c 1 t
abbrev xb2 (t : Fin cfg1.N) : Vec Idealize.ShloMosaic.Ideal S512x761 .f32 := iblk1 V c 2 t

/-- At the first tile of a half the accumulator block is the tile's term. -/
theorem at_first (t : Fin cfg1.N) (h0 : t.val % 4 = 0) (j : Fin 11) (i : Fin 750) :
    ((outsAt1 V c t.val t.isLt).1 : S1x11x750.Idx → EReal) (ix3 (0 : Fin 1) j i) = tileAb (xb1 V c t) (xb2 V c t) j i := by
  rw [outsAt1_A V c t h0]
  dsimp only
  refine (congrFun (out_A c (grid1.coords t) (ms1_0 t) (hs1_0 t) (ms1_1 t) (hs1_1 t) (ms1_2 t) (hs1_2 t) (ms1_3 t) (hs1_3 t) (ms1_4 t) (hs1_4 t) ((hcond1_0 t).mpr h0) (xb0 V c t) (xb1 V c t) (xb2 V c t)) (ix3 (0 : Fin 1) j i)).trans ?_
  exact (step_apply _ _ _ j i).trans (zero_add _)

/-- At a later tile of a half the accumulator block gains the tile's term over the block of the point before. -/
theorem at_later (n n' : ℕ) (hn : n < cfg1.N) (hn' : n' < cfg1.N) (e : n = n' + 1) (h0 : ¬n % 4 = 0) (j : Fin 11) (i : Fin 750) :
    ((outsAt1 V c n hn).1 : S1x11x750.Idx → EReal) (ix3 (0 : Fin 1) j i)
      = ((outsAt1 V c n' hn').1 : S1x11x750.Idx → EReal) (ix3 (0 : Fin 1) j i) + tileAb (xb1 V c ⟨n, hn⟩) (xb2 V c ⟨n, hn⟩) j i := by
  subst e
  rw [outsAt1_B V c ⟨n' + 1, hn⟩ h0]
  dsimp only
  refine (congrFun (out_B c (grid1.coords ⟨n' + 1, hn⟩) (ms1_0 ⟨n' + 1, hn⟩) (hs1_0 ⟨n' + 1, hn⟩) (ms1_1 ⟨n' + 1, hn⟩) (hs1_1 ⟨n' + 1, hn⟩) (ms1_2 ⟨n' + 1, hn⟩) (hs1_2 ⟨n' + 1, hn⟩) (ms1_3 ⟨n' + 1, hn⟩) (hs1_3 ⟨n' + 1, hn⟩) (ms1_4 ⟨n' + 1, hn⟩) (hs1_4 ⟨n' + 1, hn⟩) (fun h => h0 ((hcond1_0 ⟨n' + 1, hn⟩).mp h))
    (xb0 V c ⟨n' + 1, hn⟩) (xb1 V c ⟨n' + 1, hn⟩) (xb2 V c ⟨n' + 1, hn⟩) (outsAt1 V c n' hn').1 (outsAt1 V c n' hn').2) (ix3 (0 : Fin 1) j i)).trans ?_
  exact step_apply _ _ _ j i

variable (a2 : Cert.Spec.Arr)
  (hA2 : (V c main_arg1 : S4096x750.Idx → EReal) = a2)
  (hP : ∀ (b : Fin 4096) (k : Fin 761), (V c main_v13 : S4096x761.Idx → EReal) (ix2 b k) = Cert.Spec.pad a2 b k)

include hA2 hP in
/-- A tile's term read off the arrays: the rows of tile `t` are rows `512 t … 512 t + 511`. -/
theorem tile_eq (t : Fin cfg1.N) (j : Fin 11) (i : Fin 750) :
    tileAb (xb1 V c t) (xb2 V c t) j i
      = ∑ r : Fin 512, Cert.Spec.abd a2 (⟨t.val * 512 + r.val, by have := lt_of_lt_of_eq t.isLt (show cfg1.N = 8 from N_1); have := r.isLt; omega⟩ : Fin 4096) i j := by
  unfold tileAb Cert.Spec.abd Cert.Spec.win
  refine Finset.sum_congr rfl fun r _ => ?_
  have e1 := (Cert.KernelIdeal.BlockRead.iblk1_1 V c t r i).trans (congrFun hA2 _)
  have e2 := (Cert.KernelIdeal.BlockRead.iblk1_2 V c t r (sh i j)).trans (hP _ _)
  show ad ((iblk1 V c 1 t : S512x750.Idx → EReal) (ix2 r i)) ((iblk1 V c 2 t : S512x761.Idx → EReal) (ix2 r (sh i j))) = _
  rw [e1, e2]

include hA2 hP in
/-- After a half's last tile the accumulator block is the half's sum. -/
theorem hlast (t : Fin cfg1.N) (h3 : t.val % 4 = 3) (j : Fin 11) (i : Fin 750) :
    ((outsAt1 V c t.val t.isLt).1 : S1x11x750.Idx → EReal) (ix3 (0 : Fin 1) j i)
      = Cert.Spec.halfAb a2 ⟨t.val / 4, by have := lt_of_lt_of_eq t.isLt (show cfg1.N = 8 from N_1); omega⟩ j i := by
  have hN : t.val < 8 := lt_of_lt_of_eq t.isLt (show cfg1.N = 8 from N_1)
  obtain ⟨n, hn⟩ := t
  dsimp only at h3 hN ⊢
  have h37 : n = 3 ∨ n = 7 := by omega
  have hN8 : cfg1.N = 8 := N_1
  rcases h37 with rfl | rfl
  · rw [at_later V c 3 2 hn (by omega) rfl (by decide) j i, at_later V c 2 1 (by omega) (by omega) rfl (by decide) j i,
      at_later V c 1 0 (by omega) (by omega) rfl (by decide) j i, at_first V c ⟨0, by omega⟩ (Nat.zero_mod 4) j i]
    simp only [tile_eq V c a2 hA2 hP]
    unfold Cert.Spec.halfAb
    rw [Fin.sum_univ_four]
    rfl
  · rw [at_later V c 7 6 hn (by omega) rfl (by decide) j i, at_later V c 6 5 (by omega) (by omega) rfl (by decide) j i,
      at_later V c 5 4 (by omega) (by omega) rfl (by decide) j i, at_first V c ⟨4, by omega⟩ (Nat.mod_self 4) j i]
    simp only [tile_eq V c a2 hA2 hP]
    unfold Cert.Spec.halfAb
    rw [Fin.sum_univ_four]
    rfl

end Points

/-- The second pass's first result array is, half by half, the sum over the half's rows of the absolute window
    differences of the second argument. -/
theorem arr1_3 (V : (c : Dev nD) → (b : Ref sig .tc) → Buf (Elt Idealize.ShloMosaic.Ideal) ((c : Thread nD τ).loc b)) (c : Dev nD) (a2 : Cert.Spec.Arr)
    (hA2 : (V c main_arg1 : S4096x750.Idx → EReal) = a2)
    (hP : ∀ (b : Fin 4096) (k : Fin 761), (V c main_v13 : S4096x761.Idx → EReal) (ix2 b k) = Cert.Spec.pad a2 b k) :
    ∀ (c' : Fin 2) (j : Fin 11) (i : Fin 750),
      ((Cert.KernelIdeal.Fr.dat1 V c).arrAt 3 cfg1.N : S2x11x750.Idx → EReal) (ix3 c' j i) = Cert.Spec.halfAb a2 c' j i :=
  Cert.KernelIdeal.ArrOfBlocks.arr1_3_of_last V c (Cert.Spec.halfAb a2) (hlast V c a2 hA2 hP)

end Cert.KernelIdeal.Val1L

end
-- ==== Proof.KernelIdeal.Val1R.lean ====
/-
  The residual accumulator of the second pass: what the array of the two halves' residual sums holds after the run.

  At each of the eight points the body adds to the accumulator's one entry the tile's sum of squared residuals
  (the row sums of `(x₀ − x₁)²` over the 750 columns, summed over the tile's 512 rows); at the first tile of a half
  it first stores zero there. So after the fourth tile of a half the entry is the sum of the four tiles' sums, and a
  tile's blocks are rows `512 t … 512 t + 511` of the two argument arrays: the half's sum of squared residuals over its
  2048 rows, which is what is written back to the half's place in the result.
-/
import proofs.«125402_j3959959847206_1_alg».proof.Proof.KernelIdeal.Frame1
import proofs.«125402_j3959959847206_1_alg».proof.Proof.KernelIdeal.BlockRead
import proofs.«125402_j3959959847206_1_alg».proof.Proof.KernelIdeal.ArrOfBlocks
import proofs.«125402_j3959959847206_1_alg».proof.Proof.Spec
import Idealize.ShloMosaic.Lib.Pipeline.Value
import Idealize.ShloMosaic.PureOps.Ideal.Laws
import Idealize.ShloMosaic.Lib.ValueLayout
import Idealize.ShloMosaic.Lib.Tactic

set_option maxRecDepth 16384

noncomputable section

namespace Cert.KernelIdeal.Val1R

open Cert.KernelIdeal Cert.KernelIdeal.Gen Cert.KernelIdeal.Fr
open Idealize.ShloMosaic Idealize.ShloMosaic.TcCoe Idealize.ShloMosaic.Tactic Idealize.ShloMosaic.ValueIdx
open Idealize.SL Idealize.SL.Sem
open Idealize.ShloMosaic.Pipeline (Dat Cfg Window)

section Pieces
variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulate case leaves in the residual block the payload of its one store, over the two input
    blocks and the block the tile before left. -/
theorem out_B_4 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : ¬cond1_0 i) (x0 : Vec F S512x750 .f32) (x1 : Vec F S512x750 .f32) (x2 : Vec F S512x761 .f32) (xo3 : Vec F S1x11x750 .f32) (xo4 : Vec F S1x1x1 .f32) :
    out1_B_4 c i arg2 harg2 arg3 harg3 arg4 harg4 arg5 harg5 arg6 harg6 hc0 x0 x1 x2 xo3 xo4 = k1_pay2 x0 x1 xo4 := by
  unfold out1_B_4
  rw [View.read_writes_eq_canon _ _ _ (cover1_B_4 c i arg2 harg2 arg3 harg3 arg4 harg4 arg5 harg5 arg6 harg6 hc0 x0 x1 x2 xo3 xo4)]
  unfold kernelRun1_B
  dsimp only
  sl_unfold_words
  rw [View.canon_unit_zero hz3]
  simp only [View.readAt_eq_ld, harg2.read_unread, harg3.read_unread, harg6.read_unread, View.ld_unit_zero (S := S512x750) hz2, View.ld_unit_zero (S := S1x1x1) hz3]

/-- The reset case leaves the same payload over the zero block its first store wrote. -/
theorem out_A_4 (c : Dev nD) (i : grid1.Coords) (arg2 : Memref sig .tc .vmem S512x750 .f32) (harg2 : arg2.IsWhole) (arg3 : Memref sig .tc .vmem S512x750 .f32) (harg3 : arg3.IsWhole) (arg4 : Memref sig .tc .vmem S512x761 .f32) (harg4 : arg4.IsWhole) (arg5 : Memref sig .tc .vmem S1x11x750 .f32) (harg5 : arg5.IsWhole) (arg6 : Memref sig .tc .vmem S1x1x1 .f32) (harg6 : arg6.IsWhole) (hc0 : cond1_0 i) (x0 : Vec F S512x750 .f32) (x1 : Vec F S512x750 .f32) (x2 : Vec F S512x761 .f32) :
    out1_A_4 c i arg2 harg2 arg3 harg3 arg4 harg4 arg5 harg5 arg6 harg6 hc0 x0 x1 x2 = k1_pay2 x0 x1 (k1_pay4 (F := F)) := by
  unfold out1_A_4
  rw [View.read_writes_eq_canon _ _ _ (cover1_A_4 c i arg2 harg2 arg3 harg3 arg4 harg4 arg5 harg5 arg6 harg6 hc0 x0 x1 x2)]
  unfold kernelRun1_A
  dsimp only
  sl_unfold_words
  rw [View.canon_cons_unit_zero (S := S1x1x1) hz3, View.readCov_unit_zero (S := S1x1x1) _ hz3]
  simp only [View.readAt_eq_ld, harg2.read_unread, harg3.read_unread, View.ld_unit_zero (S := S512x750) hz2, View.ld_unit_zero (S := S1x1x1) hz3]

end Pieces

/-! ## The payload at the ideal values -/

section Pay

/-- A vector of `a` entries cast to a column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A tile's sum of squared differences of two blocks of 512 rows. -/
def tile (x0 x1 : S512x750.Idx → EReal) : EReal :=
  ∑ r : Fin 512, ∑ i : Fin 750, (x0 (ix2 r i) - x1 (ix2 r i)) * (x0 (ix2 r i) - x1 (ix2 r i))

theorem pay2_apply (x0 x1 : Vec Ideal S512x750 .f32) (xo : Vec Ideal S1x1x1 .f32) :
    (k1_pay2 x0 x1 xo : S1x1x1.Idx → EReal) (ix3 (0 : Fin 1) (0 : Fin 1) (0 : Fin 1)) = (xo (ix3 (0 : Fin 1) (0 : Fin 1) (0 : Fin 1)) : EReal) + tile x0 x1 := by
  unfold k1_pay2
  refine (shapeCast_ab_1ab_apply _ _ (0 : Fin 1) (0 : Fin 1) (0 : Fin 1)).trans ?_
  refine congrArg₂ (· + ·) (shapeCast_1ab_ab_apply _ _ (0 : Fin 1) (0 : Fin 1)) ?_
  refine (shapeCast_a_1a_apply _ _ (0 : Fin 1) (0 : Fin 1)).trans ?_
  refine (Ideal.multiReduction_add_single _ 0x00000000#32 _ _ _ (ix1 (0 : Fin 1))).trans ?_
  unfold tile
  refine Finset.sum_congr rfl fun r _ => ?_
  have hl : reduces_S512x1_S1.lift (ix1 (0 : Fin 1)) r = ix2 (r : Fin 512) (0 : Fin 1) := by
    funext a; apply Fin.ext
    match a with
    | ⟨0, _⟩ => rfl
    | ⟨1, _⟩ => rfl
  refine (congrArg _ hl).trans ?_
  refine (shapeCast_a_a1_apply _ _ (r : Fin 512) (0 : Fin 1)).trans ?_
  refine (Ideal.multiReduction_add_single _ 0x00000000#32 _ _ _ (ix1 (r : Fin 512))).trans ?_
  refine Finset.sum_congr rfl fun i _ => ?_
  have hl2 : reduces_S512x750_S512.lift (ix1 (r : Fin 512)) i = ix2 (r : Fin 512) (i : Fin 750) := by
    funext a; apply Fin.ext
    match a with
    | ⟨0, _⟩ => rfl
    | ⟨1, _⟩ => rfl
  refine (congrArg _ hl2).trans ?_
  rfl

theorem pay4_apply : ((k1_pay4 (F := Ideal)) : S1x1x1.Idx → EReal) (ix3 (0 : Fin 1) (0 : Fin 1) (0 : Fin 1)) = 0 := by
  unfold k1_pay4
  refine (shapeCast_ab_1ab_apply _ _ (0 : Fin 1) (0 : Fin 1) (0 : Fin 1)).trans ?_
  show Ideal.ofBits .f32 0x00000000#32 = 0
  simp [Ideal.ofBits, Ideal.ieee]

end Pay

/-! ## The residual accumulator after each point -/

section Induction

variable (V : (c : Dev nD) → (b : Ref sig .tc) → Buf (Elt Idealize.ShloMosaic.Ideal) ((c : Thread nD τ).loc b)) (c : Dev nD)

/-- The three input blocks at a point, at their literal types. -/
abbrev xb0 (t : Fin cfg1.N) : Vec Idealize.ShloMosaic.Ideal S512x750 .f32 := iblk1 V c 0 t
abbrev xb1 (t : Fin cfg1.N) : Vec Idealize.ShloMosaic.Ideal S512x750 .f32 := iblk1 V c 1 t
abbrev xb2 (t : Fin cfg1.N) : Vec Idealize.ShloMosaic.Ideal S512x761 .f32 := iblk1 V c 2 t

/-- The residual accumulator's one entry after point `n`. -/
def accv (n : ℕ) (hn : n < cfg1.N) : EReal :=
  ((outsAt1 V c n hn).2 : S1x1x1.Idx → EReal) (ix3 (0 : Fin 1) (0 : Fin 1) (0 : Fin 1))

/-- Point `t`'s addend: its tile's sum of squared residuals. -/
def T (t : Fin cfg1.N) : EReal := tile (xb0 V c t) (xb1 V c t)

/-- At the first tile of a half the accumulator is that tile's sum. -/
theorem accv_A (t : Fin cfg1.N) (h0 : t.val % 4 = 0) : accv V c t.val t.isLt = T V c t := by
  unfold accv
  rw [outsAt1_A V c t h0]
  dsimp only
  refine (congrFun (out_A_4 (F := Idealize.ShloMosaic.Ideal) c (grid1.coords t) (ms1_0 t) (hs1_0 t) (ms1_1 t) (hs1_1 t) (ms1_2 t) (hs1_2 t) (ms1_3 t) (hs1_3 t) (ms1_4 t) (hs1_4 t) ((hcond1_0 t).mpr h0) (xb0 V c t) (xb1 V c t) (xb2 V c t)) (ix3 (0 : Fin 1) (0 : Fin 1) (0 : Fin 1))).trans ?_
  refine (pay2_apply (xb0 V c t) (xb1 V c t) (k1_pay4 (F := Idealize.ShloMosaic.Ideal))).trans ?_
  rw [pay4_apply, zero_add]
  rfl

/-- At a later tile it is what the tile before left plus this tile's sum. -/
theorem accv_B (t : Fin cfg1.N) (h0 : ¬t.val % 4 = 0) :
    accv V c t.val t.isLt = accv V c (t.val - 1) (Nat.lt_of_le_of_lt (Nat.sub_le _ _) t.isLt) + T V c t := by
  unfold accv
  rw [outsAt1_B V c t h0]
  dsimp only
  refine (congrFun (out_B_4 (F := Idealize.ShloMosaic.Ideal) c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (xb0 V c t) (xb1 V c t) (xb2 V c t) (outsAt1 V c (t.val - 1) (Nat.lt_of_le_of_lt (Nat.sub_le _ _) t.isLt)).1 (outsAt1 V c (t.val - 1) (Nat.lt_of_le_of_lt (Nat.sub_le _ _) t.isLt)).2) (ix3 (0 : Fin 1) (0 : Fin 1) (0 : Fin 1))).trans ?_
  exact pay2_apply (xb0 V c t) (xb1 V c t) (outsAt1 V c (t.val - 1) (Nat.lt_of_le_of_lt (Nat.sub_le _ _) t.isLt)).2

end Induction

/-! ## The run of a half's four tiles, and the tiles in the specification's terms -/

section Final

variable (V : (c : Dev nD) → (b : Ref sig .tc) → Buf (Elt Idealize.ShloMosaic.Ideal) ((c : Thread nD τ).loc b)) (c : Dev nD)

theorem accv_succ (n : ℕ) (h : n + 1 < cfg1.N) (h0 : ¬(n + 1) % 4 = 0) :
    accv V c (n + 1) h = accv V c n (Nat.lt_of_succ_lt h) + T V c ⟨n + 1, h⟩ :=
  accv_B V c ⟨n + 1, h⟩ h0

/-- After the fourth tile of a half the accumulator is the sum of the four tiles' sums. -/
theorem accv_run (n : ℕ) (hn : n % 4 = 0) (h : n + 1 + 1 + 1 < cfg1.N) :
    accv V c (n + 1 + 1 + 1) h
      = T V c ⟨n, by omega⟩ + T V c ⟨n + 1, by omega⟩ + T V c ⟨n + 1 + 1, by omega⟩ + T V c ⟨n + 1 + 1 + 1, h⟩ := by
  rw [accv_succ V c (n + 1 + 1) h (by omega), accv_succ V c (n + 1) (by omega) (by omega), accv_succ V c n (by omega) (by omega),
    accv_A V c ⟨n, by omega⟩ hn]

variable (a a2 : Cert.Spec.Arr)
  (hA : (V c main_arg0 : S4096x750.Idx → EReal) = a) (hA2 : (V c main_arg1 : S4096x750.Idx → EReal) = a2)
include hA hA2

/-- A tile's sum is the specification's sum of squared residuals over that tile's rows. -/
theorem T_eq (c' : Fin 2) (s : Fin 4) (t : Fin cfg1.N) (ht : t.val = c'.val * 4 + s.val) :
    T V c t = ∑ r : Fin 512, ∑ i : Fin 750, Cert.Spec.rsq a a2 (Cert.Spec.row c' s r) i := by
  unfold T tile
  refine Finset.sum_congr rfl fun r _ => Finset.sum_congr rfl fun i _ => ?_
  have hrow : (⟨t.val * 512 + r.val, by have := lt_of_lt_of_eq t.isLt (show cfg1.N = 8 from N_1); have := r.isLt; omega⟩ : Fin 4096) = Cert.Spec.row c' s r :=
    Fin.ext (by show t.val * 512 + r.val = (c'.val * 4 + s.val) * 512 + r.val; rw [ht])
  have e0 : (xb0 V c t) (ix2 r i) = a (ix2 (Cert.Spec.row c' s r) i) :=
    (BlockRead.iblk1_0 V c t r i).trans ((congrFun hA _).trans (congrArg (fun b => a (ix2 b i)) hrow))
  have e1 : (xb1 V c t) (ix2 r i) = a2 (ix2 (Cert.Spec.row c' s r) i) :=
    (BlockRead.iblk1_1 V c t r i).trans ((congrFun hA2 _).trans (congrArg (fun b => a2 (ix2 b i)) hrow))
  rw [e0, e1]
  rfl

/-- What the accumulator holds at a half's last tile: the specification's half sum. -/
theorem last_eq (t : Fin cfg1.N) (h3 : t.val % 4 = 3) :
    ((outsAt1 V c t.val t.isLt).2 : S1x1x1.Idx → EReal) (ix3 (0 : Fin 1) (0 : Fin 1) (0 : Fin 1))
      = Cert.Spec.halfRes a a2 ⟨t.val / 4, by have := lt_of_lt_of_eq t.isLt (show cfg1.N = 8 from N_1); omega⟩ := by
  have hN : cfg1.N = 8 := N_1
  obtain ⟨tv, htv⟩ := t
  obtain ⟨n, rfl⟩ : ∃ n, tv = n + 1 + 1 + 1 := ⟨tv - 3, by dsimp only at h3; omega⟩
  dsimp only at h3 ⊢
  have hn : n % 4 = 0 := by omega
  have hlt : n + 1 + 1 + 1 < 8 := by omega
  refine (accv_run V c n hn htv).trans ?_
  unfold Cert.Spec.halfRes
  rw [Fin.sum_univ_four]
  rw [T_eq V c a a2 hA hA2 ⟨(n + 1 + 1 + 1) / 4, by omega⟩ 0 ⟨n, by omega⟩ (by show n = (n + 1 + 1 + 1) / 4 * 4 + 0; omega),
    T_eq V c a a2 hA hA2 ⟨(n + 1 + 1 + 1) / 4, by omega⟩ 1 ⟨n + 1, by omega⟩ (by show n + 1 = (n + 1 + 1 + 1) / 4 * 4 + 1; omega),
    T_eq V c a a2 hA hA2 ⟨(n + 1 + 1 + 1) / 4, by omega⟩ 2 ⟨n + 1 + 1, by omega⟩ (by show n + 1 + 1 = (n + 1 + 1 + 1) / 4 * 4 + 2; omega),
    T_eq V c a a2 hA hA2 ⟨(n + 1 + 1 + 1) / 4, by omega⟩ 3 ⟨n + 1 + 1 + 1, htv⟩ (by show n + 1 + 1 + 1 = (n + 1 + 1 + 1) / 4 * 4 + 3; omega)]

end Final

/-! ## The result array -/

/-- After the run the array of residual sums holds, at each half's place, the specification's half sum: the
    two write-backs (after each half's fourth tile) cover its two entries. -/
theorem arr1_4 (V : (c : Dev nD) → (b : Ref sig .tc) → Buf (Elt Idealize.ShloMosaic.Ideal) ((c : Thread nD τ).loc b)) (c : Dev nD) (a a2 : Cert.Spec.Arr)
    (hA : (V c main_arg0 : S4096x750.Idx → EReal) = a) (hA2 : (V c main_arg1 : S4096x750.Idx → EReal) = a2) :
    ∀ (c' : Fin 2),
      ((Cert.KernelIdeal.Fr.dat1 V c).arrAt 4 cfg1.N : S2x1x1.Idx → EReal) (ix3 c' 0 0) = Cert.Spec.halfRes a a2 c' :=
  ArrOfBlocks.arr1_4_of_last V c (fun c' => Cert.Spec.halfRes a a2 c') (last_eq V c a a2 hA hA2)

end Cert.KernelIdeal.Val1R

end
-- ==== Proof.KernelIdeal.KValue.lean ====
/-
  The tiled program's result as a function of its arguments. The last boundary's contents at the result buffer are the
  last host stretch applied to the three arrays the two passes leave; those hold the half-sums of squared and of
  absolute window differences and of squared residuals, because each pass finds the argument arrays as launched and
  the padded arrays the first host stretch built; so the result is the loss in the tiled grouping.
-/
import proofs.«125402_j3959959847206_1_alg».proof.Proof.KernelIdeal.FrMain
import proofs.«125402_j3959959847206_1_alg».proof.Proof.KernelIdeal.TailValue
import proofs.«125402_j3959959847206_1_alg».proof.Proof.KernelIdeal.HeadValue
import proofs.«125402_j3959959847206_1_alg».proof.Proof.KernelIdeal.Val0
import proofs.«125402_j3959959847206_1_alg».proof.Proof.KernelIdeal.Val1L
import proofs.«125402_j3959959847206_1_alg».proof.Proof.KernelIdeal.Val1R

set_option maxRecDepth 16384

noncomputable section

namespace Cert.KernelIdeal.KValue

open Cert.KernelIdeal Cert.KernelIdeal.Gen Cert.KernelIdeal.Fr
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first pass finds the first argument as launched. -/
theorem V1_arg0 (c : Dev nD) : (V1 m ρ c main_arg0 : S4096x750.Idx → EReal) = m ((c : Thread nD τ).loc main_arg0) :=
  StableHlo.after_of_writes_sub hostOps0 _ hostOps0_writes (r := main_arg0) (by decide)
/-- The first pass finds the padded first argument in `main_v6`. -/
theorem V1_v6 (c : Dev nD) (b : Fin 4096) (k : Fin 761) :
    (V1 m ρ c main_v6 : S4096x761.Idx → EReal) (ix2 b k) = Cert.Spec.pad (m ((c : Thread nD τ).loc main_arg0)) b k :=
  Cert.KernelIdeal.HeadValue.head_v6 (W0 m ρ c) b k
/-- The second pass finds both arguments as launched … -/
theorem V2_arg0 (c : Dev nD) : (V2 m ρ c main_arg0 : S4096x750.Idx → EReal) = m ((c : Thread nD τ).loc main_arg0) :=
  (W2_arr m ρ c 0).trans (((dat0 (V1 m ρ) c).arrAt_in 0 rfl _).trans ((A_eq0 (V1 m ρ) c 0).trans (V1_arg0 m ρ c)))
theorem V2_arg1 (c : Dev nD) : (V2 m ρ c main_arg1 : S4096x750.Idx → EReal) = m ((c : Thread nD τ).loc main_arg1) :=
  (W2_of_ne m ρ c main_arg1 (by decide)).trans (StableHlo.after_of_writes_sub hostOps0 _ hostOps0_writes (r := main_arg1) (by decide))
/-- … and the padded second argument in `main_v13`. -/
theorem V2_v13 (c : Dev nD) (b : Fin 4096) (k : Fin 761) :
    (V2 m ρ c main_v13 : S4096x761.Idx → EReal) (ix2 b k) = Cert.Spec.pad (m ((c : Thread nD τ).loc main_arg1)) b k :=
  (congrFun (W2_of_ne m ρ c main_v13 (by decide)) (ix2 b k)).trans (Cert.KernelIdeal.HeadValue.head_v13 (W0 m ρ c) b k)

/-- The three arrays the passes leave, at the second pass's exit. -/
theorem W3_v14 (c : Dev nD) (c' : Fin 2) (j : Fin 11) (i : Fin 750) :
    (W3 m ρ c (Proc.devRef .tc main_v14) : S2x11x750.Idx → EReal) (ix3 c' j i) = Cert.Spec.halfSq (m ((c : Thread nD τ).loc main_arg0)) c' j i :=
  (congrFun (W3_of_ne m ρ c main_v14 (by decide)) (ix3 c' j i)).trans
    ((congrFun (W2_arr m ρ c 2) (ix3 c' j i)).trans
      (Cert.KernelIdeal.Val0.arr0 (V1 m ρ) c _ (V1_arg0 m ρ c) (V1_v6 m ρ c) c' j i))
theorem W3_v15_0 (c : Dev nD) (c' : Fin 2) (j : Fin 11) (i : Fin 750) :
    (W3 m ρ c (Proc.devRef .tc main_v15_0) : S2x11x750.Idx → EReal) (ix3 c' j i) = Cert.Spec.halfAb (m ((c : Thread nD τ).loc main_arg1)) c' j i :=
  (congrFun (W3_arr m ρ c 3) (ix3 c' j i)).trans
    (Cert.KernelIdeal.Val1L.arr1_3 (V2 m ρ) c _ (V2_arg1 m ρ c) (V2_v13 m ρ c) c' j i)
theorem W3_v15_1 (c : Dev nD) (c' : Fin 2) :
    (W3 m ρ c (Proc.devRef .tc main_v15_1) : S2x1x1.Idx → EReal) (ix3 c' 0 0) = Cert.Spec.halfRes (m ((c : Thread nD τ).loc main_arg0)) (m ((c : Thread nD τ).loc main_arg1)) c' :=
  (congrFun (W3_arr m ρ c 4) (ix3 c' 0 0)).trans
    (Cert.KernelIdeal.Val1R.arr1_4 (V2 m ρ) c _ _ (V2_arg0 m ρ c) (V2_arg1 m ρ c) c')

/-- THE VALUE: the result buffer ends at the loss in the tiled grouping. -/
theorem value (c : Dev nD) :
    (W4 m ρ c (Proc.devRef .tc main_v40) : S_.Idx → EReal)
      = fun _ => Cert.Spec.kernelLoss (m ((c : Thread nD τ).loc main_arg0)) (m ((c : Thread nD τ).loc main_arg1)) := by
  refine (Cert.KernelIdeal.TailValue.tail_eq (W3 m ρ c)).trans ?_
  funext _
  unfold Cert.Spec.kernelLoss
  congr 1
  · funext c' j i; exact W3_v14 m ρ c c' j i
  · funext c' j i; exact W3_v15_0 m ρ c c' j i
  · funext c'; exact W3_v15_1 m ρ c c'

end Cert.KernelIdeal.KValue

end
-- ==== Proof.RefValue.lean ====
/-
  The reference program's result at the ideal instance, read as one function of its two argument arrays.

  The program pads each argument's rows by replicating their edges, gathers from the padded rows the windows
  `pad(x)[b, i + j]` (`i < 750`, `j < 11`), and from them forms the loss. Read index by index:

  * the gather's column index at `(i, j)` is the word of `i + j` (two iotas broadcast and added), and the
    normalisation `select(idx < 0, idx + 761, idx)` keeps it, since `0 ≤ i + j ≤ 759`; read signed and clamped into
    `[0, 760]` it is `i + j`;
  * so the gathered entry at `(b, i, j)` is the padded row `b` at `i + j`: the specification's `win`;
  * the elementwise operations and the sums over rows, over `(i, j)` and over columns are then, term by term, the
    specification's `refLoss` (each sum's initial value is the zero word, which is `0`).
-/
import proofs.«125402_j3959959847206_1_alg».proof.Proof.Gen.ReferenceIdeal.Run
import proofs.«125402_j3959959847206_1_alg».proof.Proof.Gen.ReferenceIdeal.Read
import proofs.«125402_j3959959847206_1_alg».proof.Proof.LibPadRead
import proofs.«125402_j3959959847206_1_alg».proof.Proof.Spec
import Idealize.ShloMosaic.Lib.StableHlo.Predicate
import Idealize.ShloMosaic.Lib.ValueIdxRank1

noncomputable section

namespace Cert.ReferenceIdeal.RefValue

open Cert.ReferenceIdeal Cert.ReferenceIdeal.Gen Cert.ReferenceIdeal.Read Idealize.ShloMosaic Idealize.ShloMosaic.ValueIdx
open Idealize.ShloMosaic.StableHlo.Predicate Idealize.ShloMosaic.TcCoe Idealize.SL.Sem
open scoped BigOperators

/-- The window index as a word: entry `(i, j)` of the sum of the two broadcast iotas is the word of `i + j`. -/
theorem idx_word (i : Fin 750) (j : Fin 11) :
    val_main_v20 (F := Ideal) (ix2 i j) = BitVec.ofNat 32 (i.val + j.val) := by
  rw [val_main_v20_apply, val_main_v18_apply, val_main_v15_apply, val_main_v14_apply, val_main_v19_apply,
    val_main_v17_apply, val_main_v16_apply]
  show IntOp.addi (BitVec.ofNat 32 i.val) (BitVec.ofNat 32 j.val) = BitVec.ofNat 32 (i.val + j.val)
  unfold IntOp.addi
  exact (BitVec.ofNat_add i.val j.val).symm

/-- The word of a number below `2 ^ 31` is not below zero as a signed word. -/
theorem not_slt_zero (n : Nat) (hn : n < 2 ^ 31) : ¬ IntOp.cmpi .slt (BitVec.ofNat 32 n) 0#32 = 1#1 := by
  have hN : (BitVec.ofNat 32 n).toNat = n := by
    rw [BitVec.toNat_ofNat]; exact Nat.mod_eq_of_lt (by omega)
  rw [slt_iff_toNat (by rw [hN]; exact hn) (by decide)]
  show ¬ (BitVec.ofNat 32 n).toNat < 0
  omega

/-- The first normalised index: `i + j` is not negative, so the select keeps it. -/
theorem idx25 (i : Fin 750) (j : Fin 11) :
    val_main_v25 (F := Ideal) (ix2 i j) = BitVec.ofNat 32 (i.val + j.val) := by
  rw [val_main_v25_apply, val_main_v22_apply, val_main_v21_apply, val_main_c_apply, idx_word]
  unfold Scalar.select
  exact if_neg (not_slt_zero _ (by have := i.isLt; have := j.isLt; omega))

/-- The second normalised index, the same. -/
theorem idx32 (i : Fin 750) (j : Fin 11) :
    val_main_v32 (F := Ideal) (ix2 i j) = BitVec.ofNat 32 (i.val + j.val) := by
  rw [val_main_v32_apply, val_main_v29_apply, val_main_v28_apply, val_main_c_1_apply, idx_word]
  unfold Scalar.select
  exact if_neg (not_slt_zero _ (by have := i.isLt; have := j.isLt; omega))

/-- The start-indices index `[i, j, 0]` at which result entry `(b, i, j)` of the window gather reads its column. -/
abbrev winIdx (i : Fin 750) (j : Fin 11) : S750x11x1.Idx := ix3 i j (⟨0, Nat.one_pos⟩ : Fin 1)

/-- **The window gather read at `(b, i, j)`**: row `b` of the operand (the row axis is the gather's offset axis, its
    slice the whole axis, so its start is `0`) at the column the start index `idx[i, j, 0]` names, read signed and
    clamped into `[0, 760]` (the column axis is collapsed, its slice one entry). -/
theorem gather_apply {α : Type} (x : S4096x761.Idx → α) (idx : IVec S750x11x1 32) (b : Fin 4096) (i : Fin 750) (j : Fin 11) :
    Host.gather gather_S4096x761_S750x11x1_S4096x750x11_0_1_n_n_1_2_40961 x idx (ix3 b i j)
      = x (ix2 b (⟨min (idx (winIdx i j)).toInt.toNat 760, by omega⟩ : Fin 761)) := by
  unfold Host.gather
  refine congrArg x (funext fun a => Fin.ext ?_)
  match a with
  | ⟨0, _⟩ =>
    show gather_S4096x761_S750x11x1_S4096x750x11_0_1_n_n_1_2_40961.start (ix3 b i j) idx 0
        + gather_S4096x761_S750x11x1_S4096x750x11_0_1_n_n_1_2_40961.batchCoord (ix3 b i j) 0
        + gather_S4096x761_S750x11x1_S4096x750x11_0_1_n_n_1_2_40961.offCoord (ix3 b i j) 0 = b.val
    rw [GatherDims.batchCoord_eq_zero _ _ _ List.not_mem_nil]
    unfold GatherDims.start
    rw [dif_neg (show ¬ (0 : Fin 2) ∈ gather_S4096x761_S750x11x1_S4096x750x11_0_1_n_n_1_2_40961.startIndexMap by decide)]
    unfold GatherDims.offCoord
    rw [dif_pos (show (0 : Fin 2) ∈ gather_S4096x761_S750x11x1_S4096x750x11_0_1_n_n_1_2_40961.sKept by decide)]
    show 0 + 0 + b.val = b.val
    omega
  | ⟨1, _⟩ =>
    show gather_S4096x761_S750x11x1_S4096x750x11_0_1_n_n_1_2_40961.start (ix3 b i j) idx 1
        + gather_S4096x761_S750x11x1_S4096x750x11_0_1_n_n_1_2_40961.batchCoord (ix3 b i j) 1
        + gather_S4096x761_S750x11x1_S4096x750x11_0_1_n_n_1_2_40961.offCoord (ix3 b i j) 1
        = min (idx (winIdx i j)).toInt.toNat 760
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4096x761_S750x11x1_S4096x750x11_0_1_n_n_1_2_40961.startIndexMap
      from List.mem_singleton.mpr rfl)]
    have hsi : gather_S4096x761_S750x11x1_S4096x750x11_0_1_n_n_1_2_40961.siIdx (ix3 b i j)
        ⟨List.idxOf (1 : Fin 2) gather_S4096x761_S750x11x1_S4096x750x11_0_1_n_n_1_2_40961.startIndexMap,
          List.idxOf_lt_length_iff.2 (List.mem_singleton.mpr rfl)⟩ = winIdx i j := by
      funext c; refine Fin.ext ?_
      match c with
      | ⟨0, _⟩ => rfl
      | ⟨1, _⟩ => rfl
      | ⟨2, _⟩ => rfl
    rw [hsi]
    rfl

/-- The same read, at a column named outright. -/
theorem gather_apply_of {α : Type} (x : S4096x761.Idx → α) (idx : IVec S750x11x1 32) (b : Fin 4096) (i : Fin 750) (j : Fin 11)
    (k : Fin 761) (hk : min (idx (winIdx i j)).toInt.toNat 760 = k.val) :
    Host.gather gather_S4096x761_S750x11x1_S4096x750x11_0_1_n_n_1_2_40961 x idx (ix3 b i j) = x (ix2 b k) := by
  rw [gather_apply]
  exact congrArg (fun k : Fin 761 => x (ix2 b k)) (Fin.ext hk)

/-- The column the window reads: `i + j`, below 761. -/
abbrev winCol (i : Fin 750) (j : Fin 11) : Fin 761 := ⟨i.val + j.val, by have := i.isLt; have := j.isLt; omega⟩

/-- The word of `i + j`, read signed and clamped into `[0, 760]`, is `i + j`. -/
theorem clamp_col (i : Fin 750) (j : Fin 11) :
    min (BitVec.ofNat 32 (i.val + j.val)).toInt.toNat 760 = (winCol i j).val := by
  rw [toInt_ofNat_small _ (by have := i.isLt; have := j.isLt; omega)]
  show min ((i.val + j.val : Nat) : Int).toNat 760 = i.val + j.val
  have := i.isLt; have := j.isLt; omega

/-- The first gather's start index at `[i, j, 0]`. -/
theorem idx26 (i : Fin 750) (j : Fin 11) : val_main_v26 (F := Ideal) (winIdx i j) = BitVec.ofNat 32 (i.val + j.val) := by
  rw [val_main_v26_apply]
  have h : idx_main_v26 (winIdx i j) = ix2 i j :=
    funext fun a => Fin.ext (by match a with | ⟨0, _⟩ => rfl | ⟨1, _⟩ => rfl)
  rw [h]; exact idx25 i j

/-- The second gather's start index at `[i, j, 0]`. -/
theorem idx33 (i : Fin 750) (j : Fin 11) : val_main_v33 (F := Ideal) (winIdx i j) = BitVec.ofNat 32 (i.val + j.val) := by
  rw [val_main_v33_apply]
  have h : idx_main_v33 (winIdx i j) = ix2 i j :=
    funext fun a => Fin.ext (by match a with | ⟨0, _⟩ => rfl | ⟨1, _⟩ => rfl)
  rw [h]; exact idx32 i j

/-- The padded first argument at `(b, k)`. -/
theorem v13_at (a : Cert.Spec.Arr) (b : Fin 4096) (k : Fin 761) :
    val_main_v13 (F := Ideal) a (ix2 b k) = Cert.Spec.pad a b k := by
  unfold val_main_v13 val_main_v9 val_main_v8 val_main_v7 val_main_v12 val_main_v11 val_main_v10
  exact Cert.PadRead.pad_apply a _ _ _ _ _ _ _ b k

/-- The padded second argument at `(b, k)`. -/
theorem v6_at (a2 : Cert.Spec.Arr) (b : Fin 4096) (k : Fin 761) :
    val_main_v6 (F := Ideal) a2 (ix2 b k) = Cert.Spec.pad a2 b k := by
  unfold val_main_v6 val_main_v2 val_main_v1 val_main_v0 val_main_v5 val_main_v4 val_main_v3
  exact Cert.PadRead.pad_apply a2 _ _ _ _ _ _ _ b k

/-- The first argument's window entry. -/
theorem v27_at (a : Cert.Spec.Arr) (b : Fin 4096) (i : Fin 750) (j : Fin 11) :
    val_main_v27 (F := Ideal) a (ix3 b i j) = Cert.Spec.win a b i j := by
  unfold val_main_v27
  rw [gather_apply_of _ _ b i j (winCol i j) (by rw [idx26]; exact clamp_col i j), v13_at]
  rfl

/-- The second argument's window entry. -/
theorem v34_at (a2 : Cert.Spec.Arr) (b : Fin 4096) (i : Fin 750) (j : Fin 11) :
    val_main_v34 (F := Ideal) a2 (ix3 b i j) = Cert.Spec.win a2 b i j := by
  unfold val_main_v34
  rw [gather_apply_of _ _ b i j (winCol i j) (by rw [idx33]; exact clamp_col i j), v6_at]
  rfl

/-- The first argument broadcast along the window offsets. -/
theorem v36_at (a : Cert.Spec.Arr) (b : Fin 4096) (i : Fin 750) (j : Fin 11) :
    val_main_v36 (F := Ideal) a (ix3 b i j) = a (ix2 b i) := by
  rw [val_main_v36_apply, val_main_v35_apply]
  exact congrArg a (funext fun c => Fin.ext (by match c with | ⟨0, _⟩ => rfl | ⟨1, _⟩ => rfl))

/-- The second argument broadcast along the window offsets. -/
theorem v46_at (a2 : Cert.Spec.Arr) (b : Fin 4096) (i : Fin 750) (j : Fin 11) :
    val_main_v46 (F := Ideal) a2 (ix3 b i j) = a2 (ix2 b i) := by
  rw [val_main_v46_apply, val_main_v45_apply]
  exact congrArg a2 (funext fun c => Fin.ext (by match c with | ⟨0, _⟩ => rfl | ⟨1, _⟩ => rfl))

/-- The squared window difference. -/
theorem v38_at (a : Cert.Spec.Arr) (b : Fin 4096) (i : Fin 750) (j : Fin 11) :
    val_main_v38 (F := Ideal) a (ix3 b i j) = Cert.Spec.sqd a b i j := by
  rw [val_main_v38_apply, val_main_v37_apply, v36_at, v27_at]
  rfl

/-- Its sum over the rows. -/
theorem v39_at (a : Cert.Spec.Arr) (i : Fin 750) (j : Fin 11) :
    val_main_v39 (F := Ideal) a (ix2 i j) = ∑ b : Fin 4096, Cert.Spec.sqd a b i j := by
  rw [val_main_v39_apply, val_main_cst_apply, Ideal.ofBits_def, Ideal.ofBits_zero_f32, zero_add]
  refine Finset.sum_congr rfl fun b _ => ?_
  have h : idx_main_v39 (ix2 i j) b = ix3 b i j :=
    funext fun c => Fin.ext (by match c with | ⟨0, _⟩ => rfl | ⟨1, _⟩ => rfl | ⟨2, _⟩ => rfl)
  rw [h, v38_at]

/-- The weight `exp((−s) / 2)`. -/
theorem v43_at (a : Cert.Spec.Arr) (i : Fin 750) (j : Fin 11) :
    val_main_v43 (F := Ideal) a (ix2 i j)
      = Ideal.exp (Ideal.div (-(∑ b : Fin 4096, Cert.Spec.sqd a b i j)) Cert.Spec.cTwo) := by
  rw [val_main_v43_apply, val_main_v42_apply, val_main_v40_apply, v39_at, val_main_v41_apply, val_main_cst_3_apply]
  rfl

/-- The weight broadcast along the rows. -/
theorem v49_at (a : Cert.Spec.Arr) (b : Fin 4096) (i : Fin 750) (j : Fin 11) :
    val_main_v49 (F := Ideal) a (ix3 b i j) = val_main_v43 (F := Ideal) a (ix2 i j) := by
  rw [val_main_v49_apply, val_main_v44_apply]
  exact congrArg (val_main_v43 (F := Ideal) a) (funext fun c => Fin.ext (by match c with | ⟨0, _⟩ => rfl | ⟨1, _⟩ => rfl))

/-- The absolute window difference. -/
theorem v48_at (a2 : Cert.Spec.Arr) (b : Fin 4096) (i : Fin 750) (j : Fin 11) :
    val_main_v48 (F := Ideal) a2 (ix3 b i j) = Cert.Spec.abd a2 b i j := by
  rw [val_main_v48_apply, val_main_v47_apply, v46_at, v34_at]
  rfl

/-- The weighted absolute differences summed over the rows and divided by the row count. -/
theorem v53_at (a a2 : Cert.Spec.Arr) (i : Fin 750) (j : Fin 11) :
    val_main_v53 (F := Ideal) a a2 (ix2 i j)
      = Ideal.div (∑ b : Fin 4096,
          Ideal.exp (Ideal.div (-(∑ b' : Fin 4096, Cert.Spec.sqd a b' i j)) Cert.Spec.cTwo) * Cert.Spec.abd a2 b i j)
          Cert.Spec.cRows := by
  rw [val_main_v53_apply, val_main_v51_apply, val_main_cst_4_apply, Ideal.ofBits_def, Ideal.ofBits_zero_f32, zero_add,
    val_main_v52_apply, val_main_cst_5_apply]
  show Ideal.div (∑ k : Fin 4096, val_main_v50 (F := Ideal) a a2 (idx_main_v51 (ix2 i j) k)) Cert.Spec.cRows = _
  refine congrArg (Ideal.div · Cert.Spec.cRows) (Finset.sum_congr rfl fun b _ => ?_)
  have h : idx_main_v51 (ix2 i j) b = ix3 b i j :=
    funext fun c => Fin.ext (by match c with | ⟨0, _⟩ => rfl | ⟨1, _⟩ => rfl | ⟨2, _⟩ => rfl)
  rw [h, val_main_v50_apply, v49_at, v43_at, v48_at]
  rfl

/-- The window term: the sum over `(i, j)`. -/
theorem v54_at (a a2 : Cert.Spec.Arr) (z : S_.Idx) :
    val_main_v54 (F := Ideal) a a2 z
      = ∑ i : Fin 750, ∑ j : Fin 11,
          Ideal.div (∑ b : Fin 4096,
            Ideal.exp (Ideal.div (-(∑ b' : Fin 4096, Cert.Spec.sqd a b' i j)) Cert.Spec.cTwo) * Cert.Spec.abd a2 b i j)
            Cert.Spec.cRows := by
  rw [val_main_v54_apply, val_main_cst_6_apply, Ideal.ofBits_def, Ideal.ofBits_zero_f32, zero_add, sum_idx2]
  exact Finset.sum_congr rfl fun i _ => Finset.sum_congr rfl fun j _ => v53_at a a2 i j

/-- A row's squared residuals, summed over the columns and scaled. -/
theorem v59_at (a a2 : Cert.Spec.Arr) (b : Fin 4096) :
    val_main_v59 (F := Ideal) a a2 (ix1 b) = Cert.Spec.cTheta * ∑ i : Fin 750, Cert.Spec.rsq a a2 b i := by
  rw [val_main_v59_apply, val_main_v58_apply, val_main_cst_8_apply, val_main_v57_apply, val_main_cst_7_apply,
    Ideal.ofBits_def, Ideal.ofBits_def, Ideal.ofBits_zero_f32, zero_add]
  show Cert.Spec.cTheta * (∑ k : Fin 750, val_main_v56 (F := Ideal) a a2 (idx_main_v57 (ix1 b) k)) = _
  refine congrArg (Cert.Spec.cTheta * ·) (Finset.sum_congr rfl fun i _ => ?_)
  have h : idx_main_v57 (ix1 b) i = ix2 b i :=
    funext fun c => Fin.ext (by match c with | ⟨0, _⟩ => rfl | ⟨1, _⟩ => rfl)
  rw [h, val_main_v56_apply, val_main_v55_apply]
  rfl

/-- The residual term's sum over the rows. -/
theorem v60_at (a a2 : Cert.Spec.Arr) (z : S_.Idx) :
    val_main_v60 (F := Ideal) a a2 z
      = ∑ b : Fin 4096, Cert.Spec.cTheta * ∑ i : Fin 750, Cert.Spec.rsq a a2 b i := by
  rw [val_main_v60_apply, val_main_cst_9_apply, Ideal.ofBits_def, Ideal.ofBits_zero_f32, zero_add,
    ← Equiv.sum_comp (idxEquiv1 (n := 4096)).symm]
  exact Finset.sum_congr rfl fun b _ => v59_at a a2 b

/-- **The reference's result is the loss in the plain program's grouping.** -/
theorem val63 (a a2 : Cert.Spec.Arr) (z : S_.Idx) :
    val_main_v63 (F := Ideal) a a2 z = Cert.Spec.refLoss a a2 := by
  rw [val_main_v63_apply, val_main_v62_apply, v54_at, val_main_v61_apply, v60_at, val_main_cst_10_apply,
    val_main_cst_11_apply]
  rfl

/-- **The run's result buffer**: at every index of the rank-zero result, the loss of the two argument buffers. -/
theorem result_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v63 (F := Ideal) m c
      = fun _ => Cert.Spec.refLoss (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) := by
  rw [Read.val_main_v63_eq]
  funext z
  exact val63 _ _ z

end Cert.ReferenceIdeal.RefValue

end
-- ==== Proof.Algebra.lean ====
/-
  The two groupings of the loss agree.

  Every entry of the two arrays is a real number, so every window difference, squared difference,
  absolute difference and squared residual is a real number, and the whole computation takes place in
  the reals, where multiplication distributes over finite sums. The rows regroup as two halves of
  four tiles of 512 rows through the bijection `row`; division by the real 2 or 4096 is the product
  with the reciprocal; `s * (-1/2) = (-s) * (1/2)`; the order of the sums over `(j, i)` is exchanged.
-/
import proofs.«125402_j3959959847206_1_alg».proof.Proof.Spec
import Mathlib.Algebra.BigOperators.Fin
import Mathlib.Data.Fintype.BigOperators
import Mathlib.Data.EReal.Operations

noncomputable section

namespace Cert.Algebra

open Idealize.ShloMosaic Idealize.ShloMosaic.ValueIdx Cert.Spec
open scoped BigOperators

/-! ## Sums of real numbers inside the extended reals -/

/-- A finite sum of real numbers, computed in the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert x s hx ih => rw [Finset.sum_insert hx, Finset.sum_insert hx, ih, EReal.coe_add]

/-! ## The rows as two halves of four tiles of 512 rows -/

/-- `row` as a map on triples is injective: the triple is the digits of the row number. -/
theorem row_injective : Function.Injective (fun p : Fin 2 × Fin 4 × Fin 512 => row p.1 p.2.1 p.2.2) := by
  rintro ⟨c, t, r⟩ ⟨c', t', r'⟩ h
  have hv : (c.val * 4 + t.val) * 512 + r.val = (c'.val * 4 + t'.val) * 512 + r'.val := congrArg Fin.val h
  have hc := c.isLt; have ht := t.isLt; have hr := r.isLt
  have hc' := c'.isLt; have ht' := t'.isLt; have hr' := r'.isLt
  have h1 : c = c' := Fin.ext (by omega)
  have h2 : t = t' := Fin.ext (by omega)
  have h3 : r = r' := Fin.ext (by omega)
  rw [h1, h2, h3]

/-- `row` as a map on triples is a bijection onto the 4096 rows. -/
theorem row_bijective : Function.Bijective (fun p : Fin 2 × Fin 4 × Fin 512 => row p.1 p.2.1 p.2.2) := by
  rw [Fintype.bijective_iff_injective_and_card]
  refine ⟨row_injective, ?_⟩
  simp [Fintype.card_prod, Fintype.card_fin]

/-- A sum over the 4096 rows is the sum over the halves, the tiles and the rows of a tile. -/
theorem sum_row {M : Type*} [AddCommMonoid M] (f : Fin 4096 → M) :
    ∑ b : Fin 4096, f b = ∑ c : Fin 2, ∑ t : Fin 4, ∑ r : Fin 512, f (row c t r) := by
  rw [← Fintype.sum_bijective _ row_bijective (fun p => f (row p.1 p.2.1 p.2.2)) f (fun _ => rfl)]
  rw [Fintype.sum_prod_type]
  refine Finset.sum_congr rfl fun c _ => ?_
  rw [Fintype.sum_prod_type]

/-- The two halves' sums added are the sum over all rows. -/
theorem halves_add {M : Type*} [AddCommMonoid M] (f : Fin 4096 → M) :
    (∑ t : Fin 4, ∑ r : Fin 512, f (row 0 t r)) + (∑ t : Fin 4, ∑ r : Fin 512, f (row 1 t r)) = ∑ b : Fin 4096, f b := by
  rw [sum_row f, Fin.sum_univ_two]

/-! ## The literals -/

theorem cNegHalf_eq : cNegHalf = ((-(1 / 2) : ℝ) : EReal) := by
  simp [cNegHalf, Ideal.ofBits, Ideal.ieee, -EReal.coe_mul]; norm_num

theorem cTwo_eq : cTwo = ((2 : ℝ) : EReal) := by
  simp [cTwo, Ideal.ofBits, Ideal.ieee, -EReal.coe_mul]; norm_num

theorem cRows_eq : cRows = ((4096 : ℝ) : EReal) := by
  simp [cRows, Ideal.ofBits, Ideal.ieee, -EReal.coe_mul]; norm_num

theorem cTheta_real : ∃ θ : ℝ, cTheta = (θ : EReal) := by
  simp [cTheta, Ideal.ofBits, Ideal.ieee, -EReal.coe_mul]

/-! ## Every term is a real number -/

section Terms

variable (x : Arr) (hx : ∀ i, ∃ r : ℝ, x i = (r : EReal))
include hx

/-- An entry of the padded row is an entry of the row. -/
theorem pad_real (b : Fin 4096) (k : Fin 761) : ∃ r : ℝ, pad x b k = (r : EReal) := by
  unfold Spec.pad
  split_ifs
  · exact hx _
  · exact hx _
  · exact hx _

theorem win_real (b : Fin 4096) (i : Fin 750) (j : Fin 11) : ∃ r : ℝ, win x b i j = (r : EReal) :=
  pad_real x hx b _

theorem sqd_real (b : Fin 4096) (i : Fin 750) (j : Fin 11) : ∃ r : ℝ, sqd x b i j = (r : EReal) := by
  obtain ⟨u, hu⟩ := hx (ix2 b i)
  obtain ⟨w, hw⟩ := win_real x hx b i j
  exact ⟨(u - w) * (u - w), by rw [sqd, hu, hw, ← EReal.coe_sub, ← EReal.coe_mul]⟩

theorem abd_real (b : Fin 4096) (i : Fin 750) (j : Fin 11) : ∃ r : ℝ, abd x b i j = (r : EReal) := by
  obtain ⟨u, hu⟩ := hx (ix2 b i)
  obtain ⟨w, hw⟩ := win_real x hx b i j
  rw [abd, hu, hw, ← EReal.coe_sub, ← EReal.coe_neg]
  rcases le_total ((u - w : ℝ) : EReal) ((-(u - w) : ℝ) : EReal) with h | h
  · exact ⟨_, max_eq_right h⟩
  · exact ⟨_, max_eq_left h⟩

end Terms

theorem rsq_real (a a2 : Arr) (ha : ∀ i, ∃ r : ℝ, a i = (r : EReal)) (ha2 : ∀ i, ∃ r : ℝ, a2 i = (r : EReal))
    (b : Fin 4096) (i : Fin 750) : ∃ r : ℝ, rsq a a2 b i = (r : EReal) := by
  obtain ⟨u, hu⟩ := ha (ix2 b i)
  obtain ⟨v, hv⟩ := ha2 (ix2 b i)
  exact ⟨(u - v) * (u - v), by rw [rsq, hu, hv, ← EReal.coe_sub, ← EReal.coe_mul]⟩

/-! ## The identity in the reals -/

/-- The two groupings agree for real terms: the halves regroup to all rows, the weight and the
    reciprocal of the row count move inside the sums, and the sums over `(j, i)` exchange. -/
theorem loss_real (sq ab : Fin 4096 → Fin 750 → Fin 11 → ℝ) (rs : Fin 4096 → Fin 750 → ℝ) (θ : ℝ) :
    (∑ j : Fin 11, ∑ i : Fin 750,
        Real.exp (((∑ t : Fin 4, ∑ r : Fin 512, sq (row 0 t r) i j) + (∑ t : Fin 4, ∑ r : Fin 512, sq (row 1 t r) i j))
            * (-(1 / 2)))
          * ((∑ t : Fin 4, ∑ r : Fin 512, ab (row 0 t r) i j) + (∑ t : Fin 4, ∑ r : Fin 512, ab (row 1 t r) i j)))
        * (1 / 4096)
      + θ * ((∑ t : Fin 4, ∑ r : Fin 512, ∑ i : Fin 750, rs (row 0 t r) i)
              + (∑ t : Fin 4, ∑ r : Fin 512, ∑ i : Fin 750, rs (row 1 t r) i)) * (1 / 4096)
    = (∑ i : Fin 750, ∑ j : Fin 11,
        (∑ b : Fin 4096, Real.exp (-(∑ b' : Fin 4096, sq b' i j) * (1 / 2)) * ab b i j) * (1 / 4096))
      + (∑ b : Fin 4096, θ * ∑ i : Fin 750, rs b i) * (1 / 4096) := by
  have hS : ∀ i j, (∑ t : Fin 4, ∑ r : Fin 512, sq (row 0 t r) i j) + (∑ t : Fin 4, ∑ r : Fin 512, sq (row 1 t r) i j)
      = ∑ b : Fin 4096, sq b i j := fun i j => halves_add (fun b => sq b i j)
  have hL : ∀ i j, (∑ t : Fin 4, ∑ r : Fin 512, ab (row 0 t r) i j) + (∑ t : Fin 4, ∑ r : Fin 512, ab (row 1 t r) i j)
      = ∑ b : Fin 4096, ab b i j := fun i j => halves_add (fun b => ab b i j)
  have hR : (∑ t : Fin 4, ∑ r : Fin 512, ∑ i : Fin 750, rs (row 0 t r) i)
      + (∑ t : Fin 4, ∑ r : Fin 512, ∑ i : Fin 750, rs (row 1 t r) i)
      = ∑ b : Fin 4096, ∑ i : Fin 750, rs b i := halves_add (fun b => ∑ i : Fin 750, rs b i)
  simp only [hS, hL, hR]
  congr 1
  · rw [Finset.sum_comm, Finset.sum_mul]
    refine Finset.sum_congr rfl fun i _ => ?_
    rw [Finset.sum_mul]
    refine Finset.sum_congr rfl fun j _ => ?_
    have he : (∑ b : Fin 4096, sq b i j) * (-(1 / 2)) = -(∑ b : Fin 4096, sq b i j) * (1 / 2) := by ring
    rw [← Finset.mul_sum, he]
  · rw [← Finset.mul_sum]

/-! ## The two groupings of the loss -/

theorem kernelLoss_eq_refLoss (a a2 : Arr)
    (ha : ∀ i, ∃ r : ℝ, a i = (r : EReal)) (ha2 : ∀ i, ∃ r : ℝ, a2 i = (r : EReal)) :
    kernelLoss a a2 = refLoss a a2 := by
  choose sq hsq using fun b i j => sqd_real a ha b i j
  choose ab hab using fun b i j => abd_real a2 ha2 b i j
  choose rs hrs using fun b i => rsq_real a a2 ha ha2 b i
  obtain ⟨θ, hθ⟩ := cTheta_real
  have h2 : (2 : ℝ) ≠ 0 := by norm_num
  have h4096 : (4096 : ℝ) ≠ 0 := by norm_num
  unfold kernelLoss refLoss tail halfSq halfAb halfRes
  simp only [hsq, hab, hrs, hθ, cNegHalf_eq, cTwo_eq, cRows_eq, Ideal.div_coe h2, Ideal.div_coe h4096,
    coe_sum, ← EReal.coe_add, ← EReal.coe_mul, ← EReal.coe_neg, Ideal.exp_coe]
  rw [loss_real sq ab rs θ]

end Cert.Algebra

end
-- ==== Proof.Finite.lean ====
/-
  The precondition says every entry of both arrays is a real number.

  The printed predicate is the conjunction of two tests, one per array: every entry's absolute value
  `max x (-x)` is strictly below the pattern `0x7F800000`, which denotes `+∞`. A conjunction of one-bit
  words is 1 exactly when both are; a reduction by `and` over all axes that came out 1 met a 1 at every
  index; and an extended real whose absolute value is below `+∞` is neither `+∞` nor `-∞`, hence a real.
-/
import proofs.«125402_j3959959847206_1_alg».proof.Pre_finite_inputs
import proofs.«125402_j3959959847206_1_alg».proof.Proof.Gen.Pre_finite_inputs
import proofs.«125402_j3959959847206_1_alg».proof.Proof.Spec
import Idealize.ShloMosaic.Lib.ReduceAll

noncomputable section

namespace Cert.Finite

open Idealize.ShloMosaic

/-- The rank-0 shape has one index. -/
instance : Subsingleton Cert.Pre_finite_inputs.S_.Idx := ⟨fun a b => funext fun d => d.elim0⟩

/-- The pattern `0x7F800000` (exponent all ones, significand zero, sign clear) denotes `+∞`. -/
theorem ofBits_inf : Ideal.ofBits .f32 0x7F800000#32 = (⊤ : EReal) := by
  simp [Ideal.ofBits, Ideal.ieee]

/-- An extended real whose absolute value is strictly below `+∞` is a real: at `-∞` and at `+∞` the
    absolute value is `+∞`, which is not below itself. -/
theorem real_of_abs_lt (x : EReal) (h : Ideal.cmp .olt (max x (-x)) (Ideal.ofBits .f32 0x7F800000#32) = 1#1) :
    ∃ r : ℝ, x = (r : EReal) := by
  rw [ofBits_inf] at h
  induction x using EReal.rec with
  | bot => simp [Ideal.cmp] at h
  | coe r => exact ⟨r, rfl⟩
  | top => simp [Ideal.cmp] at h

/-- Under the precondition every entry of either array is a real number. -/
theorem finite_of_pre [Cert.Pre_finite_inputs.Facts] (x0 x1 : Cert.Spec.Arr)
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ValueIdx.ix0
  dsimp only [Cert.Pre_finite_inputs.fn] at h0
  -- the final `and` of the two tests
  obtain ⟨hA, hB⟩ := IntOp.andi_eq_one.1 h0
  -- each test is an `and`-reduction over all axes of the entrywise comparison `|x| < +∞`
  refine ⟨fun i => ?_, fun i => ?_⟩
  · exact real_of_abs_lt (x0 i) (Host.reduce_andi_all _ _ _ _ _ hA i)
  · exact real_of_abs_lt (x1 i) (Host.reduce_andi_all _ _ _ _ _ hB i)

end Cert.Finite

end
-- ==== Proof.lean ====
/-
  The certificate. Both programs compute the windowed, bilaterally weighted L1 loss of two arrays [4096, 750]: with
  each row padded by replicating its edges and the window term at (i, j) read at i + j,
      ( ∑ᵢⱼ exp(−½ ∑_b (a[b,i] − win a b i j)²) · ∑_b |a₂[b,i] − win a₂ b i j| / 4096 + 0.1 · ∑_b ∑ᵢ (a − a₂)² / 4096 ) · 1.
  The tiled program sums over the rows in two halves of four tiles in two passes and finishes on the small arrays;
  the plain program forms the whole [4096, 750, 11] arrays. Frames: each tiled program's run through its two passes
  leaves its arguments unwritten; the plain program's is its run. The idealization rewrote nothing. Over the extended
  reals the two results are one number when the inputs are finite: sums regroup freely, and a finite weight, the row
  count and the literal 0.1 distribute over sums of reals.
-/
import proofs.«125402_j3959959847206_1_alg».proof.Defs
import proofs.«125402_j3959959847206_1_alg».proof.Proof.Kernel.FrMain
import proofs.«125402_j3959959847206_1_alg».proof.Proof.KernelIdeal.FrMain
import proofs.«125402_j3959959847206_1_alg».proof.Proof.KernelIdeal.KValue
import proofs.«125402_j3959959847206_1_alg».proof.Proof.RefValue
import proofs.«125402_j3959959847206_1_alg».proof.Proof.Algebra
import proofs.«125402_j3959959847206_1_alg».proof.Proof.Finite
import proofs.«125402_j3959959847206_1_alg».proof.Proof.Gen.Kernel
import proofs.«125402_j3959959847206_1_alg».proof.Proof.Gen.KernelIdeal
import proofs.«125402_j3959959847206_1_alg».proof.Proof.Gen.ReferenceIdeal
import proofs.«125402_j3959959847206_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level tiled program runs to the end and leaves its arguments as launched. -/
theorem frame_p : Cert.frame_Kernel := fun m ρ _ => Cert.Kernel.Fr.frame m ρ
/-- So does its reading over the extended reals. -/
theorem frame_pi : Cert.frame_KernelIdeal := fun m ρ _ => Cert.KernelIdeal.Fr.frame m ρ
/-- The plain program's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the loss of their (agreeing, finite) arguments: the tiled one in its grouping, the plain
    one in its own, and the two groupings are one extended real. -/
theorem algebraic : Cert.algebraic_KernelIdeal_ReferenceIdeal := by
  intro m ρ m' ρ' hpre hagree
  refine ⟨fun c => (fun _ => Cert.Spec.kernelLoss (m ((c.tc : Thread Cert.KernelIdeal.nD Cert.KernelIdeal.τ).loc Cert.KernelIdeal.main_arg0))
      (m ((c.tc : Thread Cert.KernelIdeal.nD Cert.KernelIdeal.τ).loc Cert.KernelIdeal.main_arg1))), ?_, ?_⟩
  · refine (θ_run Cert.KernelIdeal.defs _ _).mono (fun r h c => ⟨?_, ?_, ?_⟩) (Cert.KernelIdeal.Fr.run (F := Ideal) m ρ)
    · exact (h c _ (Cert.KernelIdeal.Fr.mem_uc Cert.KernelIdeal.main_v40 (by decide))).trans (Cert.KernelIdeal.KValue.value m ρ c)
    · exact (h c _ (Cert.KernelIdeal.Fr.mem_uc Cert.KernelIdeal.main_arg0 (by decide))).trans (Cert.KernelIdeal.Fr.W4_main_arg0 m ρ c)
    · exact (h c _ (Cert.KernelIdeal.Fr.mem_uc Cert.KernelIdeal.main_arg1 (by decide))).trans (Cert.KernelIdeal.Fr.W4_main_arg1 m ρ c)
  · refine (θ_run Cert.ReferenceIdeal.defs _ _).mono (fun r h c => ⟨(h c).1.trans ?_, (h c).2⟩)
      (Cert.ReferenceIdeal.Value.run (F := Ideal) m' ρ')
    have hfin := Cert.Finite.finite_of_pre _ _ (hpre c)
    rw [Cert.ReferenceIdeal.RefValue.result_eq m' c, (hagree c).1, (hagree c).2]
    funext _
    exact (Cert.Algebra.kernelLoss_eq_refLoss _ _ hfin.1 hfin.2).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
